-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x19x512x512 : Shape := ⟨4, ![16, 19, 512, 512]⟩
abbrev S16x512x512 : Shape := ⟨3, ![16, 512, 512]⟩
abbrev S_ : Shape := ⟨0, ![]⟩

class Facts : Prop where
  bcast_S_S16x19x512x512 : S_.BroadcastsInDim S16x19x512x512 (![] : Fin 0 → Fin S16x19x512x512.rank)
  reducesTo_S16x19x512x512_S_d0_1_2_3 : S16x19x512x512.ReducesTo [0, 1, 2, 3] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_

variable [Facts]

def fn_part1 {F : FTy → Type} [FloatOps F] (main_arg2 : FVec F S16x512x512 .f32) (main_v12 : IVec S_ 1) (main_v15 : IVec S_ 1) : IVec S_ 1 :=
  let main_v16 : IVec S_ 1 := andi main_v12 main_v15
  let main_cst_6 : FVec F S_ .f32 := constant S_ .f32 0x00000000#32
  let main_v17 : FVec F S16x512x512 .f32 := broadcastInDim S16x512x512 ![] bcast_S_S16x512x512 main_cst_6
  let main_v18 : IVec S16x512x512 1 := cmpf .oeq main_arg2 main_v17
  let main_cst_7 : FVec F S_ .f32 := constant S_ .f32 0x3F800000#32
  let main_v19 : FVec F S16x512x512 .f32 := broadcastInDim S16x512x512 ![] bcast_S_S16x512x512 main_cst_7
  let main_v20 : IVec S16x512x512 1 := cmpf .oeq main_arg2 main_v19
  let main_v21 : IVec S16x512x512 1 := ori main_v18 main_v20
  let main_c_8 : IVec S_ 1 := constantI S_ 1 1#1
  let main_v22 : IVec S_ 1 := (fun x v => Host.reduce IntOp.andi x v reducesTo_S16x512x512_S_d0_1_2 h_S_) main_v21 main_c_8
  let main_v23 : IVec S_ 1 := andi main_v16 main_v22
  main_v23

def fn {F : FTy → Type} [FloatOps F] (main_arg0 : FVec F S16x19x512x512 .f32) (main_arg1 : IVec S16x512x512 32) (main_arg2 : FVec F S16x512x512 .f32) : IVec S_ 1 :=
  let main_v0 : FVec F S16x19x512x512 .f32 := Host.absf main_arg0
  let main_cst : FVec F S_ .f32 := constant S_ .f32 0x7F800000#32
  let main_v1 : FVec F S16x19x512x512 .f32 := broadcastInDim S16x19x512x512 ![] bcast_S_S16x19x512x512 main_cst
  let main_v2 : IVec S16x19x512x512 1 := cmpf .olt main_v0 main_v1
  let main_c : IVec S_ 1 := constantI S_ 1 1#1
  let main_v3 : IVec S_ 1 := (fun x v => Host.reduce IntOp.andi x v reducesTo_S16x19x512x512_S_d0_1_2_3 h_S_) main_v2 main_c
  let main_v4 : FVec F S16x512x512 .f32 := Host.absf main_arg2
  let main_cst_0 : FVec F S_ .f32 := constant S_ .f32 0x7F800000#32
  let main_v5 : FVec F S16x512x512 .f32 := broadcastInDim S16x512x512 ![] bcast_S_S16x512x512 main_cst_0
  let main_v6 : IVec S16x512x512 1 := cmpf .olt main_v4 main_v5
  let main_c_1 : IVec S_ 1 := constantI S_ 1 1#1
  let main_v7 : IVec S_ 1 := (fun x v => Host.reduce IntOp.andi x v reducesTo_S16x512x512_S_d0_1_2 h_S_) main_v6 main_c_1
  let main_v8 : IVec S_ 1 := andi main_v3 main_v7
  let main_c_2 : IVec S_ 32 := constantI S_ 32 0#32
  let main_v9 : IVec S16x512x512 32 := broadcastInDim S16x512x512 ![] bcast_S_S16x512x512 main_c_2
  let main_v10 : IVec S16x512x512 1 := cmpi .sge main_arg1 main_v9
  let main_c_3 : IVec S_ 1 := constantI S_ 1 1#1
  let main_v11 : IVec S_ 1 := (fun x v => Host.reduce IntOp.andi x v reducesTo_S16x512x512_S_d0_1_2 h_S_) main_v10 main_c_3
  let main_v12 : IVec S_ 1 := andi main_v8 main_v11
  let main_c_4 : IVec S_ 32 := constantI S_ 32 19#32
  let main_v13 : IVec S16x512x512 32 := broadcastInDim S16x512x512 ![] bcast_S_S16x512x512 main_c_4
  let main_v14 : IVec S16x512x512 1 := cmpi .slt main_arg1 main_v13
  let main_c_5 : IVec S_ 1 := constantI S_ 1 1#1
  let main_v15 : IVec S_ 1 := (fun x v => Host.reduce IntOp.andi x v reducesTo_S16x512x512_S_d0_1_2 h_S_) main_v14 main_c_5
  fn_part1 (F := F) main_arg2 main_v12 main_v15
-- ==== Kernel.lean ====
abbrev S16x19x512x512 : Shape := ⟨4, ![16, 19, 512, 512]⟩
abbrev S16x512x512 : Shape := ⟨3, ![16, 512, 512]⟩
abbrev S16x1x128 : Shape := ⟨3, ![16, 1, 128]⟩
abbrev S1x19x128x512 : Shape := ⟨4, ![1, 19, 128, 512]⟩
abbrev S1x128x512 : Shape := ⟨3, ![1, 128, 512]⟩
abbrev S1x1x128 : Shape := ⟨3, ![1, 1, 128]⟩
abbrev S1x128 : Shape := ⟨2, ![1, 128]⟩
abbrev S19x128x512 : Shape := ⟨3, ![19, 128, 512]⟩
abbrev S128x512 : Shape := ⟨2, ![128, 512]⟩
abbrev S128 : Shape := ⟨1, ![128]⟩
abbrev S128x1 : Shape := ⟨2, ![128, 1]⟩
abbrev S1 : Shape := ⟨1, ![1]⟩
abbrev S1x1 : Shape := ⟨2, ![1, 1]⟩
abbrev S16x1x19 : Shape := ⟨3, ![16, 1, 19]⟩
abbrev S16x19 : Shape := ⟨2, ![16, 19]⟩
abbrev S_ : Shape := ⟨0, ![]⟩
abbrev S19 : Shape := ⟨1, ![19]⟩
abbrev S16x1x1 : Shape := ⟨3, ![16, 1, 1]⟩
abbrev S16 : Shape := ⟨1, ![16]⟩

abbrev nBuf : Space → Nat
  | .hbm => 44
  | .vmem => 12
  | .smem => 0
  | _ => 0

abbrev bufTy : (tb : Table) → Fin (tcTables nBuf tb) → BufTy
  | .hbm, ⟨0, _⟩ => ⟨S16x19x512x512, .f32⟩
  | .hbm, ⟨1, _⟩ => ⟨S16x512x512, .i32⟩
  | .hbm, ⟨2, _⟩ => ⟨S16x512x512, .f32⟩
  | .hbm, ⟨3, _⟩ => ⟨S16x1x128, .f32⟩
  | .hbm, ⟨4, _⟩ => ⟨S16x1x128, .f32⟩
  | .hbm, ⟨5, _⟩ => ⟨S16x1x128, .f32⟩
  | .hbm, ⟨6, _⟩ => ⟨S16x1x19, .f32⟩
  | .hbm, ⟨7, _⟩ => ⟨S16x19, .f32⟩
  | .hbm, ⟨8, _⟩ => ⟨S_, .f32⟩
  | .hbm, ⟨9, _⟩ => ⟨S19, .f32⟩
  | .hbm, ⟨10, _⟩ => ⟨S16x1x19, .f32⟩
  | .hbm, ⟨11, _⟩ => ⟨S16x19, .f32⟩
  | .hbm, ⟨12, _⟩ => ⟨S_, .f32⟩
  | .hbm, ⟨13, _⟩ => ⟨S19, .f32⟩
  | .hbm, ⟨14, _⟩ => ⟨S16x1x1, .f32⟩
  | .hbm, ⟨15, _⟩ => ⟨S16, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S19, .f32⟩
  | .hbm, ⟨22, _⟩ => ⟨S19, .f32⟩
  | .hbm, ⟨23, _⟩ => ⟨S19, .f32⟩
  | .hbm, ⟨24, _⟩ => ⟨S19, .f32⟩
  | .hbm, ⟨25, _⟩ => ⟨S_, .f32⟩
  | .hbm, ⟨26, _⟩ => ⟨S_, .f32⟩
  | .hbm, ⟨27, _⟩ => ⟨S19, .f32⟩
  | .hbm, ⟨28, _⟩ => ⟨S19, .f32⟩
  | .hbm, ⟨29, _⟩ => ⟨S_, .f32⟩
  | .hbm, ⟨30, _⟩ => ⟨S19, .f32⟩
  | .hbm, ⟨31, _⟩ => ⟨S19, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S19, .f32⟩
  | .hbm, ⟨36, _⟩ => ⟨S19, .f32⟩
  | .hbm, ⟨37, _⟩ => ⟨S19, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .i1⟩
  | .hbm, ⟨42, _⟩ => ⟨S_, .f32⟩
  | .hbm, ⟨43, _⟩ => ⟨S_, .f32⟩
  | .local _ .vmem, ⟨0, _⟩ => ⟨S1x19x128x512, .f32⟩
  | .local _ .vmem, ⟨1, _⟩ => ⟨S1x19x128x512, .f32⟩
  | .local _ .vmem, ⟨2, _⟩ => ⟨S1x128x512, .i32⟩
  | .local _ .vmem, ⟨3, _⟩ => ⟨S1x128x512, .i32⟩
  | .local _ .vmem, ⟨4, _⟩ => ⟨S1x128x512, .f32⟩
  | .local _ .vmem, ⟨5, _⟩ => ⟨S1x128x512, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | _, _ => ⟨S16x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_cst_9 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S1x19x128x512_S1x19x128x512_0_0_0_0 : ∀ a, (![0, 0, 0, 0] : Fin 4 → Nat) a + S1x19x128x512.size a ≤ S1x19x128x512.size a
  h_S1x19x128x512 : 0 < S1x19x128x512.numel
  shapeCasts_S1x19x128x512_S19x128x512 : S1x19x128x512.ShapeCasts S19x128x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  reduces_S19x128x512_S128x512 : S19x128x512.Reduces [0] S128x512
  shapeCasts_S128x512_S1x128x512 : S128x512.ShapeCasts S1x128x512
  broadcasts_S1x128x512_S19x128x512 : S1x128x512.Broadcasts S19x128x512
  reduces_S128x512_S128 : S128x512.Reduces [1] S128
  shapeCasts_S128_S128x1 : S128.ShapeCasts S128x1
  reduces_S128x1_S1 : S128x1.Reduces [0] S1
  shapeCasts_S1_S1x1 : S1.ShapeCasts S1x1
  iota_S1x128_d1_w32 : S1x128.Iotas .tc 32 [1]
  slices_S19x128x512_o0_0_0_S1x128x512 : S19x128x512.Slices ![0, 0, 0] S1x128x512
  shapeCasts_S1x1_S1x1 : S1x1.ShapeCasts S1x1
  broadcasts_S1x1_S1x128 : S1x1.Broadcasts S1x128
  slices_S19x128x512_o1_0_0_S1x128x512 : S19x128x512.Slices ![1, 0, 0] S1x128x512
  slices_S19x128x512_o2_0_0_S1x128x512 : S19x128x512.Slices ![2, 0, 0] S1x128x512
  slices_S19x128x512_o3_0_0_S1x128x512 : S19x128x512.Slices ![3, 0, 0] S1x128x512
  slices_S19x128x512_o4_0_0_S1x128x512 : S19x128x512.Slices ![4, 0, 0] S1x128x512
  slices_S19x128x512_o5_0_0_S1x128x512 : S19x128x512.Slices ![5, 0, 0] S1x128x512
  slices_S19x128x512_o6_0_0_S1x128x512 : S19x128x512.Slices ![6, 0, 0] S1x128x512
  slices_S19x128x512_o7_0_0_S1x128x512 : S19x128x512.Slices ![7, 0, 0] S1x128x512
  slices_S19x128x512_o8_0_0_S1x128x512 : S19x128x512.Slices ![8, 0, 0] S1x128x512
  slices_S19x128x512_o9_0_0_S1x128x512 : S19x128x512.Slices ![9, 0, 0] S1x128x512
  slices_S19x128x512_o10_0_0_S1x128x512 : S19x128x512.Slices ![10, 0, 0] S1x128x512
  slices_S19x128x512_o11_0_0_S1x128x512 : S19x128x512.Slices ![11, 0, 0] S1x128x512
  slices_S19x128x512_o12_0_0_S1x128x512 : S19x128x512.Slices ![12, 0, 0] S1x128x512
  slices_S19x128x512_o13_0_0_S1x128x512 : S19x128x512.Slices ![13, 0, 0] S1x128x512
  slices_S19x128x512_o14_0_0_S1x128x512 : S19x128x512.Slices ![14, 0, 0] S1x128x512
  slices_S19x128x512_o15_0_0_S1x128x512 : S19x128x512.Slices ![15, 0, 0] S1x128x512
  slices_S19x128x512_o16_0_0_S1x128x512 : S19x128x512.Slices ![16, 0, 0] S1x128x512
  slices_S19x128x512_o17_0_0_S1x128x512 : S19x128x512.Slices ![17, 0, 0] S1x128x512
  slices_S19x128x512_o18_0_0_S1x128x512 : S19x128x512.Slices ![18, 0, 0] S1x128x512
  slices_S16x1x128_S16x1x19_0_0_0 : S16x1x128.Slices ![0, 0, 0] S16x1x19
  shapeCasts_S16x1x19_S16x19 : S16x1x19.ShapeCasts S16x19
  reducesTo_S16x19_S19_d0 : S16x19.ReducesTo [0] S19
  h_S_ : 0 < S_.numel
  slices_S16x1x128_S16x1x1_0_0_0 : S16x1x128.Slices ![0, 0, 0] S16x1x1
  shapeCasts_S16x1x1_S16 : S16x1x1.ShapeCasts S16
  reducesTo_S16_S_d0 : S16.ReducesTo [0] S_
  reducesTo_S19_S_d0 : S19.ReducesTo [0] S_
  bcast_S_S19 : S_.BroadcastsInDim S19 (![] : Fin 0 → Fin S19.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x128x512.size a ≤ S16x19x512x512.size a
  hwx0_0 : ∀ i : grid0.Coords, EltTy.bits .f32 = 32 ∨ (Rect.block (s := S16x19x512x512) S1x19x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S16x512x512.size a
  hwx0_1 : ∀ i : grid0.Coords, EltTy.bits .i32 = 32 ∨ (Rect.block (s := S16x512x512) S1x128x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512.size a ≤ S16x512x512.size a
  hwx0_2 : ∀ i : grid0.Coords, EltTy.bits .f32 = 32 ∨ (Rect.block (s := S16x512x512) S1x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S16x1x128.size a
  hwx0_3 : ∀ i : grid0.Coords, EltTy.bits .f32 = 32 ∨ (Rect.block (s := S16x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S16x1x128.size a
  hwx0_4 : ∀ i : grid0.Coords, EltTy.bits .f32 = 32 ∨ (Rect.block (s := S16x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S16x1x128.size a
  hwx0_5 : ∀ i : grid0.Coords, EltTy.bits .f32 = 32 ∨ (Rect.block (s := S16x1x128) S1x1x128.size (cc0_transform_5 i) (hinb0_5 i)).WholeWords (EltTy.packing .f32)

variable [Facts₀]

abbrev win0_0 : Pipeline.Window sig grid0 :=
  Pipeline.Window.ofSpec (Memref.whole main_arg0) S1x19x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x19x512x512 : Shape := ⟨4, ![16, 19, 512, 512]⟩
abbrev S16x512x512 : Shape := ⟨3, ![16, 512, 512]⟩
abbrev S4194304 : Shape := ⟨1, ![4194304]⟩
abbrev S_ : Shape := ⟨0, ![]⟩
abbrev S19 : Shape := ⟨1, ![19]⟩
abbrev S4194304x1 : Shape := ⟨2, ![4194304, 1]⟩
abbrev S16x512x512x19 : Shape := ⟨4, ![16, 512, 512, 19]⟩
abbrev S4194304x19 : Shape := ⟨2, ![4194304, 19]⟩
abbrev S4194304x1x1 : Shape := ⟨3, ![4194304, 1, 1]⟩
abbrev S1 : Shape := ⟨1, ![1]⟩
abbrev S1x1x1 : Shape := ⟨3, ![1, 1, 1]⟩

abbrev nBuf : Space → Nat
  | .hbm => 91
  | .vmem => 0
  | .smem => 0
  | _ => 0

abbrev bufTy : (tb : Table) → Fin (tcTables nBuf tb) → BufTy
  | .hbm, ⟨0, _⟩ => ⟨S16x19x512x512, .f32⟩
  | .hbm, ⟨1, _⟩ => ⟨S16x512x512, .i32⟩
  | .hbm, ⟨2, _⟩ => ⟨S16x512x512, .f32⟩
  | .hbm, ⟨3, _⟩ => ⟨S4194304, .i32⟩
  | .hbm, ⟨4, _⟩ => ⟨S4194304, .f32⟩
  | .hbm, ⟨5, _⟩ => ⟨S_, .f32⟩
  | .hbm, ⟨6, _⟩ => ⟨S19, .f32⟩
  | .hbm, ⟨7, _⟩ => ⟨S4194304x1, .i32⟩
  | .hbm, ⟨8, _⟩ => ⟨S19, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S19, .f32⟩
  | .hbm, ⟨13, _⟩ => ⟨S19, .f32⟩
  | .hbm, ⟨14, _⟩ => ⟨S19, .f32⟩
  | .hbm, ⟨15, _⟩ => ⟨S19, .f32⟩
  | .hbm, ⟨16, _⟩ => ⟨S_, .f32⟩
  | .hbm, ⟨17, _⟩ => ⟨S_, .f32⟩
  | .hbm, ⟨18, _⟩ => ⟨S19, .f32⟩
  | .hbm, ⟨19, _⟩ => ⟨S19, .f32⟩
  | .hbm, ⟨20, _⟩ => ⟨S_, .f32⟩
  | .hbm, ⟨21, _⟩ => ⟨S19, .f32⟩
  | .hbm, ⟨22, _⟩ => ⟨S19, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S19, .f32⟩
  | .hbm, ⟨27, _⟩ => ⟨S19, .f32⟩
  | .hbm, ⟨28, _⟩ => ⟨S16x512x512x19, .f32⟩
  | .hbm, ⟨29, _⟩ => ⟨S4194304x19, .f32⟩
  | .hbm, ⟨30, _⟩ => ⟨S_, .f32⟩
  | .hbm, ⟨31, _⟩ => ⟨S4194304, .f32⟩
  | .hbm, ⟨32, _⟩ => ⟨S_, .f32⟩
  | .hbm, ⟨33, _⟩ => ⟨S4194304, .f32⟩
  | .hbm, ⟨34, _⟩ => ⟨S4194304, .f32⟩
  | .hbm, ⟨35, _⟩ => ⟨S4194304x1, .f32⟩
  | .hbm, ⟨36, _⟩ => ⟨S4194304x19, .f32⟩
  | .hbm, ⟨37, _⟩ => ⟨S4194304x19, .f32⟩
  | .hbm, ⟨38, _⟩ => ⟨S4194304x19, .f32⟩
  | .hbm, ⟨39, _⟩ => ⟨S_, .f32⟩
  | .hbm, ⟨40, _⟩ => ⟨S4194304, .f32⟩
  | .hbm, ⟨41, _⟩ => ⟨S4194304x1, .f32⟩
  | .hbm, ⟨42, _⟩ => ⟨S4194304x1, .f32⟩
  | .hbm, ⟨43, _⟩ => ⟨S4194304x19, .f32⟩
  | .hbm, ⟨44, _⟩ => ⟨S4194304x19, .f32⟩
  | .hbm, ⟨45, _⟩ => ⟨S4194304x1, .i32⟩
  | .hbm, ⟨46, _⟩ => ⟨S_, .i32⟩
  | .hbm, ⟨47, _⟩ => ⟨S4194304x1, .i32⟩
  | .hbm, ⟨48, _⟩ => ⟨S4194304x1, .i1⟩
  | .hbm, ⟨49, _⟩ => ⟨S_, .i32⟩
  | .hbm, ⟨50, _⟩ => ⟨S4194304x1, .i32⟩
  | .hbm, ⟨51, _⟩ => ⟨S4194304x1, .i32⟩
  | .hbm, ⟨52, _⟩ => ⟨S4194304x1, .i32⟩
  | .hbm, ⟨53, _⟩ => ⟨S4194304x1x1, .i32⟩
  | .hbm, ⟨54, _⟩ => ⟨S1, .i32⟩
  | .hbm, ⟨55, _⟩ => ⟨S_, .i32⟩
  | .hbm, ⟨56, _⟩ => ⟨S4194304x1x1, .i32⟩
  | .hbm, ⟨57, _⟩ => ⟨S4194304x1x1, .i1⟩
  | .hbm, ⟨58, _⟩ => ⟨S1x1x1, .i32⟩
  | .hbm, ⟨59, _⟩ => ⟨S4194304x1x1, .i32⟩
  | .hbm, ⟨60, _⟩ => ⟨S4194304x1x1, .i1⟩
  | .hbm, ⟨61, _⟩ => ⟨S4194304x1x1, .i1⟩
  | .hbm, ⟨62, _⟩ => ⟨S_, .i1⟩
  | .hbm, ⟨63, _⟩ => ⟨S4194304x1, .i1⟩
  | .hbm, ⟨64, _⟩ => ⟨S4194304x1, .f32⟩
  | .hbm, ⟨65, _⟩ => ⟨S_, .f32⟩
  | .hbm, ⟨66, _⟩ => ⟨S4194304x1, .f32⟩
  | .hbm, ⟨67, _⟩ => ⟨S4194304x1, .f32⟩
  | .hbm, ⟨68, _⟩ => ⟨S4194304, .f32⟩
  | .hbm, ⟨69, _⟩ => ⟨S4194304, .f32⟩
  | .hbm, ⟨70, _⟩ => ⟨S_, .i32⟩
  | .hbm, ⟨71, _⟩ => ⟨S4194304, .i32⟩
  | .hbm, ⟨72, _⟩ => ⟨S4194304, .i1⟩
  | .hbm, ⟨73, _⟩ => ⟨S_, .i32⟩
  | .hbm, ⟨74, _⟩ => ⟨S4194304, .i32⟩
  | .hbm, ⟨75, _⟩ => ⟨S4194304, .i32⟩
  | .hbm, ⟨76, _⟩ => ⟨S4194304, .i32⟩
  | .hbm, ⟨77, _⟩ => ⟨S4194304x1, .i32⟩
  | .hbm, ⟨78, _⟩ => ⟨S4194304, .f32⟩
  | .hbm, ⟨79, _⟩ => ⟨S4194304, .f32⟩
  | .hbm, ⟨80, _⟩ => ⟨S4194304, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .i1⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S16x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call1_cst : Ref sig .tc := ⟨.hbm, 30, rfl⟩
abbrev main_call1_v0 : Ref sig .tc := ⟨.hbm, 31, rfl⟩
abbrev main_call1_cst_0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_cst_1 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_v20 : Ref sig .tc := ⟨.hbm, 44, rfl⟩
abbrev main_v21 : Ref sig .tc := ⟨.hbm, 45, rfl⟩
abbrev main_call2_c : Ref sig .tc := ⟨.hbm, 46, rfl⟩
abbrev main_call2_v0 : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_c_1 : Ref sig .tc := ⟨.hbm, 54, rfl⟩
abbrev main_call2_c_2 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_3 : Ref sig .tc := ⟨.hbm, 62, rfl⟩
abbrev main_call2_v12 : Ref sig .tc := ⟨.hbm, 63, rfl⟩
abbrev main_call2_v13 : Ref sig .tc := ⟨.hbm, 64, rfl⟩
abbrev main_call2_cst : Ref sig .tc := ⟨.hbm, 65, rfl⟩
abbrev main_call2_v14 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_c : Ref sig .tc := ⟨.hbm, 70, rfl⟩
abbrev main_v25 : Ref sig .tc := ⟨.hbm, 71, rfl⟩
abbrev main_v26 : Ref sig .tc := ⟨.hbm, 72, rfl⟩
abbrev main_c_6 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_cst_7 : Ref sig .tc := ⟨.hbm, 81, rfl⟩
abbrev main_v34 : Ref sig .tc := ⟨.hbm, 82, rfl⟩
abbrev main_cst_8 : Ref sig .tc := ⟨.hbm, 83, rfl⟩
abbrev main_v35 : Ref sig .tc := ⟨.hbm, 84, rfl⟩
abbrev main_cst_9 : Ref sig .tc := ⟨.hbm, 85, rfl⟩
abbrev main_v36 : Ref sig .tc := ⟨.hbm, 86, rfl⟩
abbrev main_v37 : Ref sig .tc := ⟨.hbm, 87, rfl⟩
abbrev main_cst_10 : Ref sig .tc := ⟨.hbm, 88, rfl⟩
abbrev main_v38 : Ref sig .tc := ⟨.hbm, 89, rfl⟩
abbrev main_v39 : Ref sig .tc := ⟨.hbm, 90, rfl⟩

abbrev nD : Nat := 1
abbrev τ : Topo := Topo.v7x

variable {F : FTy → Type} [FloatOps F]

class Facts₀ : Prop where
  shapeCasts_S16x512x512_S4194304 : S16x512x512.ShapeCasts S4194304
  bcast_S_S19 : S_.BroadcastsInDim S19 (![] : Fin 0 → Fin S19.rank)
  bcast_S4194304_S4194304x1_0 : S4194304.BroadcastsInDim S4194304x1 (![0] : Fin 1 → Fin S4194304x1.rank)
  reducesTo_S19_S_d0 : S19.ReducesTo [0] S_
  h_S_ : 0 < S_.numel
  transposes_S16x19x512x512_S16x512x512x19_0_2_3_1 : S16x19x512x512.Transposes [0, 2, 3, 1] S16x512x512x19
  shapeCasts_S16x512x512x19_S4194304x19 : S16x512x512x19.ShapeCasts S4194304x19
  reducesTo_S4194304x19_S4194304_d1 : S4194304x19.ReducesTo [1] S4194304
  bcast_S_S4194304 : S_.BroadcastsInDim S4194304 (![] : Fin 0 → Fin S4194304.rank)
  bcast_S4194304x1_S4194304x19_0_1 : S4194304x1.BroadcastsInDim S4194304x19 (![0, 1] : Fin 2 → Fin S4194304x19.rank)
  bcast_S_S4194304x1 : S_.BroadcastsInDim S4194304x1 (![] : Fin 0 → Fin S4194304x1.rank)
  shapeCasts_S4194304x1_S4194304x1x1 : S4194304x1.ShapeCasts S4194304x1x1
  bcast_S_S4194304x1x1 : S_.BroadcastsInDim S4194304x1x1 (![] : Fin 0 → Fin S4194304x1x1.rank)
  bcast_S1_S1x1x1_2 : S1.BroadcastsInDim S1x1x1 (![2] : Fin 1 → Fin S1x1x1.rank)
  bcast_S1x1x1_S4194304x1x1_0_1_2 : S1x1x1.BroadcastsInDim S4194304x1x1 (![0, 1, 2] : Fin 3 → Fin S4194304x1x1.rank)
  reducesTo_S4194304x1x1_S4194304x1_d2 : S4194304x1x1.ReducesTo [2] S4194304x1
  shapeCasts_S4194304x1_S4194304 : S4194304x1.ShapeCasts S4194304
  reducesTo_S4194304_S_d0 : S4194304.ReducesTo [0] S_
  scatter_S19_S4194304x1_S4194304_n_0_0_1_wf : ScatterDims.WF S19 S4194304x1 S4194304 [] [0] [0] 1
  gather_S4194304x19_S4194304x1x1_S4194304x1_n_1_0_0_1_2_11_wf : GatherDims.WF S4194304x19 S4194304x1x1 S4194304x1 [] [1] [0] [1] [0] 2 ![1, 1]
  gather_S19_S4194304x1_S4194304_n_0_n_n_0_1_1_wf : GatherDims.WF S19 S4194304x1 S4194304 [] [0] [] [0] [] 1 ![1]

variable [Facts₀]

def scatter_S19_S4194304x1_S4194304_n_0_0_1 : ScatterDims S19 S4194304x1 S4194304 where
  updateWindowDims := []
  insertedWindowDims := [0]
  scatterDimsToOperandDims := [0]
  indexVectorDim := 1
  wf := scatter_S19_S4194304x1_S4194304_n_0_0_1_wf
def gather_S4194304x19_S4194304x1x1_S4194304x1_n_1_0_0_1_2_11 : GatherDims S4194304x19 S4194304x1x1 S4194304x1 where
  offsetDims := []
  collapsedSliceDims := [1]
  operandBatchingDims := [0]
  startIndicesBatchingDims := [0]
  startIndexMap := [1]
  indexVectorDim := 2
  sliceSizes := ![1, 1]
  wf := gather_S4194304x19_S4194304x1x1_S4194304x1_n_1_0_0_1_2_11_wf
def gather_S19_S4194304x1_S4194304_n_0_n_n_0_1_1 : GatherDims S19 S4194304x1 S4194304 where
  offsetDims := []
  collapsedSliceDims := [0]
  operandBatchingDims := []
  startIndicesBatchingDims := []
  startIndexMap := [0]
  indexVectorDim := 1
  sliceSizes := ![1]
  wf := gather_S19_S4194304x1_S4194304_n_0_n_n_0_1_1_wf

class Facts : Prop extends Facts₀ where

variable [Facts]
-- ==== Proof.Spec.lean ====
/-
  The weighted partial cross-entropy as mathematics on the extended reals, over pixel coordinates
  (b, r, q) of a [16, 512, 512] image batch with 19 classes. For predictions P, labels T (32-bit words) and a
  label mask M: the class maximum at a pixel, the shifted logits, the log of the sum of their exponentials, the
  negative log-likelihood of class c, the mask restricted to the pixels labelled c; then the class weights as a
  function of the 19 masked label counts, and the final normalisation. Two ways of summing over all pixels are
  named: block by block of 128 rows (batch, row block, row in block, column) and along the flattened pixel axis.
-/
import Idealize.ShloMosaic.PureOps.Ideal
import Idealize.ShloMosaic.Lib.ValueIdx

noncomputable section

open scoped BigOperators

namespace Cert.WCE

open Idealize.ShloMosaic Idealize.ShloMosaic.ValueIdx

/-- The predictions' shape [16, 19, 512, 512] and the labels' and mask's shape [16, 512, 512]. -/
abbrev SP : Shape := ⟨4, ![16, 19, 512, 512]⟩
abbrev ST : Shape := ⟨3, ![16, 512, 512]⟩

/-- Row `128 h + r` of an image: row `r` of row block `h`. -/
def rowK (h : Fin 4) (r : Fin 128) : Fin 512 := ⟨128 * h.val + r.val, by have := h.isLt; have := r.isLt; omega⟩

/-- The flattened pixel `n`'s batch, row and column: `n = (b · 512 + r) · 512 + q`. -/
def nb (n : Fin 4194304) : Fin 16 := ⟨n.val / 262144, by have := n.isLt; omega⟩
def nr (n : Fin 4194304) : Fin 512 := ⟨n.val / 512 % 512, by omega⟩
def nq (n : Fin 4194304) : Fin 512 := ⟨n.val % 512, by omega⟩

/-- The sum of `f` over all pixels, block by block: batch, row block, row in the block, column. -/
def sumK (f : Fin 16 → Fin 512 → Fin 512 → EReal) : EReal :=
  ∑ b : Fin 16, ∑ h : Fin 4, ∑ r : Fin 128, ∑ q : Fin 512, f b (rowK h r) q

/-- The sum of `f` over all pixels along the flattened pixel axis. -/
def sumR (f : Fin 16 → Fin 512 → Fin 512 → EReal) : EReal :=
  ∑ n : Fin 4194304, f (nb n) (nr n) (nq n)

/-- The class a label word names, as a number below 19 (the word itself when it is in range). -/
def cls (w : BitVec 32) : Fin 19 := ⟨w.toNat % 19, Nat.mod_lt _ (by decide)⟩

/-- The float constants the programs share: the reduction's start −∞, the weights' ε, nineteen and one. -/
def negInf : EReal := Ideal.ofBits .f32 0xFF800000#32
def eps : EReal := Ideal.ofBits .f32 0x358637BD#32
def nineteen : EReal := Ideal.ofBits .f32 0x41980000#32
def one : EReal := Ideal.ofBits .f32 0x3F800000#32

section
variable (P : SP.Idx → EReal) (T : ST.Idx → BitVec 32) (M : ST.Idx → EReal)

/-- The largest of a pixel's 19 logits (the fold of `max` from −∞). -/
def mx (b : Fin 16) (r q : Fin 512) : EReal :=
  (Finset.univ : Finset (Fin 19)).fold max negInf (fun c => P (ix4 b c r q))

/-- The logit of class `c` less the pixel's largest logit. -/
def sh (b : Fin 16) (c : Fin 19) (r q : Fin 512) : EReal := P (ix4 b c r q) - mx P b r q

/-- The log of the sum of the exponentials of the shifted logits. -/
def lse (b : Fin 16) (r q : Fin 512) : EReal := Ideal.log (∑ c : Fin 19, Ideal.exp (sh P b c r q))

/-- The negative log-likelihood of class `c` at a pixel. -/
def nll (b : Fin 16) (c : Fin 19) (r q : Fin 512) : EReal := lse P b r q - sh P b c r q

/-- The mask at the pixels labelled `c`, zero elsewhere. -/
def mc (c : Fin 19) (b : Fin 16) (r q : Fin 512) : EReal :=
  if T (ix3 b r q) = BitVec.ofNat 32 c.val then M (ix3 b r q) else 0

/-- The mask at a pixel. -/
def mk (b : Fin 16) (r q : Fin 512) : EReal := M (ix3 b r q)

end

/-! ## One block: 128 rows of one image

What the kernel's body sees at a grid point: the predictions' block [1, 19, 128, 512], the labels' and the mask's
blocks [1, 128, 512]. The same quantities as above, over the block's own coordinates. -/

/-- The blocks' shapes and the output arrays' shape [16, 1, 128]. -/
abbrev SB0 : Shape := ⟨4, ![1, 19, 128, 512]⟩
abbrev SB1 : Shape := ⟨3, ![1, 128, 512]⟩
abbrev SO : Shape := ⟨3, ![16, 1, 128]⟩

section
variable (x0 : SB0.Idx → EReal) (x1 : SB1.Idx → BitVec 32) (x2 : SB1.Idx → EReal)

/-- The largest of a block pixel's 19 logits. -/
def mxB (r : Fin 128) (q : Fin 512) : EReal :=
  (Finset.univ : Finset (Fin 19)).fold max negInf (fun c => x0 (ix4 0 c r q))

/-- The block's shifted logit of class `c`. -/
def shB (c : Fin 19) (r : Fin 128) (q : Fin 512) : EReal := x0 (ix4 0 c r q) - mxB x0 r q

/-- The block's log-sum-exp of the shifted logits. -/
def lseB (r : Fin 128) (q : Fin 512) : EReal := Ideal.log (∑ c : Fin 19, Ideal.exp (shB x0 c r q))

/-- The block's mask at the pixels labelled `c`. -/
def mcB (c : Fin 19) (r : Fin 128) (q : Fin 512) : EReal :=
  if x1 (ix3 0 r q) = BitVec.ofNat 32 c.val then x2 (ix3 0 r q) else 0

/-- The block's masked label count of class `c`: rows, then columns. -/
def blkC (c : Fin 19) : EReal := ∑ r : Fin 128, ∑ q : Fin 512, mcB x1 x2 c r q

/-- The block's masked negative log-likelihood sum of class `c`. -/
def blkS (c : Fin 19) : EReal := ∑ r : Fin 128, ∑ q : Fin 512, mcB x1 x2 c r q * (lseB x0 r q - shB x0 c r q)

/-- The block's labelled mass. -/
def blkM : EReal := ∑ r : Fin 128, ∑ q : Fin 512, x2 (ix3 0 r q)

/-- Lane `l` of the block's 128-lane count row: class `l`'s count in lane `l < 19`, zero in the other lanes. -/
def laneC (l : Fin 128) : EReal := ∑ c : Fin 19, if l.val = c.val then blkC x1 x2 c else 0

/-- Lane `l` of the block's 128-lane loss row. -/
def laneS (l : Fin 128) : EReal := ∑ c : Fin 19, if l.val = c.val then blkS x0 x1 x2 c else 0

end

/-- Class `k`'s lane of a 128-lane row. -/
def lane (k : Fin 19) : Fin 128 := ⟨k.val, by have := k.isLt; omega⟩

/-- The class weights from the 19 masked label counts: inverse frequency `tot / (cnt c + ε)`, normalised to sum to
    nineteen, and all ones when no mass is labelled. -/
def cwOf (cnt : Fin 19 → EReal) (c : Fin 19) : EReal :=
  if 0 < ∑ k : Fin 19, cnt k then
    Ideal.div (Ideal.div (∑ k : Fin 19, cnt k) (cnt c + eps))
        (∑ j : Fin 19, Ideal.div (∑ k : Fin 19, cnt k) (cnt j + eps)) * nineteen
  else one

/-- The final normalisation: the weighted loss over the labelled mass when that is positive. -/
def finOf (L num : EReal) : EReal := if 0 < num then Ideal.div L num else L

/-- The result as the kernel's program computes it: per class, the weight times the masked negative log-likelihood
    summed block by block. -/
def resK (P : SP.Idx → EReal) (T : ST.Idx → BitVec 32) (M : ST.Idx → EReal) : EReal :=
  finOf (∑ c : Fin 19, cwOf (fun k => sumK (mc T M k)) c * sumK (fun b r q => mc T M c b r q * nll P b c r q))
    (sumK (mk M))

/-- The result as the reference computes it: per pixel, minus the log-probability of the pixel's label, times that
    label's weight, times the mask, summed along the flattened pixel axis. -/
def resR (P : SP.Idx → EReal) (T : ST.Idx → BitVec 32) (M : ST.Idx → EReal) : EReal :=
  finOf (sumR fun b r q => (-(sh P b (cls (T (ix3 b r q))) r q - lse P b r q))
      * cwOf (fun k => sumR (mc T M k)) (cls (T (ix3 b r q))) * M (ix3 b r q))
    (sumR (mk M))

end Cert.WCE

end
-- ==== Proof.KPiece3.lean ====
/-
  What the kernel's body leaves in the count row's and the labelled-mass row's staging buffers at one grid point, read
  lane by lane at the extended reals: the buffer's previous contents (nothing at a batch's first row block, where the
  body first stores zeros) plus, in lane l, the block's masked count of class l (lanes 19 and above get zero), and
  for the mass row the block's total mask in every lane.
-/
import proofs.«403436_j66709432042305_3_alg».proof.Proof.Spec
import proofs.«403436_j66709432042305_3_alg».proof.Proof.Gen.KernelIdeal.Frame
import Idealize.ShloMosaic.Lib.Pipeline.Value
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen Cert.WCE

private theorem hz3 : (![0, 0, 0] : Fin 3 → Nat) = fun _ => 0 := funext fun a => by fin_cases a <;> rfl

section frame
variable {F : FTy → Type} [FloatOps F]

/-- The lane numbers 0 … 127 of a 128-lane row. -/
private abbrev lanes : IVec S1x128 32 := iota .tc S1x128 32 [1] iota_S1x128_d1_w32

/-- The labels' and the mask's blocks as [128, 512] tiles. -/
private abbrev tl (x1 : Vec F S1x128x512 .i32) : IVec S128x512 32 := k0_pay5 x1
private abbrev tm (x2 : Vec F S1x128x512 .f32) : FVec F S128x512 .f32 := k0_pay6 x2

/-- The count row after classes 0 … k have been added to the zero row, as the body computes it. -/
private def cnt1 (x1 : Vec F S1x128x512 .i32) (x2 : Vec F S1x128x512 .f32) : FVec F S1x128 .f32 :=
  k0_pay17 (tl x1) (tm x2) lanes k0_pay10 (k0_pay13 x1 x2)
private def cnt2 (x1 : Vec F S1x128x512 .i32) (x2 : Vec F S1x128x512 .f32) : FVec F S1x128 .f32 :=
  k0_pay21 (tl x1) (tm x2) lanes (cnt1 x1 x2)
private def cnt4 (x1 : Vec F S1x128x512 .i32) (x2 : Vec F S1x128x512 .f32) : FVec F S1x128 .f32 :=
  k0_pay28 (tl x1) (tm x2) lanes (cnt2 x1 x2) (k0_pay24 (tl x1) (tm x2))
private def cnt5 (x1 : Vec F S1x128x512 .i32) (x2 : Vec F S1x128x512 .f32) : FVec F S1x128 .f32 :=
  k0_pay32 (tl x1) (tm x2) lanes (cnt4 x1 x2)
private def cnt7 (x1 : Vec F S1x128x512 .i32) (x2 : Vec F S1x128x512 .f32) : FVec F S1x128 .f32 :=
  k0_pay39 (tl x1) (tm x2) lanes (cnt5 x1 x2) (k0_pay35 (tl x1) (tm x2))
private def cnt8 (x1 : Vec F S1x128x512 .i32) (x2 : Vec F S1x128x512 .f32) : FVec F S1x128 .f32 :=
  k0_pay43 (tl x1) (tm x2) lanes (cnt7 x1 x2)
private def cnt10 (x1 : Vec F S1x128x512 .i32) (x2 : Vec F S1x128x512 .f32) : FVec F S1x128 .f32 :=
  k0_pay50 (tl x1) (tm x2) lanes (cnt8 x1 x2) (k0_pay46 (tl x1) (tm x2))
private def cnt11 (x1 : Vec F S1x128x512 .i32) (x2 : Vec F S1x128x512 .f32) : FVec F S1x128 .f32 :=
  k0_pay54 (tl x1) (tm x2) lanes (cnt10 x1 x2)
private def cnt13 (x1 : Vec F S1x128x512 .i32) (x2 : Vec F S1x128x512 .f32) : FVec F S1x128 .f32 :=
  k0_pay61 (tl x1) (tm x2) lanes (cnt11 x1 x2) (k0_pay57 (tl x1) (tm x2))
private def cnt14 (x1 : Vec F S1x128x512 .i32) (x2 : Vec F S1x128x512 .f32) : FVec F S1x128 .f32 :=
  k0_pay65 (tl x1) (tm x2) lanes (cnt13 x1 x2)
private def cnt16 (x1 : Vec F S1x128x512 .i32) (x2 : Vec F S1x128x512 .f32) : FVec F S1x128 .f32 :=
  k0_pay72 (tl x1) (tm x2) lanes (cnt14 x1 x2) (k0_pay68 (tl x1) (tm x2))
private def cnt17 (x1 : Vec F S1x128x512 .i32) (x2 : Vec F S1x128x512 .f32) : FVec F S1x128 .f32 :=
  k0_pay76 (tl x1) (tm x2) lanes (cnt16 x1 x2)

/-- What the count row's store writes over the row's previous contents `old`. -/
private def cntStore (x1 : Vec F S1x128x512 .i32) (x2 : Vec F S1x128x512 .f32) (old : Vec F S1x1x128 .f32) : FVec F S1x1x128 .f32 :=
  k0_pay81 lanes (cnt17 x1 x2) (k0_pay79 (tl x1) (tm x2)) old

/-- What the mass row's store writes over the row's previous contents `old`. -/
private def massStore (x2 : Vec F S1x128x512 .f32) (old : Vec F S1x1x128 .f32) : FVec F S1x1x128 .f32 :=
  k0_pay1 (k0_pay83 (k0_pay9 x2) old)

private theorem out_A_3_eq (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x128x512 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec F S1x19x128x512 .f32) (x1 : Vec F S1x128x512 .i32) (x2 : Vec F S1x128x512 .f32) :
    out0_A_3 c i arg2 harg2 arg3 harg3 arg4 harg4 arg5 harg5 arg6 harg6 arg7 harg7 hc0 x0 x1 x2 = cntStore x1 x2 k0_pay2 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_cons_unit_zero (S := S1x1x128) hz3, View.readCov_unit_zero (S := S1x1x128) _ hz3]
  simp only [View.readAt_eq_ld, harg3.read_unread, harg4.read_unread, View.ld_unit_zero (S := S1x128x512) hz3]
  rfl

private theorem out_B_3_eq (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x128x512 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec F S1x19x128x512 .f32) (x1 : Vec F S1x128x512 .i32) (x2 : Vec F S1x128x512 .f32) (xo3 xo4 xo5 : Vec F S1x1x128 .f32) :
    out0_B_3 c i arg2 harg2 arg3 harg3 arg4 harg4 arg5 harg5 arg6 harg6 arg7 harg7 hc0 x0 x1 x2 xo3 xo4 xo5 = cntStore x1 x2 xo3 := by
  unfold out0_B_3
  rw [View.read_writes_eq_canon _ _ _ (cover0_B_3 c i arg2 harg2 arg3 harg3 arg4 harg4 arg5 harg5 arg6 harg6 arg7 harg7 hc0 x0 x1 x2 xo3 xo4 xo5)]
  unfold kernelRun0_B
  dsimp only
  sl_unfold_words
  rw [View.canon_unit_zero hz3]
  simp only [View.readAt_eq_ld, harg3.read_unread, harg4.read_unread, harg5.read_unread, View.ld_unit_zero (S := S1x128x512) hz3, View.ld_unit_zero (S := S1x1x128) hz3]
  rfl

private theorem out_A_5_eq (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x128x512 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec F S1x19x128x512 .f32) (x1 : Vec F S1x128x512 .i32) (x2 : Vec F S1x128x512 .f32) :
    out0_A_5 c i arg2 harg2 arg3 harg3 arg4 harg4 arg5 harg5 arg6 harg6 arg7 harg7 hc0 x0 x1 x2 = massStore x2 k0_pay4 := by
  unfold out0_A_5
  rw [View.read_writes_eq_canon _ _ _ (cover0_A_5 c i arg2 harg2 arg3 harg3 arg4 harg4 arg5 harg5 arg6 harg6 arg7 harg7 hc0 x0 x1 x2)]
  unfold kernelRun0_A
  dsimp only
  sl_unfold_words
  rw [View.canon_cons_unit_zero (S := S1x1x128) hz3, View.readCov_unit_zero (S := S1x1x128) _ hz3]
  simp only [View.readAt_eq_ld, harg4.read_unread, View.ld_unit_zero (S := S1x128x512) hz3]
  rfl

private theorem out_B_5_eq (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x128x512 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec F S1x19x128x512 .f32) (x1 : Vec F S1x128x512 .i32) (x2 : Vec F S1x128x512 .f32) (xo3 xo4 xo5 : Vec F S1x1x128 .f32) :
    out0_B_5 c i arg2 harg2 arg3 harg3 arg4 harg4 arg5 harg5 arg6 harg6 arg7 harg7 hc0 x0 x1 x2 xo3 xo4 xo5 = massStore x2 xo5 := by
  unfold out0_B_5
  rw [View.read_writes_eq_canon _ _ _ (cover0_B_5 c i arg2 harg2 arg3 harg3 arg4 harg4 arg5 harg5 arg6 harg6 arg7 harg7 hc0 x0 x1 x2 xo3 xo4 xo5)]
  unfold kernelRun0_B
  dsimp only
  sl_unfold_words
  rw [View.canon_unit_zero hz3]
  simp only [View.readAt_eq_ld, harg4.read_unread, harg7.read_unread, View.ld_unit_zero (S := S1x128x512) hz3, View.ld_unit_zero (S := S1x1x128) hz3]
  rfl

end frame

section pieces
variable {F : FTy → Type} [FloatOps F]

/-- The total of a [128, 512] tile as the body takes it: summed along the columns, then along the rows, kept as a
    [1, 1] tile. -/
private def tot (M : FVec F S128x512 .f32) : FVec F S1x1 .f32 :=
  shapeCast S1x1
    (multiReduction .add [0] S1
      (shapeCast S128x1 (multiReduction .add [1] S128 M 0x00000000#32 reduces_S128x512_S128 (.inl rfl) rfl) shapeCasts_S128_S128x1)
      0x00000000#32 reduces_S128x1_S1 (.inl rfl) rfl)
    shapeCasts_S1_S1x1

/-- The mask tile kept where the label tile holds the word `k`, zero elsewhere. -/
private def msk (k : BitVec 32) (v6 : IVec S128x512 32) (v8 : FVec F S128x512 .f32) : FVec F S128x512 .f32 :=
  select (cmpi .eq v6 (broadcast S128x512 k)) v8 (broadcast S128x512 (Scalar.ofBits .f32 0x00000000#32))

/-- A [1, 1] tile's value in the lanes whose number is the word `k`, zero in the other lanes. -/
private def lterm (k : BitVec 32) (v20 : IVec S1x128 32) (t : FVec F S1x1 .f32) : FVec F S1x128 .f32 :=
  select (cmpi .eq v20 (broadcast S1x128 k))
    (broadcastTo S1x128 (shapeCast S1x1 t shapeCasts_S1x1_S1x1) broadcasts_S1x1_S1x128)
    (broadcast S1x128 (Scalar.ofBits .f32 0x00000000#32))

/-! The body's payloads are these three, composed: each class's total is `tot (msk k · ·)`, each class's step adds
    `lterm k` of it to the row. -/

private theorem pay9_eq (x2 : Vec F S1x128x512 .f32) : k0_pay9 x2 = tot (tm x2) := rfl
private theorem pay13_eq (x1 : Vec F S1x128x512 .i32) (x2 : Vec F S1x128x512 .f32) : k0_pay13 x1 x2 = tot (msk 0#32 (tl x1) (tm x2)) := rfl
private theorem pay24_eq (v6 : IVec S128x512 32) (v8 : FVec F S128x512 .f32) : k0_pay24 v6 v8 = tot (msk 3#32 v6 v8) := rfl
private theorem pay35_eq (v6 : IVec S128x512 32) (v8 : FVec F S128x512 .f32) : k0_pay35 v6 v8 = tot (msk 6#32 v6 v8) := rfl
private theorem pay46_eq (v6 : IVec S128x512 32) (v8 : FVec F S128x512 .f32) : k0_pay46 v6 v8 = tot (msk 9#32 v6 v8) := rfl
private theorem pay57_eq (v6 : IVec S128x512 32) (v8 : FVec F S128x512 .f32) : k0_pay57 v6 v8 = tot (msk 12#32 v6 v8) := rfl
private theorem pay68_eq (v6 : IVec S128x512 32) (v8 : FVec F S128x512 .f32) : k0_pay68 v6 v8 = tot (msk 15#32 v6 v8) := rfl
private theorem pay79_eq (v6 : IVec S128x512 32) (v8 : FVec F S128x512 .f32) : k0_pay79 v6 v8 = tot (msk 18#32 v6 v8) := rfl

private theorem pay17_eq (v6 : IVec S128x512 32) (v8 : FVec F S128x512 .f32) (v20 : IVec S1x128 32) (p : FVec F S1x128 .f32) (t : FVec F S1x1 .f32) :
    k0_pay17 v6 v8 v20 p t = addf (addf p (lterm 0#32 v20 t)) (lterm 1#32 v20 (tot (msk 1#32 v6 v8))) := rfl
private theorem pay21_eq (v6 : IVec S128x512 32) (v8 : FVec F S128x512 .f32) (v20 : IVec S1x128 32) (p : FVec F S1x128 .f32) :
    k0_pay21 v6 v8 v20 p = addf p (lterm 2#32 v20 (tot (msk 2#32 v6 v8))) := rfl
private theorem pay28_eq (v6 : IVec S128x512 32) (v8 : FVec F S128x512 .f32) (v20 : IVec S1x128 32) (p : FVec F S1x128 .f32) (t : FVec F S1x1 .f32) :
    k0_pay28 v6 v8 v20 p t = addf (addf p (lterm 3#32 v20 t)) (lterm 4#32 v20 (tot (msk 4#32 v6 v8))) := rfl
private theorem pay32_eq (v6 : IVec S128x512 32) (v8 : FVec F S128x512 .f32) (v20 : IVec S1x128 32) (p : FVec F S1x128 .f32) :
    k0_pay32 v6 v8 v20 p = addf p (lterm 5#32 v20 (tot (msk 5#32 v6 v8))) := rfl
private theorem pay39_eq (v6 : IVec S128x512 32) (v8 : FVec F S128x512 .f32) (v20 : IVec S1x128 32) (p : FVec F S1x128 .f32) (t : FVec F S1x1 .f32) :
    k0_pay39 v6 v8 v20 p t = addf (addf p (lterm 6#32 v20 t)) (lterm 7#32 v20 (tot (msk 7#32 v6 v8))) := rfl
private theorem pay43_eq (v6 : IVec S128x512 32) (v8 : FVec F S128x512 .f32) (v20 : IVec S1x128 32) (p : FVec F S1x128 .f32) :
    k0_pay43 v6 v8 v20 p = addf p (lterm 8#32 v20 (tot (msk 8#32 v6 v8))) := rfl
private theorem pay50_eq (v6 : IVec S128x512 32) (v8 : FVec F S128x512 .f32) (v20 : IVec S1x128 32) (p : FVec F S1x128 .f32) (t : FVec F S1x1 .f32) :
    k0_pay50 v6 v8 v20 p t = addf (addf p (lterm 9#32 v20 t)) (lterm 10#32 v20 (tot (msk 10#32 v6 v8))) := rfl
private theorem pay54_eq (v6 : IVec S128x512 32) (v8 : FVec F S128x512 .f32) (v20 : IVec S1x128 32) (p : FVec F S1x128 .f32) :
    k0_pay54 v6 v8 v20 p = addf p (lterm 11#32 v20 (tot (msk 11#32 v6 v8))) := rfl
private theorem pay61_eq (v6 : IVec S128x512 32) (v8 : FVec F S128x512 .f32) (v20 : IVec S1x128 32) (p : FVec F S1x128 .f32) (t : FVec F S1x1 .f32) :
    k0_pay61 v6 v8 v20 p t = addf (addf p (lterm 12#32 v20 t)) (lterm 13#32 v20 (tot (msk 13#32 v6 v8))) := rfl
private theorem pay65_eq (v6 : IVec S128x512 32) (v8 : FVec F S128x512 .f32) (v20 : IVec S1x128 32) (p : FVec F S1x128 .f32) :
    k0_pay65 v6 v8 v20 p = addf p (lterm 14#32 v20 (tot (msk 14#32 v6 v8))) := rfl
private theorem pay72_eq (v6 : IVec S128x512 32) (v8 : FVec F S128x512 .f32) (v20 : IVec S1x128 32) (p : FVec F S1x128 .f32) (t : FVec F S1x1 .f32) :
    k0_pay72 v6 v8 v20 p t = addf (addf p (lterm 15#32 v20 t)) (lterm 16#32 v20 (tot (msk 16#32 v6 v8))) := rfl
private theorem pay76_eq (v6 : IVec S128x512 32) (v8 : FVec F S128x512 .f32) (v20 : IVec S1x128 32) (p : FVec F S1x128 .f32) :
    k0_pay76 v6 v8 v20 p = addf p (lterm 17#32 v20 (tot (msk 17#32 v6 v8))) := rfl
private theorem pay81_eq (v20 : IVec S1x128 32) (p : FVec F S1x128 .f32) (t : FVec F S1x1 .f32) (old : Vec F S1x1x128 .f32) :
    k0_pay81 v20 p t old
      = shapeCast S1x1x128 (addf (shapeCast S1x128 old shapeCasts_S1x1x128_S1x128) (addf p (lterm 18#32 v20 t))) shapeCasts_S1x128_S1x1x128 := rfl
private theorem pay83_eq (t : FVec F S1x1 .f32) (old : Vec F S1x1x128 .f32) :
    k0_pay83 t old
      = addf (shapeCast S1x128 old shapeCasts_S1x1x128_S1x128)
          (broadcastTo S1x128 (shapeCast S1x1 t shapeCasts_S1x1_S1x1) broadcasts_S1x1_S1x128) := rfl

private theorem pay1_eq (v : FVec F S1x128 .f32) : k0_pay1 v = shapeCast S1x1x128 v shapeCasts_S1x128_S1x1x128 := rfl
private theorem pay2_eq : k0_pay2 (F := F) = shapeCast S1x1x128 (broadcast S1x128 (Scalar.ofBits .f32 0x00000000#32)) shapeCasts_S1x128_S1x1x128 := rfl
private theorem pay4_eq : k0_pay4 (F := F) = shapeCast S1x1x128 (broadcast S1x128 (Scalar.ofBits .f32 0x00000000#32)) shapeCasts_S1x128_S1x1x128 := rfl

end pieces

section ideal

/-- A word comparison for equality answers `1` exactly when the words are equal. -/
private theorem cmpi_eq_one {a b : BitVec 32} : IntOp.cmpi .eq a b = (1 : BitVec 1) ↔ a = b := by
  show BitVec.ofBool (a == b) = (1 : BitVec 1) ↔ a = b
  by_cases h : a = b
  · have hb : (a == b) = true := by simpa using h
    rw [hb]; exact ⟨fun _ => h, fun _ => by decide⟩
  · have hb : (a == b) = false := by simpa using h
    rw [hb]; exact ⟨fun h' => absurd h' (by decide), fun h' => absurd h' h⟩

/-- Numbers below 2³² are equal when their 32-bit words are. -/
private theorem word_inj {a b : ℕ} (ha : a < 4294967296) (hb : b < 4294967296) : BitVec.ofNat 32 a = BitVec.ofNat 32 b ↔ a = b := by
  constructor
  · intro h
    have h' := congrArg BitVec.toNat h
    rw [BitVec.toNat_ofNat, BitVec.toNat_ofNat, Nat.mod_eq_of_lt (by omega), Nat.mod_eq_of_lt (by omega)] at h'
    exact h'
  · intro h; rw [h]

/-- A select on a word comparison against the zero word's value, over the extended reals. -/
private theorem sel_eq (a k : BitVec 32) (x : EReal) :
    Scalar.select (IntOp.cmpi .eq a k) x (Ideal.ofBits .f32 0x00000000#32) = if a = k then x else 0 := by
  unfold Scalar.select
  by_cases h : a = k
  · rw [if_pos (cmpi_eq_one.mpr h), if_pos h]
  · rw [if_neg (fun h' => h (cmpi_eq_one.mp h')), if_neg h, Ideal.ofBits_zero_f32]

/-- The sum along the columns of a [128, 512] tile, at row `r`. -/
private theorem rowsum_apply (M : FVec Ideal S128x512 .f32) (h : S128x512.Reduces [1] S128) (hφ : FKind.Formats .f32)
    (ha : (0x00000000#32 : BitVec FTy.f32.bits) = FKind.add.neutral .f32 hφ) (r : Fin 128) :
    multiReduction (F := Ideal) .add [1] S128 M 0x00000000#32 h hφ ha (ix1 r) = ∑ q : Fin 512, M (ix2 r q) := by
  refine (Ideal.multiReduction_add_single M _ h hφ ha (ix1 r)).trans ?_
  exact Finset.sum_congr rfl fun q _ => congrArg M (funext fun c => match c with | ⟨0, _⟩ => Fin.ext rfl | ⟨1, _⟩ => Fin.ext rfl)

/-- The sum along the rows of a [128, 1] tile. -/
private theorem colsum_apply (Y : FVec Ideal S128x1 .f32) (h : S128x1.Reduces [0] S1) (hφ : FKind.Formats .f32)
    (ha : (0x00000000#32 : BitVec FTy.f32.bits) = FKind.add.neutral .f32 hφ) :
    multiReduction (F := Ideal) .add [0] S1 Y 0x00000000#32 h hφ ha (ix1 0) = ∑ r : Fin 128, Y (ix2 r 0) := by
  refine (Ideal.multiReduction_add_single Y _ h hφ ha (ix1 0)).trans ?_
  exact Finset.sum_congr rfl fun r _ => congrArg Y (funext fun c => match c with | ⟨0, _⟩ => Fin.ext rfl | ⟨1, _⟩ => Fin.ext rfl)

/-- A tile's total is the sum of its entries, rows then columns. -/
private theorem tot_apply (M : FVec Ideal S128x512 .f32) : tot (F := Ideal) M (ix2 0 0) = ∑ r : Fin 128, ∑ q : Fin 512, M (ix2 r q) := by
  unfold tot
  refine (shapeCast_a_1a_apply _ _ (0 : Fin 1) (0 : Fin 1)).trans ?_
  refine (colsum_apply _ _ _ _).trans ?_
  refine Finset.sum_congr rfl fun r _ => ?_
  refine (shapeCast_apply _ shapeCasts_S128_S128x1 (ix2 r 0) (ix1 r) ?_).trans (rowsum_apply M _ _ _ r)
  rw [Shape.rowMajor_val_one, Shape.rowMajor_val_two]
  show r.val = r.val * 1 + 0
  omega

private theorem msk_apply (k : BitVec 32) (v6 : IVec S128x512 32) (v8 : FVec Ideal S128x512 .f32) (j : S128x512.Idx) :
    msk (F := Ideal) k v6 v8 j = if v6 j = k then v8 j else 0 :=
  sel_eq (v6 j) k (v8 j)

private theorem lterm_apply (k : BitVec 32) (v20 : IVec S1x128 32) (t : FVec Ideal S1x1 .f32) (l : Fin 128) :
    lterm (F := Ideal) k v20 t (ix2 0 l) = if v20 (ix2 0 l) = k then t (ix2 0 0) else 0 := by
  have hb : broadcastTo S1x128 (shapeCast S1x1 t shapeCasts_S1x1_S1x1) broadcasts_S1x1_S1x128 (ix2 0 l) = t (ix2 0 0) := by
    rw [shapeCast_self]
    exact broadcastTo_apply t broadcasts_S1x1_S1x128 (ix2 0 l) (ix2 0 0) fun a => match a with | ⟨0, _⟩ => rfl | ⟨1, _⟩ => rfl
  unfold lterm
  rw [select_apply, hb]
  exact sel_eq (v20 (ix2 0 l)) k (t (ix2 0 0))

private theorem lanes_apply (l : Fin 128) : lanes (ix2 0 l) = BitVec.ofNat 32 l.val :=
  iota_single_apply .tc S1x128 32 1 iota_S1x128_d1_w32 (ix2 0 l)

private theorem tl_apply (x1 : Vec Ideal S1x128x512 .i32) (r : Fin 128) (q : Fin 512) : tl x1 (ix2 r q) = x1 (ix3 0 r q) :=
  shapeCast_1ab_ab_apply x1 _ r q

private theorem tm_apply (x2 : Vec Ideal S1x128x512 .f32) (r : Fin 128) (q : Fin 512) : tm x2 (ix2 r q) = x2 (ix3 0 r q) :=
  shapeCast_1ab_ab_apply x2 _ r q

/-- Class `k`'s total of the block, as the body takes it, is the block's masked count of class `k`. -/
private theorem tot_msk (k : ℕ) (hk : k < 19) (x1 : Vec Ideal S1x128x512 .i32) (x2 : Vec Ideal S1x128x512 .f32) :
    tot (msk (BitVec.ofNat 32 k) (tl x1) (tm x2)) (ix2 0 0) = blkC x1 x2 ⟨k, hk⟩ := by
  rw [tot_apply]
  unfold blkC mcB
  refine Finset.sum_congr rfl fun r _ => Finset.sum_congr rfl fun q _ => ?_
  rw [msk_apply, tl_apply, tm_apply]

/-- Lane `l`'s share of class `k`: the class's count in lane `k`, zero in the other lanes (and zero for `k` past the
    classes). -/
private def Tn (x1 : Vec Ideal S1x128x512 .i32) (x2 : Vec Ideal S1x128x512 .f32) (l : Fin 128) (k : ℕ) : EReal :=
  if h : k < 19 then (if l.val = k then blkC x1 x2 ⟨k, h⟩ else 0) else 0

/-- Lane `l` after the first `n` classes have been added to the zero row. -/
private def upTo (x1 : Vec Ideal S1x128x512 .i32) (x2 : Vec Ideal S1x128x512 .f32) (l : Fin 128) (n : ℕ) : EReal :=
  ∑ k ∈ Finset.range n, Tn x1 x2 l k

private theorem lt_apply (k : ℕ) (hk : k < 19) (x1 : Vec Ideal S1x128x512 .i32) (x2 : Vec Ideal S1x128x512 .f32) (l : Fin 128) :
    lterm (BitVec.ofNat 32 k) lanes (tot (msk (BitVec.ofNat 32 k) (tl x1) (tm x2))) (ix2 0 l) = Tn x1 x2 l k := by
  rw [lterm_apply, tot_msk k hk, lanes_apply]
  unfold Tn
  rw [dif_pos hk]
  have hl := l.isLt
  by_cases h : l.val = k
  · rw [if_pos h, if_pos (by rw [h])]
  · rw [if_neg h, if_neg (fun h' => h ((word_inj (by omega) (by omega)).mp h'))]

end ideal

section chain
variable (x1 : Vec Ideal S1x128x512 .i32) (x2 : Vec Ideal S1x128x512 .f32) (l : Fin 128)

private theorem upTo_one (n : ℕ) : upTo x1 x2 l n + Tn x1 x2 l n = upTo x1 x2 l (n + 1) :=
  (Finset.sum_range_succ _ n).symm

private theorem upTo_two (n : ℕ) : upTo x1 x2 l n + Tn x1 x2 l n + Tn x1 x2 l (n + 1) = upTo x1 x2 l (n + 2) := by
  rw [upTo_one, upTo_one]

/-- The zero row the classes are added to. -/
private theorem pay10_apply : (k0_pay10 (F := Ideal)) (ix2 0 l) = upTo x1 x2 l 0 :=
  Ideal.ofBits_zero_f32.trans (Finset.sum_range_zero _).symm

private theorem cnt1_apply : cnt1 x1 x2 (ix2 0 l) = upTo x1 x2 l 2 := by
  unfold cnt1
  rw [pay17_eq, pay13_eq, addf_apply, addf_apply, lt_apply 0 (by decide), lt_apply 1 (by decide), pay10_apply x1 x2 l]
  exact upTo_two x1 x2 l 0

private theorem cnt2_apply : cnt2 x1 x2 (ix2 0 l) = upTo x1 x2 l 3 := by
  unfold cnt2
  rw [pay21_eq, addf_apply, lt_apply 2 (by decide), cnt1_apply]
  exact upTo_one x1 x2 l 2

private theorem cnt4_apply : cnt4 x1 x2 (ix2 0 l) = upTo x1 x2 l 5 := by
  unfold cnt4
  rw [pay28_eq, pay24_eq, addf_apply, addf_apply, lt_apply 3 (by decide), lt_apply 4 (by decide), cnt2_apply]
  exact upTo_two x1 x2 l 3

private theorem cnt5_apply : cnt5 x1 x2 (ix2 0 l) = upTo x1 x2 l 6 := by
  unfold cnt5
  rw [pay32_eq, addf_apply, lt_apply 5 (by decide), cnt4_apply]
  exact upTo_one x1 x2 l 5

private theorem cnt7_apply : cnt7 x1 x2 (ix2 0 l) = upTo x1 x2 l 8 := by
  unfold cnt7
  rw [pay39_eq, pay35_eq, addf_apply, addf_apply, lt_apply 6 (by decide), lt_apply 7 (by decide), cnt5_apply]
  exact upTo_two x1 x2 l 6

private theorem cnt8_apply : cnt8 x1 x2 (ix2 0 l) = upTo x1 x2 l 9 := by
  unfold cnt8
  rw [pay43_eq, addf_apply, lt_apply 8 (by decide), cnt7_apply]
  exact upTo_one x1 x2 l 8

private theorem cnt10_apply : cnt10 x1 x2 (ix2 0 l) = upTo x1 x2 l 11 := by
  unfold cnt10
  rw [pay50_eq, pay46_eq, addf_apply, addf_apply, lt_apply 9 (by decide), lt_apply 10 (by decide), cnt8_apply]
  exact upTo_two x1 x2 l 9

private theorem cnt11_apply : cnt11 x1 x2 (ix2 0 l) = upTo x1 x2 l 12 := by
  unfold cnt11
  rw [pay54_eq, addf_apply, lt_apply 11 (by decide), cnt10_apply]
  exact upTo_one x1 x2 l 11

private theorem cnt13_apply : cnt13 x1 x2 (ix2 0 l) = upTo x1 x2 l 14 := by
  unfold cnt13
  rw [pay61_eq, pay57_eq, addf_apply, addf_apply, lt_apply 12 (by decide), lt_apply 13 (by decide), cnt11_apply]
  exact upTo_two x1 x2 l 12

private theorem cnt14_apply : cnt14 x1 x2 (ix2 0 l) = upTo x1 x2 l 15 := by
  unfold cnt14
  rw [pay65_eq, addf_apply, lt_apply 14 (by decide), cnt13_apply]
  exact upTo_one x1 x2 l 14

private theorem cnt16_apply : cnt16 x1 x2 (ix2 0 l) = upTo x1 x2 l 17 := by
  unfold cnt16
  rw [pay72_eq, pay68_eq, addf_apply, addf_apply, lt_apply 15 (by decide), lt_apply 16 (by decide), cnt14_apply]
  exact upTo_two x1 x2 l 15

private theorem cnt17_apply : cnt17 x1 x2 (ix2 0 l) = upTo x1 x2 l 18 := by
  unfold cnt17
  rw [pay76_eq, addf_apply, lt_apply 17 (by decide), cnt16_apply]
  exact upTo_one x1 x2 l 17

/-- After all nineteen classes lane `l` holds the block's count row. -/
private theorem laneC_eq : laneC x1 x2 l = upTo x1 x2 l 19 := by
  unfold laneC upTo
  rw [Finset.sum_fin_eq_sum_range]
  rfl

/-- The count row's store leaves, in lane `l`, the row's previous contents plus the block's count row. -/
private theorem cntStore_apply (old : Vec Ideal S1x1x128 .f32) :
    cntStore x1 x2 old (ix3 0 0 l) = old (ix3 0 0 l) + laneC x1 x2 l := by
  unfold cntStore
  rw [pay81_eq, pay79_eq]
  refine (shapeCast_ab_1ab_apply _ _ (0 : Fin 1) (0 : Fin 1) l).trans ?_
  rw [addf_apply, addf_apply, shapeCast_1ab_ab_apply, lt_apply 18 (by decide), cnt17_apply, laneC_eq]
  exact congrArg (old (ix3 0 0 l) + ·) (upTo_one x1 x2 l 18)

/-- The mass row's store leaves, in every lane, the row's previous contents plus the block's labelled mass. -/
private theorem massStore_apply (old : Vec Ideal S1x1x128 .f32) :
    massStore x2 old (ix3 0 0 l) = old (ix3 0 0 l) + blkM x2 := by
  unfold massStore
  rw [pay1_eq]
  refine (shapeCast_ab_1ab_apply _ _ (0 : Fin 1) (0 : Fin 1) l).trans ?_
  rw [pay83_eq, pay9_eq, addf_apply, shapeCast_1ab_ab_apply, shapeCast_self,
    broadcastTo_apply (tot (tm x2)) broadcasts_S1x1_S1x128 (ix2 0 l) (ix2 0 0)
      (fun a => match a with | ⟨0, _⟩ => rfl | ⟨1, _⟩ => rfl), tot_apply]
  unfold blkM
  exact congrArg (old (ix3 0 0 l) + ·) (Finset.sum_congr rfl fun r _ => Finset.sum_congr rfl fun q _ => tm_apply x2 r q)

/-- The zero rows a batch's first row block stores read zero in every lane. -/
private theorem pay2_apply : (k0_pay2 (F := Ideal)) (ix3 0 0 l) = 0 := by
  rw [pay2_eq]
  exact (shapeCast_ab_1ab_apply _ _ (0 : Fin 1) (0 : Fin 1) l).trans Ideal.ofBits_zero_f32

private theorem pay4_apply : (k0_pay4 (F := Ideal)) (ix3 0 0 l) = 0 := by
  rw [pay4_eq]
  exact (shapeCast_ab_1ab_apply _ _ (0 : Fin 1) (0 : Fin 1) l).trans Ideal.ofBits_zero_f32

end chain

/-- First row block of a batch: the count row ends at the block's counts. -/
theorem out_A_3_apply (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x128x512 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec Ideal S1x19x128x512 .f32) (x1 : Vec Ideal S1x128x512 .i32) (x2 : Vec Ideal S1x128x512 .f32) (l : Fin 128) :
    out0_A_3 (F := Ideal) c i arg2 harg2 arg3 harg3 arg4 harg4 arg5 harg5 arg6 harg6 arg7 harg7 hc0 x0 x1 x2 (ix3 0 0 l) = laneC x1 x2 l := by
  refine (congrFun (out_A_3_eq (F := Ideal) c i arg2 harg2 arg3 harg3 arg4 harg4 arg5 harg5 arg6 harg6 arg7 harg7 hc0 x0 x1 x2) (ix3 0 0 l)).trans ?_
  rw [cntStore_apply, pay2_apply, zero_add]

/-- A later row block: the count row ends at what it held plus the block's counts. -/
theorem out_B_3_apply (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x128x512 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec Ideal S1x19x128x512 .f32) (x1 : Vec Ideal S1x128x512 .i32) (x2 : Vec Ideal S1x128x512 .f32) (xo3 xo4 xo5 : Vec Ideal S1x1x128 .f32) (l : Fin 128) :
    out0_B_3 (F := Ideal) c i arg2 harg2 arg3 harg3 arg4 harg4 arg5 harg5 arg6 harg6 arg7 harg7 hc0 x0 x1 x2 xo3 xo4 xo5 (ix3 0 0 l) = xo3 (ix3 0 0 l) + laneC x1 x2 l := by
  refine (congrFun (out_B_3_eq (F := Ideal) c i arg2 harg2 arg3 harg3 arg4 harg4 arg5 harg5 arg6 harg6 arg7 harg7 hc0 x0 x1 x2 xo3 xo4 xo5) (ix3 0 0 l)).trans ?_
  exact cntStore_apply x1 x2 l xo3

/-- First row block of a batch: the mass row ends at the block's labelled mass, in every lane. -/
theorem out_A_5_apply (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x128x512 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec Ideal S1x19x128x512 .f32) (x1 : Vec Ideal S1x128x512 .i32) (x2 : Vec Ideal S1x128x512 .f32) (l : Fin 128) :
    out0_A_5 (F := Ideal) c i arg2 harg2 arg3 harg3 arg4 harg4 arg5 harg5 arg6 harg6 arg7 harg7 hc0 x0 x1 x2 (ix3 0 0 l) = blkM x2 := by
  refine (congrFun (out_A_5_eq (F := Ideal) c i arg2 harg2 arg3 harg3 arg4 harg4 arg5 harg5 arg6 harg6 arg7 harg7 hc0 x0 x1 x2) (ix3 0 0 l)).trans ?_
  rw [massStore_apply, pay4_apply, zero_add]

/-- A later row block: the mass row ends at what it held plus the block's labelled mass. -/
theorem out_B_5_apply (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x128x512 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec Ideal S1x19x128x512 .f32) (x1 : Vec Ideal S1x128x512 .i32) (x2 : Vec Ideal S1x128x512 .f32) (xo3 xo4 xo5 : Vec Ideal S1x1x128 .f32) (l : Fin 128) :
    out0_B_5 (F := Ideal) c i arg2 harg2 arg3 harg3 arg4 harg4 arg5 harg5 arg6 harg6 arg7 harg7 hc0 x0 x1 x2 xo3 xo4 xo5 (ix3 0 0 l) = xo5 (ix3 0 0 l) + blkM x2 := by
  refine (congrFun (out_B_5_eq (F := Ideal) c i arg2 harg2 arg3 harg3 arg4 harg4 arg5 harg5 arg6 harg6 arg7 harg7 hc0 x0 x1 x2 xo3 xo4 xo5) (ix3 0 0 l)).trans ?_
  exact massStore_apply x2 l xo5

end Cert.KernelIdeal.KV

end
-- ==== Proof.KPiece4.lean ====
/-
  What the kernel's body leaves in the loss row's staging buffer at one grid point, read lane by lane at the extended
  reals: the buffer's previous contents (nothing at a batch's first row block) plus, in lane l, the block's masked
  negative log-likelihood sum of class l (lanes 19 and above get zero).
-/
import proofs.«403436_j66709432042305_3_alg».proof.Proof.Spec
import proofs.«403436_j66709432042305_3_alg».proof.Proof.Gen.KernelIdeal.Frame
import Idealize.ShloMosaic.Lib.Pipeline.Value
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen Cert.WCE

/-! ## Layout operations and reductions of the block's shapes, read at coordinates -/

namespace P4

variable {α : Type}

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A lane row stored as a [1, 1, 128] block. -/
theorem sc_row_blk (v : S1x128.Idx → α) (h : S1x128.ShapeCasts S1x1x128) (l : Fin 128) :
    shapeCast S1x1x128 v h (ix3 0 0 l) = v (ix2 0 l) := shapeCast_ab_1ab_apply v h 0 0 l

/-- A [1, 1, 128] block read as a lane row. -/
theorem sc_blk_row (v : S1x1x128.Idx → α) (h : S1x1x128.ShapeCasts S1x128) (l : Fin 128) :
    shapeCast S1x128 v h (ix2 0 l) = v (ix3 0 0 l) := shapeCast_1ab_ab_apply v h 0 l

/-- One value spread over the 128 lanes. -/
theorem bc_one_row (v : S1x1.Idx → α) (h : S1x1.Broadcasts S1x128) (l : Fin 128) :
    broadcastTo S1x128 v h (ix2 0 l) = v (ix2 0 0) := by
  refine broadcastTo_apply v h (ix2 0 l) (ix2 0 0) fun ax => ?_
  match ax with
  | ⟨0, _⟩ => rfl
  | ⟨1, _⟩ => rfl

/-- A one-entry vector as a [1, 1] matrix. -/
theorem sc_one (v : S1.Idx → α) (h : S1.ShapeCasts S1x1) : shapeCast S1x1 v h (ix2 0 0) = v (ix1 0) :=
  shapeCast_a_1a_apply v h 0 0

/-- A column of 128 row sums kept as a [128, 1] matrix. -/
theorem sc_col (v : S128.Idx → α) (h : S128.ShapeCasts S128x1) (r : Fin 128) :
    shapeCast S128x1 v h (ix2 r 0) = v (ix1 r) :=
  shapeCast_apply v h _ _ (by
    rw [Shape.rowMajor_val_one, Shape.rowMajor_val_two]
    show r.val = r.val * 1 + 0
    omega)

/-- The labels' or the mask's block without its unit axis. -/
theorem sc_blk2 (v : S1x128x512.Idx → α) (h : S1x128x512.ShapeCasts S128x512) (r : Fin 128) (q : Fin 512) :
    shapeCast S128x512 v h (ix2 r q) = v (ix3 0 r q) := shapeCast_1ab_ab_apply v h r q

/-- A [128, 512] matrix with a unit axis put in front. -/
theorem sc_blk2' (v : S128x512.Idx → α) (h : S128x512.ShapeCasts S1x128x512) (r : Fin 128) (q : Fin 512) :
    shapeCast S1x128x512 v h (ix3 0 r q) = v (ix2 r q) := shapeCast_ab_1ab_apply v h 0 r q

/-- The predictions' block without its unit axis. -/
theorem sc_blk3 (v : S1x19x128x512.Idx → α) (h : S1x19x128x512.ShapeCasts S19x128x512) (c : Fin 19) (r : Fin 128) (q : Fin 512) :
    shapeCast S19x128x512 v h (ix3 c r q) = v (ix4 0 c r q) := shapeCast_1abc_abc_apply v h c r q

/-- One [128, 512] matrix repeated for each of the 19 classes. -/
theorem bc_cls (v : S1x128x512.Idx → α) (h : S1x128x512.Broadcasts S19x128x512) (c : Fin 19) (r : Fin 128) (q : Fin 512) :
    broadcastTo S19x128x512 v h (ix3 c r q) = v (ix3 0 r q) := by
  refine broadcastTo_apply v h (ix3 c r q) (ix3 0 r q) fun ax => ?_
  match ax with
  | ⟨0, _⟩ => rfl
  | ⟨1, _⟩ => rfl
  | ⟨2, _⟩ => rfl

theorem slice_lt {o : ℕ} (h : S19x128x512.Slices ![o, 0, 0] S1x128x512) : o < 19 := by
  obtain ⟨h1, h2⟩ := h
  have h0 := h2 0
  have e : (![o, 0, 0] : Fin 3 → ℕ) 0 + S1x128x512.size ((0 : Fin 3).cast h1.symm) = o + 1 := rfl
  have e' : S19x128x512.size 0 = 19 := rfl
  omega

/-- Class `o`'s [128, 512] matrix cut out of the 19. -/
theorem slice_cls (o : ℕ) (v : S19x128x512.Idx → α) (h : S19x128x512.Slices ![o, 0, 0] S1x128x512) (r : Fin 128) (q : Fin 512) :
    extractStridedSlice S1x128x512 ![o, 0, 0] v h (ix3 0 r q) = v (ix3 (⟨o, slice_lt h⟩ : Fin 19) r q) :=
  extractStridedSlice_apply _ _ _ _ _ (fun ax => by
    match ax with
    | ⟨0, _⟩ => rfl
    | ⟨1, _⟩ => exact (Nat.zero_add _).symm
    | ⟨2, _⟩ => exact (Nat.zero_add _).symm)

/-- A row's sum over the 512 columns. -/
theorem sum_cols (v : FVec Ideal S128x512 .f32) (hφ : FKind.Formats .f32) (hacc : (0x00000000#32 : BitVec 32) = 0x00000000#32) (r : Fin 128) :
    multiReduction (F := Ideal) .add [1] S128 v 0x00000000#32 reduces_S128x512_S128 hφ hacc (ix1 r) = ∑ q : Fin 512, v (ix2 r q) := by
  refine (Ideal.multiReduction_add_single v _ reduces_S128x512_S128 hφ hacc (ix1 r)).trans ?_
  refine Finset.sum_congr rfl fun q _ => congrArg v ?_
  funext a
  match a with
  | ⟨0, _⟩ => rfl
  | ⟨1, _⟩ => rfl

/-- The sum of a column of 128 entries. -/
theorem sum_rows (v : FVec Ideal S128x1 .f32) (hφ : FKind.Formats .f32) (hacc : (0x00000000#32 : BitVec 32) = 0x00000000#32) :
    multiReduction (F := Ideal) .add [0] S1 v 0x00000000#32 reduces_S128x1_S1 hφ hacc (ix1 0) = ∑ r : Fin 128, v (ix2 r 0) := by
  refine (Ideal.multiReduction_add_single v _ reduces_S128x1_S1 hφ hacc (ix1 0)).trans ?_
  refine Finset.sum_congr rfl fun r _ => congrArg v ?_
  funext a
  match a with
  | ⟨0, _⟩ => rfl
  | ⟨1, _⟩ => rfl

/-- A pixel's sum over the 19 classes. -/
theorem sum_cls (v : FVec Ideal S19x128x512 .f32) (hφ : FKind.Formats .f32) (hacc : (0x00000000#32 : BitVec 32) = 0x00000000#32) (r : Fin 128) (q : Fin 512) :
    multiReduction (F := Ideal) .add [0] S128x512 v 0x00000000#32 reduces_S19x128x512_S128x512 hφ hacc (ix2 r q) = ∑ c : Fin 19, v (ix3 c r q) := by
  refine (Ideal.multiReduction_add_single v _ reduces_S19x128x512_S128x512 hφ hacc (ix2 r q)).trans ?_
  refine Finset.sum_congr rfl fun c _ => congrArg v ?_
  funext a
  match a with
  | ⟨0, _⟩ => rfl
  | ⟨1, _⟩ => rfl
  | ⟨2, _⟩ => rfl

/-- A pixel's maximum over the 19 classes: the fold of `max` from −∞. -/
theorem max_cls (v : FVec Ideal S19x128x512 .f32) (hφ : FKind.Formats .f32) (hacc : (0xFF800000#32 : BitVec 32) = 0xFF800000#32) (r : Fin 128) (q : Fin 512) :
    multiReduction (F := Ideal) .maximumf [0] S128x512 v 0xFF800000#32 reduces_S19x128x512_S128x512 hφ hacc (ix2 r q)
      = (Finset.univ : Finset (Fin 19)).fold max negInf (fun c => v (ix3 c r q)) := by
  refine (Ideal.multiReduction_maximumf_single v _ reduces_S19x128x512_S128x512 hφ hacc (ix2 r q)).trans ?_
  show (Finset.univ : Finset (Fin 19)).fold max negInf _ = _
  congr 1
  funext c
  refine congrArg v ?_
  funext a
  match a with
  | ⟨0, _⟩ => rfl
  | ⟨1, _⟩ => rfl
  | ⟨2, _⟩ => rfl

/-- A select on an integer equality is an `if`. -/
theorem sel_eq (a b : BitVec 32) (u v : α) : Scalar.select (IntOp.cmpi .eq a b) u v = if a = b then u else v := by
  unfold Scalar.select IntOp.cmpi
  by_cases h : a = b
  · subst h; simp
  · have hb : (a == b) = false := by simpa using h
    simp [hb, h]

theorem cmpi_eq_apply {s : Shape} (x y : IVec s 32) (i : s.Idx) : cmpi .eq x y i = IntOp.cmpi .eq (x i) (y i) := rfl

/-- The lane counter reads its lane. -/
theorem iota_lane (h : S1x128.Iotas .tc 32 [1]) (l : Fin 128) : iota .tc S1x128 32 [1] h (ix2 0 l) = BitVec.ofNat 32 l.val :=
  iota_single_apply .tc S1x128 32 1 h (ix2 0 l)

theorem exp_apply {s : Shape} (x : FVec Ideal s .f32) (i : s.Idx) : exp x i = Ideal.exp (x i) := rfl
theorem log_apply {s : Shape} (x : FVec Ideal s .f32) (i : s.Idx) : log x i = Ideal.log (x i) := rfl

/-- The shifted logits the body computes are the block's shifted logits. -/
theorem pay7_apply (x0 : Vec Ideal S1x19x128x512 .f32) (c : Fin 19) (r : Fin 128) (q : Fin 512) :
    k0_pay7 (F := Ideal) x0 (ix3 c r q) = shB x0 c r q := by
  unfold k0_pay7
  simp only [subf_apply, sc_blk3, bc_cls, sc_blk2']
  rw [max_cls]
  simp only [sc_blk3]
  rfl

/-- The log of the sum of their exponentials is the block's log-sum-exp. -/
theorem pay8_apply (x0 : Vec Ideal S1x19x128x512 .f32) (r : Fin 128) (q : Fin 512) :
    k0_pay8 (F := Ideal) x0 (ix2 r q) = lseB x0 r q := by
  unfold k0_pay8
  rw [log_apply, sum_cls]
  simp only [exp_apply, pay7_apply]
  rfl

/-- The two-step sum of a [128, 512] matrix: over the columns of each row, then over the rows. -/
theorem total_apply (sm : FVec Ideal S128x512 .f32) (hφ : FKind.Formats .f32) (hacc : (0x00000000#32 : BitVec 32) = 0x00000000#32)
    (hφ' : FKind.Formats .f32) (hacc' : (0x00000000#32 : BitVec 32) = 0x00000000#32) :
    shapeCast S1x1 (multiReduction (F := Ideal) .add [0] S1 (shapeCast S128x1 (multiReduction (F := Ideal) .add [1] S128 sm 0x00000000#32 reduces_S128x512_S128 hφ hacc) shapeCasts_S128_S128x1) 0x00000000#32 reduces_S128x1_S1 hφ' hacc') shapeCasts_S1_S1x1 (ix2 0 0)
      = ∑ r : Fin 128, ∑ q : Fin 512, sm (ix2 r q) := by
  rw [sc_one, sum_rows]
  refine Finset.sum_congr rfl fun r _ => ?_
  rw [sc_col, sum_cols]

/-! ## The loss row's running value, class by class

The body adds the classes' lane terms one after another to a row of zeros; each partial row is named here, at any float
type, and read at the extended reals as the row before it plus the lane terms of the classes it adds. -/

section Chain
variable {F : FTy → Type} [FloatOps F]

/-- The lane counter 0 … 127. -/
abbrev lanes : IVec S1x128 32 := iota .tc S1x128 32 [1] iota_S1x128_d1_w32

/-- The loss row after class 0. -/
def s0 (x0 : Vec F S1x19x128x512 .f32) (x1 : Vec F S1x128x512 .i32) (x2 : Vec F S1x128x512 .f32) : FVec F S1x128 .f32 :=
  k0_pay15 lanes (k0_pay11 (F := F)) (k0_pay14 x0 x1 x2)

/-- The loss row after classes 1 and 2. -/
def s2 (x0 : Vec F S1x19x128x512 .f32) (x1 : Vec F S1x128x512 .i32) (x2 : Vec F S1x128x512 .f32) : FVec F S1x128 .f32 :=
  k0_pay22 (k0_pay5 x1) (k0_pay6 x2) (k0_pay7 x0) (k0_pay8 x0) lanes (s0 x0 x1 x2) (k0_pay18 lanes) (Scalar.ofBits .f32 0x00000000#32) (k0_pay19 (k0_pay5 x1) (k0_pay6 x2) (k0_pay7 x0) (k0_pay8 x0))

/-- The loss row after class 3. -/
def s3 (x0 : Vec F S1x19x128x512 .f32) (x1 : Vec F S1x128x512 .i32) (x2 : Vec F S1x128x512 .f32) : FVec F S1x128 .f32 :=
  k0_pay26 lanes (s2 x0 x1 x2) (k0_pay25 (k0_pay5 x1) (k0_pay6 x2) (k0_pay7 x0) (k0_pay8 x0))

/-- The loss row after classes 4 and 5. -/
def s5 (x0 : Vec F S1x19x128x512 .f32) (x1 : Vec F S1x128x512 .i32) (x2 : Vec F S1x128x512 .f32) : FVec F S1x128 .f32 :=
  k0_pay33 (k0_pay5 x1) (k0_pay6 x2) (k0_pay7 x0) (k0_pay8 x0) lanes (s3 x0 x1 x2) (k0_pay29 lanes) (Scalar.ofBits .f32 0x00000000#32) (k0_pay30 (k0_pay5 x1) (k0_pay6 x2) (k0_pay7 x0) (k0_pay8 x0))

/-- The loss row after class 6. -/
def s6 (x0 : Vec F S1x19x128x512 .f32) (x1 : Vec F S1x128x512 .i32) (x2 : Vec F S1x128x512 .f32) : FVec F S1x128 .f32 :=
  k0_pay37 lanes (s5 x0 x1 x2) (k0_pay36 (k0_pay5 x1) (k0_pay6 x2) (k0_pay7 x0) (k0_pay8 x0))

/-- The loss row after classes 7 and 8. -/
def s8 (x0 : Vec F S1x19x128x512 .f32) (x1 : Vec F S1x128x512 .i32) (x2 : Vec F S1x128x512 .f32) : FVec F S1x128 .f32 :=
  k0_pay44 (k0_pay5 x1) (k0_pay6 x2) (k0_pay7 x0) (k0_pay8 x0) lanes (s6 x0 x1 x2) (k0_pay40 lanes) (Scalar.ofBits .f32 0x00000000#32) (k0_pay41 (k0_pay5 x1) (k0_pay6 x2) (k0_pay7 x0) (k0_pay8 x0))

/-- The loss row after class 9. -/
def s9 (x0 : Vec F S1x19x128x512 .f32) (x1 : Vec F S1x128x512 .i32) (x2 : Vec F S1x128x512 .f32) : FVec F S1x128 .f32 :=
  k0_pay48 lanes (s8 x0 x1 x2) (k0_pay47 (k0_pay5 x1) (k0_pay6 x2) (k0_pay7 x0) (k0_pay8 x0))

/-- The loss row after classes 10 and 11. -/
def s11 (x0 : Vec F S1x19x128x512 .f32) (x1 : Vec F S1x128x512 .i32) (x2 : Vec F S1x128x512 .f32) : FVec F S1x128 .f32 :=
  k0_pay55 (k0_pay5 x1) (k0_pay6 x2) (k0_pay7 x0) (k0_pay8 x0) lanes (s9 x0 x1 x2) (k0_pay51 lanes) (Scalar.ofBits .f32 0x00000000#32) (k0_pay52 (k0_pay5 x1) (k0_pay6 x2) (k0_pay7 x0) (k0_pay8 x0))

/-- The loss row after class 12. -/
def s12 (x0 : Vec F S1x19x128x512 .f32) (x1 : Vec F S1x128x512 .i32) (x2 : Vec F S1x128x512 .f32) : FVec F S1x128 .f32 :=
  k0_pay59 lanes (s11 x0 x1 x2) (k0_pay58 (k0_pay5 x1) (k0_pay6 x2) (k0_pay7 x0) (k0_pay8 x0))

/-- The loss row after classes 13 and 14. -/
def s14 (x0 : Vec F S1x19x128x512 .f32) (x1 : Vec F S1x128x512 .i32) (x2 : Vec F S1x128x512 .f32) : FVec F S1x128 .f32 :=
  k0_pay66 (k0_pay5 x1) (k0_pay6 x2) (k0_pay7 x0) (k0_pay8 x0) lanes (s12 x0 x1 x2) (k0_pay62 lanes) (Scalar.ofBits .f32 0x00000000#32) (k0_pay63 (k0_pay5 x1) (k0_pay6 x2) (k0_pay7 x0) (k0_pay8 x0))

/-- The loss row after class 15. -/
def s15 (x0 : Vec F S1x19x128x512 .f32) (x1 : Vec F S1x128x512 .i32) (x2 : Vec F S1x128x512 .f32) : FVec F S1x128 .f32 :=
  k0_pay70 lanes (s14 x0 x1 x2) (k0_pay69 (k0_pay5 x1) (k0_pay6 x2) (k0_pay7 x0) (k0_pay8 x0))

/-- The loss row after classes 16 and 17. -/
def s17 (x0 : Vec F S1x19x128x512 .f32) (x1 : Vec F S1x128x512 .i32) (x2 : Vec F S1x128x512 .f32) : FVec F S1x128 .f32 :=
  k0_pay77 (k0_pay5 x1) (k0_pay6 x2) (k0_pay7 x0) (k0_pay8 x0) lanes (s15 x0 x1 x2) (k0_pay73 lanes) (Scalar.ofBits .f32 0x00000000#32) (k0_pay74 (k0_pay5 x1) (k0_pay6 x2) (k0_pay7 x0) (k0_pay8 x0))

/-- What the body stores in the loss row's buffer holding `xo`. -/
def sfin (x0 : Vec F S1x19x128x512 .f32) (x1 : Vec F S1x128x512 .i32) (x2 : Vec F S1x128x512 .f32) (xo : Vec F S1x1x128 .f32) : FVec F S1x1x128 .f32 :=
  k0_pay82 lanes (s17 x0 x1 x2) (k0_pay80 (k0_pay5 x1) (k0_pay6 x2) (k0_pay7 x0) (k0_pay8 x0)) xo

end Chain

/-- Class `c`'s lane term: the block's loss sum of class `c` in lane `c`, zero in the other lanes. -/
def term (x0 : Vec Ideal S1x19x128x512 .f32) (x1 : Vec Ideal S1x128x512 .i32) (x2 : Vec Ideal S1x128x512 .f32) (l : Fin 128) (c : Fin 19) : EReal :=
  if BitVec.ofNat 32 l.val = BitVec.ofNat 32 c.val then blkS x0 x1 x2 c else 0

/-- Opens the payloads of one step, reads the lane selects and the two-step sums, then the summands. -/
macro "p4_lane_step" : tactic => `(tactic| (
  simp only [k0_pay5, k0_pay6, k0_pay11, k0_pay12, k0_pay14, k0_pay15, k0_pay16, k0_pay18, k0_pay19, k0_pay20, k0_pay22, k0_pay23, k0_pay25, k0_pay26, k0_pay27, k0_pay29, k0_pay30, k0_pay31, k0_pay33, k0_pay34, k0_pay36, k0_pay37, k0_pay38, k0_pay40, k0_pay41, k0_pay42, k0_pay44, k0_pay45, k0_pay47, k0_pay48, k0_pay49, k0_pay51, k0_pay52, k0_pay53, k0_pay55, k0_pay56, k0_pay58, k0_pay59, k0_pay60, k0_pay62, k0_pay63, k0_pay64, k0_pay66, k0_pay67, k0_pay69, k0_pay70, k0_pay71, k0_pay73, k0_pay74, k0_pay75, k0_pay77, k0_pay78, k0_pay80, k0_pay82, addf_apply, mulf_apply, subf_apply, select_apply, cmpi_eq_apply, broadcast_apply, sc_row_blk, sc_blk_row, bc_one_row, shapeCast_self, iota_lane, sel_eq, sc_blk2, slice_cls, pay7_apply, pay8_apply, Ideal.ofBits_def, Ideal.ofBits_zero_f32]
  repeat rw [total_apply]
  simp only [k0_pay5, k0_pay6, k0_pay11, k0_pay12, k0_pay14, k0_pay15, k0_pay16, k0_pay18, k0_pay19, k0_pay20, k0_pay22, k0_pay23, k0_pay25, k0_pay26, k0_pay27, k0_pay29, k0_pay30, k0_pay31, k0_pay33, k0_pay34, k0_pay36, k0_pay37, k0_pay38, k0_pay40, k0_pay41, k0_pay42, k0_pay44, k0_pay45, k0_pay47, k0_pay48, k0_pay49, k0_pay51, k0_pay52, k0_pay53, k0_pay55, k0_pay56, k0_pay58, k0_pay59, k0_pay60, k0_pay62, k0_pay63, k0_pay64, k0_pay66, k0_pay67, k0_pay69, k0_pay70, k0_pay71, k0_pay73, k0_pay74, k0_pay75, k0_pay77, k0_pay78, k0_pay80, k0_pay82, addf_apply, mulf_apply, subf_apply, select_apply, cmpi_eq_apply, broadcast_apply, sc_row_blk, sc_blk_row, bc_one_row, shapeCast_self, iota_lane, sel_eq, sc_blk2, slice_cls, pay7_apply, pay8_apply, Ideal.ofBits_def, Ideal.ofBits_zero_f32]))

variable (x0 : Vec Ideal S1x19x128x512 .f32) (x1 : Vec Ideal S1x128x512 .i32) (x2 : Vec Ideal S1x128x512 .f32) (l : Fin 128)

theorem s0_apply : s0 (F := Ideal) x0 x1 x2 (ix2 0 l) = 0 + term x0 x1 x2 l 0 := by
  unfold s0
  p4_lane_step
  rfl

theorem s2_apply : s2 (F := Ideal) x0 x1 x2 (ix2 0 l) = s0 (F := Ideal) x0 x1 x2 (ix2 0 l) + term x0 x1 x2 l 1 + term x0 x1 x2 l 2 := by
  unfold s2
  p4_lane_step
  rfl

theorem s3_apply : s3 (F := Ideal) x0 x1 x2 (ix2 0 l) = s2 (F := Ideal) x0 x1 x2 (ix2 0 l) + term x0 x1 x2 l 3 := by
  unfold s3
  p4_lane_step
  rfl

theorem s5_apply : s5 (F := Ideal) x0 x1 x2 (ix2 0 l) = s3 (F := Ideal) x0 x1 x2 (ix2 0 l) + term x0 x1 x2 l 4 + term x0 x1 x2 l 5 := by
  unfold s5
  p4_lane_step
  rfl

theorem s6_apply : s6 (F := Ideal) x0 x1 x2 (ix2 0 l) = s5 (F := Ideal) x0 x1 x2 (ix2 0 l) + term x0 x1 x2 l 6 := by
  unfold s6
  p4_lane_step
  rfl

theorem s8_apply : s8 (F := Ideal) x0 x1 x2 (ix2 0 l) = s6 (F := Ideal) x0 x1 x2 (ix2 0 l) + term x0 x1 x2 l 7 + term x0 x1 x2 l 8 := by
  unfold s8
  p4_lane_step
  rfl

theorem s9_apply : s9 (F := Ideal) x0 x1 x2 (ix2 0 l) = s8 (F := Ideal) x0 x1 x2 (ix2 0 l) + term x0 x1 x2 l 9 := by
  unfold s9
  p4_lane_step
  rfl

theorem s11_apply : s11 (F := Ideal) x0 x1 x2 (ix2 0 l) = s9 (F := Ideal) x0 x1 x2 (ix2 0 l) + term x0 x1 x2 l 10 + term x0 x1 x2 l 11 := by
  unfold s11
  p4_lane_step
  rfl

theorem s12_apply : s12 (F := Ideal) x0 x1 x2 (ix2 0 l) = s11 (F := Ideal) x0 x1 x2 (ix2 0 l) + term x0 x1 x2 l 12 := by
  unfold s12
  p4_lane_step
  rfl

theorem s14_apply : s14 (F := Ideal) x0 x1 x2 (ix2 0 l) = s12 (F := Ideal) x0 x1 x2 (ix2 0 l) + term x0 x1 x2 l 13 + term x0 x1 x2 l 14 := by
  unfold s14
  p4_lane_step
  rfl

theorem s15_apply : s15 (F := Ideal) x0 x1 x2 (ix2 0 l) = s14 (F := Ideal) x0 x1 x2 (ix2 0 l) + term x0 x1 x2 l 15 := by
  unfold s15
  p4_lane_step
  rfl

theorem s17_apply : s17 (F := Ideal) x0 x1 x2 (ix2 0 l) = s15 (F := Ideal) x0 x1 x2 (ix2 0 l) + term x0 x1 x2 l 16 + term x0 x1 x2 l 17 := by
  unfold s17
  p4_lane_step
  rfl

theorem sfin_apply (xo : Vec Ideal S1x1x128 .f32) :
    sfin (F := Ideal) x0 x1 x2 xo (ix3 0 0 l) = xo (ix3 0 0 l) + (s17 (F := Ideal) x0 x1 x2 (ix2 0 l) + term x0 x1 x2 l 18) := by
  unfold sfin
  p4_lane_step
  rfl

/-- The loss row's lane is the sum of the 19 lane terms. -/
theorem laneS_terms : laneS x0 x1 x2 l = ∑ c : Fin 19, term x0 x1 x2 l c := by
  unfold laneS term
  refine Finset.sum_congr rfl fun c _ => ?_
  have hl := l.isLt
  have hc := c.isLt
  have h : (BitVec.ofNat 32 l.val = BitVec.ofNat 32 c.val) ↔ l.val = c.val := by
    constructor
    · intro h
      have e := congrArg BitVec.toNat h
      simp only [BitVec.toNat_ofNat] at e
      rw [Nat.mod_eq_of_lt (by omega), Nat.mod_eq_of_lt (by omega)] at e
      exact e
    · intro h; rw [h]
  by_cases hlc : l.val = c.val
  · rw [if_pos hlc, if_pos (h.mpr hlc)]
  · rw [if_neg hlc, if_neg (fun h' => hlc (h.mp h'))]

/-- The row after class 17 plus class 18's lane term, read at lane `l`, is the block's loss row there. -/
theorem chain_sum : s17 (F := Ideal) x0 x1 x2 (ix2 0 l) + term x0 x1 x2 l 18 = laneS x0 x1 x2 l := by
  rw [s17_apply, s15_apply, s14_apply, s12_apply, s11_apply, s9_apply, s8_apply, s6_apply, s5_apply, s3_apply, s2_apply, s0_apply, laneS_terms]
  simp only [Fin.sum_univ_castSucc, Fin.sum_univ_zero]
  rfl

end P4

open P4

/-- First row block of a batch: the loss row ends at the block's per-class loss sums. -/
theorem out_A_4_apply (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x128x512 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec Ideal S1x19x128x512 .f32) (x1 : Vec Ideal S1x128x512 .i32) (x2 : Vec Ideal S1x128x512 .f32) (l : Fin 128) :
    out0_A_4 (F := Ideal) c i arg2 harg2 arg3 harg3 arg4 harg4 arg5 harg5 arg6 harg6 arg7 harg7 hc0 x0 x1 x2 (ix3 0 0 l) = laneS x0 x1 x2 l := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_cons_unit_zero (S := S1x1x128) hz3]
  simp only [View.readAt_eq_ld, harg2.read_unread, harg3.read_unread, harg4.read_unread, View.readCov_unit_zero (S := S1x1x128) _ hz3, View.ld_unit_zero (S := S1x19x128x512) hz4, View.ld_unit_zero (S := S1x128x512) hz3, View.ld_unit_zero (S := S1x1x128) hz3]
  refine (sfin_apply x0 x1 x2 l (k0_pay3 (F := Ideal))).trans ?_
  rw [chain_sum]
  have hz : k0_pay3 (F := Ideal) (ix3 0 0 l) = 0 := by
    unfold k0_pay3
    simp only [sc_row_blk, broadcast_apply, Ideal.ofBits_def, Ideal.ofBits_zero_f32]
  rw [hz, zero_add]

/-- A later row block: the loss row ends at what it held plus the block's per-class loss sums. -/
theorem out_B_4_apply (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x128x512 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec Ideal S1x19x128x512 .f32) (x1 : Vec Ideal S1x128x512 .i32) (x2 : Vec Ideal S1x128x512 .f32) (xo3 xo4 xo5 : Vec Ideal S1x1x128 .f32) (l : Fin 128) :
    out0_B_4 (F := Ideal) c i arg2 harg2 arg3 harg3 arg4 harg4 arg5 harg5 arg6 harg6 arg7 harg7 hc0 x0 x1 x2 xo3 xo4 xo5 (ix3 0 0 l) = xo4 (ix3 0 0 l) + laneS x0 x1 x2 l := by
  unfold out0_B_4
  rw [View.read_writes_eq_canon _ _ _ (cover0_B_4 c i arg2 harg2 arg3 harg3 arg4 harg4 arg5 harg5 arg6 harg6 arg7 harg7 hc0 x0 x1 x2 xo3 xo4 xo5)]
  unfold kernelRun0_B
  dsimp only
  sl_unfold_words
  rw [View.canon_unit_zero hz3]
  simp only [View.readAt_eq_ld, harg2.read_unread, harg3.read_unread, harg4.read_unread, harg6.read_unread, View.ld_unit_zero (S := S1x19x128x512) hz4, View.ld_unit_zero (S := S1x128x512) hz3, View.ld_unit_zero (S := S1x1x128) hz3]
  refine (sfin_apply x0 x1 x2 l xo4).trans ?_
  rw [chain_sum]

end Cert.KernelIdeal.KV

end
-- ==== Proof.KAcc.lean ====
/-
  The kernel's three result arrays [16, 1, 128] after the whole grid, read at an entry. The grid visits, for each
  batch b, the four row blocks h = 0..3 in turn; the three output blocks (b, 0, ·) stay in their staging buffers over
  those four points and are written back after the fourth. So entry (b, 0, l) of each array is the sum over the four
  row blocks of what one point adds to lane l, and a point's blocks are rows 128 h .. 128 h + 127 of image b.
-/
import proofs.«403436_j66709432042305_3_alg».proof.Proof.Spec
import proofs.«403436_j66709432042305_3_alg».proof.Proof.KPiece3
import proofs.«403436_j66709432042305_3_alg».proof.Proof.KPiece4
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen Cert.WCE

variable (m : (ℓ : Loc nD τ sig) → Buf (Elt Ideal) ℓ)

/-- The kernel program's three argument arrays on core `c`. -/
abbrev argP (c : Dev nD) : SP.Idx → EReal := m ((c.tc : Thread nD τ).loc main_arg0)
abbrev argT (c : Dev nD) : ST.Idx → BitVec 32 := m ((c.tc : Thread nD τ).loc main_arg1)
abbrev argM (c : Dev nD) : ST.Idx → EReal := m ((c.tc : Thread nD τ).loc main_arg2)

/-- The three input blocks a grid point reads, named by their literal types. -/
private abbrev pblk (c : Dev nD) (t : Fin cfg0.N) : Vec Ideal S1x19x128x512 .f32 := iblk m c 0 t
private abbrev tblk (c : Dev nD) (t : Fin cfg0.N) : Vec Ideal S1x128x512 .i32 := iblk m c 1 t
private abbrev mblk (c : Dev nD) (t : Fin cfg0.N) : Vec Ideal S1x128x512 .f32 := iblk m c 2 t

/-- The block indices of the six windows at grid point `t`: batch `t / 4`, row block `t % 4`. -/
private theorem idx_facts : ∀ t : Fin cfg0.N,
    (win0_0.index t (0 : Fin 4) = t.val / 4 ∧ win0_0.index t (1 : Fin 4) = 0
      ∧ win0_0.index t (2 : Fin 4) = t.val % 4 ∧ win0_0.index t (3 : Fin 4) = 0)
    ∧ (win0_1.index t (0 : Fin 3) = t.val / 4 ∧ win0_1.index t (1 : Fin 3) = t.val % 4 ∧ win0_1.index t (2 : Fin 3) = 0)
    ∧ (win0_2.index t (0 : Fin 3) = t.val / 4 ∧ win0_2.index t (1 : Fin 3) = t.val % 4 ∧ win0_2.index t (2 : Fin 3) = 0)
    ∧ (win0_3.index t (0 : Fin 3) = t.val / 4 ∧ win0_3.index t (1 : Fin 3) = 0 ∧ win0_3.index t (2 : Fin 3) = 0)
    ∧ (win0_4.index t (0 : Fin 3) = t.val / 4 ∧ win0_4.index t (1 : Fin 3) = 0 ∧ win0_4.index t (2 : Fin 3) = 0)
    ∧ (win0_5.index t (0 : Fin 3) = t.val / 4 ∧ win0_5.index t (1 : Fin 3) = 0 ∧ win0_5.index t (2 : Fin 3) = 0) :=
  (by decide +kernel : ∀ t : Fin grid0.N, _)

/-- The labels' block at point `4 b + h` reads rows `128 h ..` of image `b`. -/
private theorem tblk_apply (c : Dev nD) (t : Fin cfg0.N) (b : Fin 16) (h : Fin 4) (e : t.val = 4 * b.val + h.val)
    (r : Fin 128) (q : Fin 512) :
    tblk m c t (ix3 0 r q) = argT m c (ix3 b (rowK h r) q) := by
  obtain ⟨-, ⟨e0, e1, e2⟩, -⟩ := idx_facts t
  show iblk m c 1 t (ix3 0 r q) = _
  unfold iblk
  rw [View.read_apply]
  show V m c main_arg1 _ = m (c.tc.loc main_arg1) _
  unfold V
  congr 1
  funext a
  apply Fin.ext
  have hb := b.isLt
  have hh := h.isLt
  match a with
  | ⟨0, _⟩ => show win0_1.index t (0 : Fin 3) * 1 + 1 * 0 = b.val; rw [e0]; omega
  | ⟨1, _⟩ => show win0_1.index t (1 : Fin 3) * 128 + 1 * r.val = 128 * h.val + r.val; rw [e1]; omega
  | ⟨2, _⟩ => show win0_1.index t (2 : Fin 3) * 512 + 1 * q.val = q.val; rw [e2]; omega

/-- The mask's block at point `4 b + h` reads rows `128 h ..` of image `b`. -/
private theorem mblk_apply (c : Dev nD) (t : Fin cfg0.N) (b : Fin 16) (h : Fin 4) (e : t.val = 4 * b.val + h.val)
    (r : Fin 128) (q : Fin 512) :
    mblk m c t (ix3 0 r q) = argM m c (ix3 b (rowK h r) q) := by
  obtain ⟨-, -, ⟨e0, e1, e2⟩, -⟩ := idx_facts t
  show iblk m c 2 t (ix3 0 r q) = _
  unfold iblk
  rw [View.read_apply]
  show V m c main_arg2 _ = m (c.tc.loc main_arg2) _
  unfold V
  congr 1
  funext a
  apply Fin.ext
  have hb := b.isLt
  have hh := h.isLt
  match a with
  | ⟨0, _⟩ => show win0_2.index t (0 : Fin 3) * 1 + 1 * 0 = b.val; rw [e0]; omega
  | ⟨1, _⟩ => show win0_2.index t (1 : Fin 3) * 128 + 1 * r.val = 128 * h.val + r.val; rw [e1]; omega
  | ⟨2, _⟩ => show win0_2.index t (2 : Fin 3) * 512 + 1 * q.val = q.val; rw [e2]; omega

/-- The predictions' block at point `4 b + h` reads, for every class, rows `128 h ..` of image `b`. -/
private theorem pblk_apply (c : Dev nD) (t : Fin cfg0.N) (b : Fin 16) (h : Fin 4) (e : t.val = 4 * b.val + h.val)
    (k : Fin 19) (r : Fin 128) (q : Fin 512) :
    pblk m c t (ix4 0 k r q) = argP m c (ix4 b k (rowK h r) q) := by
  obtain ⟨⟨e0, e1, e2, e3⟩, -⟩ := idx_facts t
  show iblk m c 0 t (ix4 0 k r q) = _
  unfold iblk
  rw [View.read_apply]
  show V m c main_arg0 _ = m (c.tc.loc main_arg0) _
  unfold V
  congr 1
  funext a
  apply Fin.ext
  have hb := b.isLt
  have hh := h.isLt
  match a with
  | ⟨0, _⟩ => show win0_0.index t (0 : Fin 4) * 1 + 1 * 0 = b.val; rw [e0]; omega
  | ⟨1, _⟩ => show win0_0.index t (1 : Fin 4) * 19 + 1 * k.val = k.val; rw [e1]; omega
  | ⟨2, _⟩ => show win0_0.index t (2 : Fin 4) * 128 + 1 * r.val = 128 * h.val + r.val; rw [e2]; omega
  | ⟨3, _⟩ => show win0_0.index t (3 : Fin 4) * 512 + 1 * q.val = q.val; rw [e3]; omega

/-- Lane `l` of the count row of the blocks at point `4 b + h`, over the arrays. -/
private theorem laneC_at (c : Dev nD) (t : Fin cfg0.N) (b : Fin 16) (h : Fin 4) (e : t.val = 4 * b.val + h.val) (l : Fin 128) :
    laneC (tblk m c t) (mblk m c t) l
      = ∑ k : Fin 19, if l.val = k.val then
          ∑ r : Fin 128, ∑ q : Fin 512, mc (argT m c) (argM m c) k b (rowK h r) q else 0 := by
  unfold laneC blkC mcB
  simp only [tblk_apply m c t b h e, mblk_apply m c t b h e]
  rfl

/-- Lane `l` of the loss row of the blocks at point `4 b + h`, over the arrays. -/
private theorem laneS_at (c : Dev nD) (t : Fin cfg0.N) (b : Fin 16) (h : Fin 4) (e : t.val = 4 * b.val + h.val) (l : Fin 128) :
    laneS (pblk m c t) (tblk m c t) (mblk m c t) l
      = ∑ k : Fin 19, if l.val = k.val then
          ∑ r : Fin 128, ∑ q : Fin 512, mc (argT m c) (argM m c) k b (rowK h r) q * nll (argP m c) b k (rowK h r) q else 0 := by
  unfold laneS blkS mcB lseB shB mxB
  simp only [tblk_apply m c t b h e, mblk_apply m c t b h e, pblk_apply m c t b h e]
  rfl

/-- The labelled mass of the mask's block at point `4 b + h`, over the array. -/
private theorem blkM_at (c : Dev nD) (t : Fin cfg0.N) (b : Fin 16) (h : Fin 4) (e : t.val = 4 * b.val + h.val) :
    blkM (mblk m c t) = ∑ r : Fin 128, ∑ q : Fin 512, mk (argM m c) b (rowK h r) q := by
  unfold blkM
  simp only [mblk_apply m c t b h e]
  rfl

/-- The grid has 64 points. -/
private theorem N_eq : cfg0.N = 64 := N_0

/-- The staging contents after a point depend on the point only. -/
private theorem outsAt0_congr (c : Dev nD) {n n' : ℕ} (e : n = n') (hn : n < cfg0.N) (hn' : n' < cfg0.N) :
    outsAt0 m c n hn = outsAt0 m c n' hn' := by
  subst e; rfl

/-- Every index of a [1, 1, 128] block is a lane. -/
private theorem lane_idx (y : S1x1x128.Idx) : ∃ l : Fin 128, y = ix3 0 0 l := by
  refine ⟨⟨(y 2).val, (y 2).isLt⟩, ?_⟩
  funext a
  match a with
  | ⟨0, _⟩ => apply Fin.ext; have h : ((y 0 : Fin 1) : ℕ) < 1 := (y 0).isLt; show (y 0).val = 0; omega
  | ⟨1, _⟩ => apply Fin.ext; have h : ((y 1 : Fin 1) : ℕ) < 1 := (y 1).isLt; show (y 1).val = 0; omega
  | ⟨2, _⟩ => rfl

/-! ## The count row -/

/-- A batch's first row block leaves the block's per-class counts in the count row. -/
private theorem first3 (c : Dev nD) (n : ℕ) (hn : n < cfg0.N) (h0 : n % 4 = 0) (l : Fin 128) :
    (outsAt0 m c n hn).1 (ix3 0 0 l) = laneC (tblk m c ⟨n, hn⟩) (mblk m c ⟨n, hn⟩) l := by
  rw [outsAt0_A m c ⟨n, hn⟩ h0]
  dsimp only
  exact out_A_3_apply c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) ((hcond0_0 ⟨n, hn⟩).mpr h0) (pblk m c ⟨n, hn⟩) (tblk m c ⟨n, hn⟩) (mblk m c ⟨n, hn⟩) l

/-- A later row block adds its per-class counts to what the point before left. -/
private theorem next3 (c : Dev nD) (n : ℕ) (hn : n + 1 < cfg0.N) (h0 : ¬(n + 1) % 4 = 0) (l : Fin 128) :
    (outsAt0 m c (n + 1) hn).1 (ix3 0 0 l)
      = (outsAt0 m c n (Nat.lt_of_succ_lt hn)).1 (ix3 0 0 l) + laneC (tblk m c ⟨n + 1, hn⟩) (mblk m c ⟨n + 1, hn⟩) l := by
  rw [outsAt0_B m c ⟨n + 1, hn⟩ h0]
  dsimp only
  exact out_B_3_apply c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (pblk m c ⟨n + 1, hn⟩) (tblk m c ⟨n + 1, hn⟩) (mblk m c ⟨n + 1, hn⟩)
    (outsAt0 m c n (Nat.lt_of_succ_lt hn)).1 (outsAt0 m c n (Nat.lt_of_succ_lt hn)).2.1 (outsAt0 m c n (Nat.lt_of_succ_lt hn)).2.2 l

/-- Lane `l` of image `b`'s count row: over the four row blocks, class `l`'s masked count (zero for `l ≥ 19`). -/
private def R3 (c : Dev nD) (b : Fin 16) (l : Fin 128) : EReal :=
  ∑ h : Fin 4, ∑ k : Fin 19, if l.val = k.val then
    ∑ r : Fin 128, ∑ q : Fin 512, mc (argT m c) (argM m c) k b (rowK h r) q else 0

/-- After a batch's fourth row block lane `l` of the count row holds the sum of the four blocks' lane-`l` counts. -/
private theorem acc3 (c : Dev nD) (b : Fin 16) (l : Fin 128) (h3 : 4 * b.val + 1 + 1 + 1 < cfg0.N) :
    (outsAt0 m c (4 * b.val + 1 + 1 + 1) h3).1 (ix3 0 0 l) = R3 m c b l := by
  rw [next3 m c (4 * b.val + 1 + 1) h3 (by omega) l, next3 m c (4 * b.val + 1) (by omega) (by omega) l,
    next3 m c (4 * b.val) (by omega) (by omega) l, first3 m c (4 * b.val) (by omega) (by omega) l]
  rw [laneC_at m c ⟨4 * b.val, by omega⟩ b 0 rfl l, laneC_at m c ⟨4 * b.val + 1, by omega⟩ b 1 rfl l,
    laneC_at m c ⟨4 * b.val + 1 + 1, by omega⟩ b 2 rfl l, laneC_at m c ⟨4 * b.val + 1 + 1 + 1, h3⟩ b 3 rfl l]
  unfold R3
  rw [Fin.sum_univ_four]

/-- What the count array ends holding: entry (b, 0, l) is lane `l` of image `b`'s count row. -/
private abbrev G3 (c : Dev nD) : SO.Idx → EReal := fun i => R3 m c (i 0) (i 2)

/-- The write-back after a batch's fourth row block writes the block (b, 0, ·) of that array. -/
private theorem flushed3_eq (c : Dev nD) (t : Fin cfg0.N) (hf : (cfg0.win 3).flush t = true) :
    (dats m 0 c).flushed 3 t = ((cfg0.win 3).blk t).view.read (Elt Ideal) (G3 m c) := by
  have hN : cfg0.N = 64 := N_eq
  have ht := t.isLt
  have h3 : t.val % 4 = 3 := (flush0_3 t).mp hf
  obtain ⟨-, -, -, ⟨e0, e1, e2⟩, -, -⟩ := idx_facts t
  show (cfg0.win 3).cut (grid0.coords t) ((dats m 0 c).after 3 t) = _
  rw [after0_3]
  funext y
  obtain ⟨l, rfl⟩ := lane_idx y
  rw [View.read_apply]
  have hb : (((cfg0.win 3).blk t).view.emb (ix3 0 0 l) : SO.Idx) 0 = (⟨t.val / 4, by omega⟩ : Fin 16) :=
    Fin.ext (by show win0_3.index t (0 : Fin 3) * 1 + 1 * 0 = t.val / 4; rw [e0]; omega)
  have hl : (((cfg0.win 3).blk t).view.emb (ix3 0 0 l) : SO.Idx) 2 = l :=
    Fin.ext (by show win0_3.index t (2 : Fin 3) * 128 + 1 * l.val = l.val; rw [e2]; omega)
  have hn : t.val = 4 * (t.val / 4) + 1 + 1 + 1 := by omega
  show (outsAt0 m c t.val t.isLt).1 (ix3 0 0 l)
    = R3 m c ((((cfg0.win 3).blk t).view.emb (ix3 0 0 l) : SO.Idx) 0) ((((cfg0.win 3).blk t).view.emb (ix3 0 0 l) : SO.Idx) 2)
  rw [hb, hl, outsAt0_congr m c hn t.isLt (by omega)]
  exact acc3 m c ⟨t.val / 4, by omega⟩ l (by show 4 * (t.val / 4) + 1 + 1 + 1 < cfg0.N; omega)

/-- Every entry (b, 0, l) lies in the block written back after batch `b`'s fourth row block. -/
private theorem cover3 (i : SO.Idx) :
    ∃ t : Fin cfg0.N, (cfg0.win 3).flush t = true ∧ i ∈ ((cfg0.win 3).blk t).view.set := by
  have hN : cfg0.N = 64 := N_eq
  have h0 : (i 0 : ℕ) < 16 := (i 0).isLt
  have h1 : (i 1 : ℕ) < 1 := (i 1).isLt
  have h2 : (i 2 : ℕ) < 128 := (i 2).isLt
  obtain ⟨t, ht⟩ : ∃ t : Fin cfg0.N, t.val = 4 * (i 0).val + 3 := ⟨⟨4 * (i 0).val + 3, by omega⟩, rfl⟩
  obtain ⟨-, -, -, ⟨e0, e1, e2⟩, -, -⟩ := idx_facts t
  refine ⟨t, (flush0_3 t).mpr (by omega), ?_⟩
  show i ∈ ((View.whole main_v0_0).slice (win0_3.rect t)).set
  rw [View.set_slice_whole, Rect.mem_set_unit]
  intro a
  match a with
  | ⟨0, _⟩ =>
    show win0_3.index t (0 : Fin 3) * 1 ≤ (i 0 : ℕ) ∧ (i 0 : ℕ) < win0_3.index t (0 : Fin 3) * 1 + 1
    rw [e0]; omega
  | ⟨1, _⟩ =>
    show win0_3.index t (1 : Fin 3) * 1 ≤ (i 1 : ℕ) ∧ (i 1 : ℕ) < win0_3.index t (1 : Fin 3) * 1 + 1
    rw [e1]; omega
  | ⟨2, _⟩ =>
    show win0_3.index t (2 : Fin 3) * 128 ≤ (i 2 : ℕ) ∧ (i 2 : ℕ) < win0_3.index t (2 : Fin 3) * 128 + 128
    rw [e2]; omega

/-- The count array after the whole grid. -/
private theorem final3 (c : Dev nD) : (dats m 0 c).arrAt 3 cfg0.N = G3 m c :=
  (dats m 0 c).arrAt_eq_of_cover 3 (G3 m c) (flushed3_eq m c) cover3

/-- Entry (b, 0, l) of the count array: over the four row blocks, class l's masked count (zero for l ≥ 19). -/
theorem arr3_apply (c : Dev nD) (b : Fin 16) (l : Fin 128) :
    ((dats m 0 c).arrAt 3 cfg0.N : SO.Idx → EReal) (ix3 b 0 l)
      = ∑ h : Fin 4, ∑ k : Fin 19, if l.val = k.val then
          ∑ r : Fin 128, ∑ q : Fin 512, mc (argT m c) (argM m c) k b (rowK h r) q else 0 :=
  congrFun (final3 m c) (ix3 b 0 l)

/-! ## The loss row -/

/-- A batch's first row block leaves the block's per-class loss sums in the loss row. -/
private theorem first4 (c : Dev nD) (n : ℕ) (hn : n < cfg0.N) (h0 : n % 4 = 0) (l : Fin 128) :
    (outsAt0 m c n hn).2.1 (ix3 0 0 l) = laneS (pblk m c ⟨n, hn⟩) (tblk m c ⟨n, hn⟩) (mblk m c ⟨n, hn⟩) l := by
  rw [outsAt0_A m c ⟨n, hn⟩ h0]
  dsimp only
  exact out_A_4_apply c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) ((hcond0_0 ⟨n, hn⟩).mpr h0) (pblk m c ⟨n, hn⟩) (tblk m c ⟨n, hn⟩) (mblk m c ⟨n, hn⟩) l

/-- A later row block adds its per-class loss sums to what the point before left. -/
private theorem next4 (c : Dev nD) (n : ℕ) (hn : n + 1 < cfg0.N) (h0 : ¬(n + 1) % 4 = 0) (l : Fin 128) :
    (outsAt0 m c (n + 1) hn).2.1 (ix3 0 0 l)
      = (outsAt0 m c n (Nat.lt_of_succ_lt hn)).2.1 (ix3 0 0 l) + laneS (pblk m c ⟨n + 1, hn⟩) (tblk m c ⟨n + 1, hn⟩) (mblk m c ⟨n + 1, hn⟩) l := by
  rw [outsAt0_B m c ⟨n + 1, hn⟩ h0]
  dsimp only
  exact out_B_4_apply c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (pblk m c ⟨n + 1, hn⟩) (tblk m c ⟨n + 1, hn⟩) (mblk m c ⟨n + 1, hn⟩)
    (outsAt0 m c n (Nat.lt_of_succ_lt hn)).1 (outsAt0 m c n (Nat.lt_of_succ_lt hn)).2.1 (outsAt0 m c n (Nat.lt_of_succ_lt hn)).2.2 l

/-- Lane `l` of image `b`'s loss row: over the four row blocks, class `l`'s masked negative log-likelihood sum. -/
private def R4 (c : Dev nD) (b : Fin 16) (l : Fin 128) : EReal :=
  ∑ h : Fin 4, ∑ k : Fin 19, if l.val = k.val then
    ∑ r : Fin 128, ∑ q : Fin 512, mc (argT m c) (argM m c) k b (rowK h r) q * nll (argP m c) b k (rowK h r) q else 0

/-- After a batch's fourth row block lane `l` of the loss row holds the sum of the four blocks' lane-`l` loss sums. -/
private theorem acc4 (c : Dev nD) (b : Fin 16) (l : Fin 128) (h3 : 4 * b.val + 1 + 1 + 1 < cfg0.N) :
    (outsAt0 m c (4 * b.val + 1 + 1 + 1) h3).2.1 (ix3 0 0 l) = R4 m c b l := by
  rw [next4 m c (4 * b.val + 1 + 1) h3 (by omega) l, next4 m c (4 * b.val + 1) (by omega) (by omega) l,
    next4 m c (4 * b.val) (by omega) (by omega) l, first4 m c (4 * b.val) (by omega) (by omega) l]
  rw [laneS_at m c ⟨4 * b.val, by omega⟩ b 0 rfl l, laneS_at m c ⟨4 * b.val + 1, by omega⟩ b 1 rfl l,
    laneS_at m c ⟨4 * b.val + 1 + 1, by omega⟩ b 2 rfl l, laneS_at m c ⟨4 * b.val + 1 + 1 + 1, h3⟩ b 3 rfl l]
  unfold R4
  rw [Fin.sum_univ_four]

/-- What the loss array ends holding: entry (b, 0, l) is lane `l` of image `b`'s loss row. -/
private abbrev G4 (c : Dev nD) : SO.Idx → EReal := fun i => R4 m c (i 0) (i 2)

/-- The write-back after a batch's fourth row block writes the block (b, 0, ·) of that array. -/
private theorem flushed4_eq (c : Dev nD) (t : Fin cfg0.N) (hf : (cfg0.win 4).flush t = true) :
    (dats m 0 c).flushed 4 t = ((cfg0.win 4).blk t).view.read (Elt Ideal) (G4 m c) := by
  have hN : cfg0.N = 64 := N_eq
  have ht := t.isLt
  have h3 : t.val % 4 = 3 := (flush0_4 t).mp hf
  obtain ⟨-, -, -, -, ⟨e0, e1, e2⟩, -⟩ := idx_facts t
  show (cfg0.win 4).cut (grid0.coords t) ((dats m 0 c).after 4 t) = _
  rw [after0_4]
  funext y
  obtain ⟨l, rfl⟩ := lane_idx y
  rw [View.read_apply]
  have hb : (((cfg0.win 4).blk t).view.emb (ix3 0 0 l) : SO.Idx) 0 = (⟨t.val / 4, by omega⟩ : Fin 16) :=
    Fin.ext (by show win0_4.index t (0 : Fin 3) * 1 + 1 * 0 = t.val / 4; rw [e0]; omega)
  have hl : (((cfg0.win 4).blk t).view.emb (ix3 0 0 l) : SO.Idx) 2 = l :=
    Fin.ext (by show win0_4.index t (2 : Fin 3) * 128 + 1 * l.val = l.val; rw [e2]; omega)
  have hn : t.val = 4 * (t.val / 4) + 1 + 1 + 1 := by omega
  show (outsAt0 m c t.val t.isLt).2.1 (ix3 0 0 l)
    = R4 m c ((((cfg0.win 4).blk t).view.emb (ix3 0 0 l) : SO.Idx) 0) ((((cfg0.win 4).blk t).view.emb (ix3 0 0 l) : SO.Idx) 2)
  rw [hb, hl, outsAt0_congr m c hn t.isLt (by omega)]
  exact acc4 m c ⟨t.val / 4, by omega⟩ l (by show 4 * (t.val / 4) + 1 + 1 + 1 < cfg0.N; omega)

/-- Every entry (b, 0, l) lies in the block written back after batch `b`'s fourth row block. -/
private theorem cover4 (i : SO.Idx) :
    ∃ t : Fin cfg0.N, (cfg0.win 4).flush t = true ∧ i ∈ ((cfg0.win 4).blk t).view.set := by
  have hN : cfg0.N = 64 := N_eq
  have h0 : (i 0 : ℕ) < 16 := (i 0).isLt
  have h1 : (i 1 : ℕ) < 1 := (i 1).isLt
  have h2 : (i 2 : ℕ) < 128 := (i 2).isLt
  obtain ⟨t, ht⟩ : ∃ t : Fin cfg0.N, t.val = 4 * (i 0).val + 3 := ⟨⟨4 * (i 0).val + 3, by omega⟩, rfl⟩
  obtain ⟨-, -, -, -, ⟨e0, e1, e2⟩, -⟩ := idx_facts t
  refine ⟨t, (flush0_4 t).mpr (by omega), ?_⟩
  show i ∈ ((View.whole main_v0_1).slice (win0_4.rect t)).set
  rw [View.set_slice_whole, Rect.mem_set_unit]
  intro a
  match a with
  | ⟨0, _⟩ =>
    show win0_4.index t (0 : Fin 3) * 1 ≤ (i 0 : ℕ) ∧ (i 0 : ℕ) < win0_4.index t (0 : Fin 3) * 1 + 1
    rw [e0]; omega
  | ⟨1, _⟩ =>
    show win0_4.index t (1 : Fin 3) * 1 ≤ (i 1 : ℕ) ∧ (i 1 : ℕ) < win0_4.index t (1 : Fin 3) * 1 + 1
    rw [e1]; omega
  | ⟨2, _⟩ =>
    show win0_4.index t (2 : Fin 3) * 128 ≤ (i 2 : ℕ) ∧ (i 2 : ℕ) < win0_4.index t (2 : Fin 3) * 128 + 128
    rw [e2]; omega

/-- The loss array after the whole grid. -/
private theorem final4 (c : Dev nD) : (dats m 0 c).arrAt 4 cfg0.N = G4 m c :=
  (dats m 0 c).arrAt_eq_of_cover 4 (G4 m c) (flushed4_eq m c) cover4

/-- Entry (b, 0, l) of the loss array: over the four row blocks, class l's masked negative log-likelihood sum. -/
theorem arr4_apply (c : Dev nD) (b : Fin 16) (l : Fin 128) :
    ((dats m 0 c).arrAt 4 cfg0.N : SO.Idx → EReal) (ix3 b 0 l)
      = ∑ h : Fin 4, ∑ k : Fin 19, if l.val = k.val then
          ∑ r : Fin 128, ∑ q : Fin 512, mc (argT m c) (argM m c) k b (rowK h r) q * nll (argP m c) b k (rowK h r) q else 0 :=
  congrFun (final4 m c) (ix3 b 0 l)

/-! ## The mass row -/

/-- A batch's first row block leaves the block's labelled mass in every lane of the mass row. -/
private theorem first5 (c : Dev nD) (n : ℕ) (hn : n < cfg0.N) (h0 : n % 4 = 0) (l : Fin 128) :
    (outsAt0 m c n hn).2.2 (ix3 0 0 l) = blkM (mblk m c ⟨n, hn⟩) := by
  rw [outsAt0_A m c ⟨n, hn⟩ h0]
  dsimp only
  exact out_A_5_apply c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) ((hcond0_0 ⟨n, hn⟩).mpr h0) (pblk m c ⟨n, hn⟩) (tblk m c ⟨n, hn⟩) (mblk m c ⟨n, hn⟩) l

/-- A later row block adds its labelled mass to what the point before left. -/
private theorem next5 (c : Dev nD) (n : ℕ) (hn : n + 1 < cfg0.N) (h0 : ¬(n + 1) % 4 = 0) (l : Fin 128) :
    (outsAt0 m c (n + 1) hn).2.2 (ix3 0 0 l)
      = (outsAt0 m c n (Nat.lt_of_succ_lt hn)).2.2 (ix3 0 0 l) + blkM (mblk m c ⟨n + 1, hn⟩) := by
  rw [outsAt0_B m c ⟨n + 1, hn⟩ h0]
  dsimp only
  exact out_B_5_apply c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (pblk m c ⟨n + 1, hn⟩) (tblk m c ⟨n + 1, hn⟩) (mblk m c ⟨n + 1, hn⟩)
    (outsAt0 m c n (Nat.lt_of_succ_lt hn)).1 (outsAt0 m c n (Nat.lt_of_succ_lt hn)).2.1 (outsAt0 m c n (Nat.lt_of_succ_lt hn)).2.2 l

/-- Image `b`'s labelled mass: the sum over its four row blocks. -/
private def R5 (c : Dev nD) (b : Fin 16) : EReal := ∑ h : Fin 4, ∑ r : Fin 128, ∑ q : Fin 512, mk (argM m c) b (rowK h r) q

/-- After a batch's fourth row block every lane of the mass row holds the image's labelled mass. -/
private theorem acc5 (c : Dev nD) (b : Fin 16) (l : Fin 128) (h3 : 4 * b.val + 1 + 1 + 1 < cfg0.N) :
    (outsAt0 m c (4 * b.val + 1 + 1 + 1) h3).2.2 (ix3 0 0 l) = R5 m c b := by
  rw [next5 m c (4 * b.val + 1 + 1) h3 (by omega) l, next5 m c (4 * b.val + 1) (by omega) (by omega) l,
    next5 m c (4 * b.val) (by omega) (by omega) l, first5 m c (4 * b.val) (by omega) (by omega) l]
  rw [blkM_at m c ⟨4 * b.val, by omega⟩ b 0 rfl, blkM_at m c ⟨4 * b.val + 1, by omega⟩ b 1 rfl,
    blkM_at m c ⟨4 * b.val + 1 + 1, by omega⟩ b 2 rfl, blkM_at m c ⟨4 * b.val + 1 + 1 + 1, h3⟩ b 3 rfl]
  unfold R5
  rw [Fin.sum_univ_four]

/-- What the mass array ends holding: image `b`'s labelled mass at every entry (b, 0, l). -/
private abbrev G5 (c : Dev nD) : SO.Idx → EReal := fun i => R5 m c (i 0)

/-- The write-back after a batch's fourth row block writes the block (b, 0, ·) of that array. -/
private theorem flushed5_eq (c : Dev nD) (t : Fin cfg0.N) (hf : (cfg0.win 5).flush t = true) :
    (dats m 0 c).flushed 5 t = ((cfg0.win 5).blk t).view.read (Elt Ideal) (G5 m c) := by
  have hN : cfg0.N = 64 := N_eq
  have ht := t.isLt
  have h3 : t.val % 4 = 3 := (flush0_5 t).mp hf
  obtain ⟨-, -, -, -, -, ⟨e0, e1, e2⟩⟩ := idx_facts t
  show (cfg0.win 5).cut (grid0.coords t) ((dats m 0 c).after 5 t) = _
  rw [after0_5]
  funext y
  obtain ⟨l, rfl⟩ := lane_idx y
  rw [View.read_apply]
  have hb : (((cfg0.win 5).blk t).view.emb (ix3 0 0 l) : SO.Idx) 0 = (⟨t.val / 4, by omega⟩ : Fin 16) :=
    Fin.ext (by show win0_5.index t (0 : Fin 3) * 1 + 1 * 0 = t.val / 4; rw [e0]; omega)
  have hn : t.val = 4 * (t.val / 4) + 1 + 1 + 1 := by omega
  show (outsAt0 m c t.val t.isLt).2.2 (ix3 0 0 l) = R5 m c ((((cfg0.win 5).blk t).view.emb (ix3 0 0 l) : SO.Idx) 0)
  rw [hb, outsAt0_congr m c hn t.isLt (by omega)]
  exact acc5 m c ⟨t.val / 4, by omega⟩ l (by show 4 * (t.val / 4) + 1 + 1 + 1 < cfg0.N; omega)

/-- Every entry (b, 0, l) lies in the block written back after batch `b`'s fourth row block. -/
private theorem cover5 (i : SO.Idx) :
    ∃ t : Fin cfg0.N, (cfg0.win 5).flush t = true ∧ i ∈ ((cfg0.win 5).blk t).view.set := by
  have hN : cfg0.N = 64 := N_eq
  have h0 : (i 0 : ℕ) < 16 := (i 0).isLt
  have h1 : (i 1 : ℕ) < 1 := (i 1).isLt
  have h2 : (i 2 : ℕ) < 128 := (i 2).isLt
  obtain ⟨t, ht⟩ : ∃ t : Fin cfg0.N, t.val = 4 * (i 0).val + 3 := ⟨⟨4 * (i 0).val + 3, by omega⟩, rfl⟩
  obtain ⟨-, -, -, -, -, ⟨e0, e1, e2⟩⟩ := idx_facts t
  refine ⟨t, (flush0_5 t).mpr (by omega), ?_⟩
  show i ∈ ((View.whole main_v0_2).slice (win0_5.rect t)).set
  rw [View.set_slice_whole, Rect.mem_set_unit]
  intro a
  match a with
  | ⟨0, _⟩ =>
    show win0_5.index t (0 : Fin 3) * 1 ≤ (i 0 : ℕ) ∧ (i 0 : ℕ) < win0_5.index t (0 : Fin 3) * 1 + 1
    rw [e0]; omega
  | ⟨1, _⟩ =>
    show win0_5.index t (1 : Fin 3) * 1 ≤ (i 1 : ℕ) ∧ (i 1 : ℕ) < win0_5.index t (1 : Fin 3) * 1 + 1
    rw [e1]; omega
  | ⟨2, _⟩ =>
    show win0_5.index t (2 : Fin 3) * 128 ≤ (i 2 : ℕ) ∧ (i 2 : ℕ) < win0_5.index t (2 : Fin 3) * 128 + 128
    rw [e2]; omega

/-- The mass array after the whole grid. -/
private theorem final5 (c : Dev nD) : (dats m 0 c).arrAt 5 cfg0.N = G5 m c :=
  (dats m 0 c).arrAt_eq_of_cover 5 (G5 m c) (flushed5_eq m c) cover5

/-- Entry (b, 0, l) of the mass array: image b's labelled mass, in every lane. -/
theorem arr5_apply (c : Dev nD) (b : Fin 16) (l : Fin 128) :
    ((dats m 0 c).arrAt 5 cfg0.N : SO.Idx → EReal) (ix3 b 0 l)
      = ∑ h : Fin 4, ∑ r : Fin 128, ∑ q : Fin 512, mk (argM m c) b (rowK h r) q :=
  congrFun (final5 m c) (ix3 b 0 l)

end Cert.KernelIdeal.KV

end
-- ==== Proof.KTail.lean ====
/-
  The host operations after the kernel's region, as one function of the three result arrays: the first 19 lanes of
  the count and loss arrays summed over the batch, lane 0 of the mass array summed over the batch, then the class
  weights and the final normalisation. The program's run ends with its result at that function of the arrays; and the
  function read at the extended reals is the final formula over per-class and per-batch sums.
-/
import proofs.«403436_j66709432042305_3_alg».proof.Proof.Spec
import proofs.«403436_j66709432042305_3_alg».proof.Proof.Gen.KernelIdeal.Frame
import Idealize.ShloMosaic.Lib.Pipeline.Value
import Idealize.ShloMosaic.Lib.StableHlo.Run
import Idealize.ShloMosaic.PureOps.Ideal.Laws
import Idealize.ShloMosaic.Lib.IdealHost
import Idealize.ShloMosaic.Lib.ValueIdxRank1

noncomputable section

open scoped BigOperators
open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen Cert.WCE

/-- The host tail of @main as a function of the three arrays the region leaves. -/
def tailFn {F : FTy → Type} [FloatOps F] (A3 A4 A5 : FVec F S16x1x128 .f32) : FVec F S_ .f32 :=
  let cnt : FVec F S19 .f32 := Host.reduceAdd (shapeCast S16x19 (extractStridedSlice S16x1x19 ![0, 0, 0] A3 slices_S16x1x128_S16x1x19_0_0_0) shapeCasts_S16x1x19_S16x19) (constant S_ .f32 0x00000000#32) reducesTo_S16x19_S19_d0 h_S_
  let s : FVec F S19 .f32 := Host.reduceAdd (shapeCast S16x19 (extractStridedSlice S16x1x19 ![0, 0, 0] A4 slices_S16x1x128_S16x1x19_0_0_0) shapeCasts_S16x1x19_S16x19) (constant S_ .f32 0x00000000#32) reducesTo_S16x19_S19_d0 h_S_
  let num : FVec F S_ .f32 := Host.reduceAdd (shapeCast S16 (extractStridedSlice S16x1x1 ![0, 0, 0] A5 slices_S16x1x128_S16x1x1_0_0_0) shapeCasts_S16x1x1_S16) (constant S_ .f32 0x00000000#32) reducesTo_S16_S_d0 h_S_
  let tot : FVec F S_ .f32 := Host.reduceAdd cnt (constant S_ .f32 0x00000000#32) reducesTo_S19_S_d0 h_S_
  let w1 : FVec F S19 .f32 := Host.divf (broadcastInDim S19 ![] bcast_S_S19 tot) (addf cnt (broadcastInDim S19 ![] bcast_S_S19 (constant S_ .f32 0x358637BD#32)))
  let wsum : FVec F S_ .f32 := Host.reduceAdd w1 (constant S_ .f32 0x00000000#32) reducesTo_S19_S_d0 h_S_
  let w2 : FVec F S19 .f32 := mulf (Host.divf w1 (broadcastInDim S19 ![] bcast_S_S19 wsum)) (broadcastInDim S19 ![] bcast_S_S19 (constant S_ .f32 0x41980000#32))
  let cw : FVec F S19 .f32 := select (broadcastInDim S19 ![] bcast_S_S19 (cmpf (F := F) .ogt tot (constant S_ .f32 0x00000000#32))) w2 (broadcastInDim S19 ![] bcast_S_S19 (constant S_ .f32 0x3F800000#32))
  let L : FVec F S_ .f32 := Host.reduceAdd (mulf cw s) (constant S_ .f32 0x00000000#32) reducesTo_S19_S_d0 h_S_
  select (cmpf (F := F) .ogt num (constant S_ .f32 0x00000000#32)) (Host.divf L num) L

section
variable {F : FTy → Type} [FloatOps F] (m : (ℓ : Loc nD τ sig) → Buf (Elt F) ℓ) (ρ : Dev nD → PrngReg)

/-- The buffer contents after the four host stretches, read at the result, are the host tail of the three arrays. -/
private theorem tail_eq (c : Dev nD) :
    Pipeline.afterTail₀ cfgs (dats m) 0 (V0 m) [hostOps1, hostOps1_1, hostOps1_2, hostOps1_3] c main_v27
      = tailFn ((dats m 0 c).arrAt 3 cfg0.N) ((dats m 0 c).arrAt 4 cfg0.N) ((dats m 0 c).arrAt 5 cfg0.N) := by
  unfold Pipeline.afterTail₀
  have e3 : Pipeline.withArrays (cfgs 0).spec c (V0 m c) (fun w => (dats m 0 c).arrAt w (cfgs 0).N) (Proc.devRef .tc main_v0_0)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_v0_1)
      = (dats m 0 c).arrAt 4 cfg0.N := Pipeline.withArrays_arr spec0 launch0.win.arr_inj c _ _ 4
  have e5 : Pipeline.withArrays (cfgs 0).spec c (V0 m c) (fun w => (dats m 0 c).arrAt w (cfgs 0).N) (Proc.devRef .tc main_v0_2)
      = (dats m 0 c).arrAt 5 cfg0.N := Pipeline.withArrays_arr spec0 launch0.win.arr_inj c _ _ 5
  simp only [List.flatten_cons, List.flatten_nil, List.append_nil, List.cons_append, List.nil_append]
  after_results_simp
  rw [e3, e4, e5]
  generalize (dats m 0 c).arrAt 3 cfg0.N = A3
  generalize (dats m 0 c).arrAt 4 cfg0.N = A4
  generalize (dats m 0 c).arrAt 5 cfg0.N = A5
  simp only [StableHlo.TRef.ofBuf, StableHlo.TRef.toBuf, cast_eq]
  rfl
end

/-- Every weakly fair execution of the kernel's program terminates with its result at the host tail of the three
    arrays the region leaves, and the arguments unchanged. -/
theorem run_tail {F : FTy → Type} [FloatOps F] (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v27)
          = tailFn ((dats m 0 c).arrAt 3 cfg0.N) ((dats m 0 c).arrAt 4 cfg0.N) ((dats m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v27 (Pipeline.mem_restRefs_of main_v27 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

/-! ## The host tail read at the extended reals -/

/-- A select on a decided proposition's bit is the `if`. -/
private theorem select_ofBool (p : Prop) [Decidable p] {α : Type} (a b : α) :
    Scalar.select (BitVec.ofBool (decide p)) a b = if p then a else b := by
  unfold Scalar.select
  by_cases h : p
  · simp [h]
  · simp [h]

/-- The ordered greater-than of two extended reals, as a bit. -/
private theorem cmpf_ogt (x y : EReal) :
    FloatOps.cmpf (F := Ideal) (φ := .f32) .ogt x y = BitVec.ofBool (decide (y < x)) := rfl

/-- A scalar broadcast to any shape reads the scalar at every index. -/
private theorem bcast_scalar_apply {T : Shape} {α : Type} (dims : Fin 0 → Fin T.rank) (h : S_.BroadcastsInDim T dims)
    (x : S_.Idx → α) (j : T.Idx) : broadcastInDim T dims h x j = x ix0 := by
  unfold broadcastInDim; exact congrArg x (funext fun a => a.elim0)

/-- A vector summed into a scalar from zero is the sum of its entries. -/
private theorem sumAll_apply {n : Nat} (x : (⟨1, ![n]⟩ : Shape).Idx → EReal) (hr : (⟨1, ![n]⟩ : Shape).ReducesTo [0] S_)
    (hu : 0 < S_.numel) :
    Host.reduceAdd (F := Ideal) x (constant (F := Ideal) S_ .f32 0x00000000#32) hr hu ix0 = ∑ k : Fin n, x (ix1 k) := by
  refine (hostReduceAdd_apply _ _ hr hu ix0).trans ?_
  refine (Ideal.hostReduceAdd_total hr (fun b => b.elim0) _ _ ix0).trans ?_
  rw [constant_apply, Ideal.ofBits_zero_f32, zero_add]
  exact (Equiv.sum_comp (idxEquiv1 (n := n)).symm x).symm

/-- The first 19 lanes of an array's one row per batch, summed over the batch: class `k`'s sum of lane `k`. -/
private theorem lanes_apply (A : SO.Idx → EReal) (hs : S16x1x128.Slices ![0, 0, 0] S16x1x19) (hc : S16x1x19.ShapeCasts S16x19)
    (hr : S16x19.ReducesTo [0] S19) (hu : 0 < S_.numel) (k : Fin 19) :
    Host.reduceAdd (F := Ideal) (shapeCast S16x19 (extractStridedSlice S16x1x19 ![0, 0, 0] A hs) hc)
        (constant (F := Ideal) S_ .f32 0x00000000#32) hr hu (ix1 k)
      = ∑ b : Fin 16, A (ix3 b 0 (lane k)) := by
  have hR : S16x19.Reduces [0] S19 := by decide
  refine (hostReduceAdd_apply _ _ hr hu (ix1 k)).trans ?_
  refine (Ideal.hostReduceAdd_single hr hR _ _ (ix1 k)).trans ?_
  rw [constant_apply, Ideal.ofBits_zero_f32, zero_add]
  refine Finset.sum_congr rfl fun b _ => ?_
  refine (shapeCast_apply _ hc _ (ix3 b 0 k) ?_).trans ?_
  · rw [Shape.rowMajor_val_three, Shape.rowMajor_val_two]
    show (b.val * 1 + 0) * 19 + k.val = b.val * 19 + k.val
    omega
  · exact extractStridedSlice_apply ![0, 0, 0] A hs (ix3 b 0 k) (ix3 b 0 (lane k)) fun a =>
      match a with
      | ⟨0, _⟩ => by show b.val = 0 + b.val; omega
      | ⟨1, _⟩ => by show 0 = 0 + 0; omega
      | ⟨2, _⟩ => by show k.val = 0 + k.val; omega

/-- Lane 0 of an array's one row per batch, summed over the batch. -/
private theorem lane0_apply (A : SO.Idx → EReal) (hs : S16x1x128.Slices ![0, 0, 0] S16x1x1) (hc : S16x1x1.ShapeCasts S16)
    (hr : S16.ReducesTo [0] S_) (hu : 0 < S_.numel) :
    Host.reduceAdd (F := Ideal) (shapeCast S16 (extractStridedSlice S16x1x1 ![0, 0, 0] A hs) hc)
        (constant (F := Ideal) S_ .f32 0x00000000#32) hr hu ix0
      = ∑ b : Fin 16, A (ix3 b 0 0) := by
  refine (sumAll_apply _ hr hu).trans ?_
  refine Finset.sum_congr rfl fun b _ => ?_
  refine (shapeCast_apply _ hc _ (ix3 b 0 0) ?_).trans ?_
  · rw [Shape.rowMajor_val_three, Shape.rowMajor_val_one]
    show (b.val * 1 + 0) * 1 + 0 = b.val
    omega
  · exact extractStridedSlice_apply ![0, 0, 0] A hs (ix3 b 0 0) (ix3 b 0 0) fun a =>
      match a with
      | ⟨0, _⟩ => by show b.val = 0 + b.val; omega
      | ⟨1, _⟩ => by show 0 = 0 + 0; omega
      | ⟨2, _⟩ => by show 0 = 0 + 0; omega

/-- The host tail after the three batch sums, as a function of the count and loss vectors and the mass scalar. -/
private def tailCore {F : FTy → Type} [FloatOps F] (cnt s : FVec F S19 .f32) (num : FVec F S_ .f32) : FVec F S_ .f32 :=
  let tot : FVec F S_ .f32 := Host.reduceAdd cnt (constant S_ .f32 0x00000000#32) reducesTo_S19_S_d0 h_S_
  let w1 : FVec F S19 .f32 := Host.divf (broadcastInDim S19 ![] bcast_S_S19 tot) (addf cnt (broadcastInDim S19 ![] bcast_S_S19 (constant S_ .f32 0x358637BD#32)))
  let wsum : FVec F S_ .f32 := Host.reduceAdd w1 (constant S_ .f32 0x00000000#32) reducesTo_S19_S_d0 h_S_
  let w2 : FVec F S19 .f32 := mulf (Host.divf w1 (broadcastInDim S19 ![] bcast_S_S19 wsum)) (broadcastInDim S19 ![] bcast_S_S19 (constant S_ .f32 0x41980000#32))
  let cw : FVec F S19 .f32 := select (broadcastInDim S19 ![] bcast_S_S19 (cmpf (F := F) .ogt tot (constant S_ .f32 0x00000000#32))) w2 (broadcastInDim S19 ![] bcast_S_S19 (constant S_ .f32 0x3F800000#32))
  let L : FVec F S_ .f32 := Host.reduceAdd (mulf cw s) (constant S_ .f32 0x00000000#32) reducesTo_S19_S_d0 h_S_
  select (cmpf (F := F) .ogt num (constant S_ .f32 0x00000000#32)) (Host.divf L num) L

/-- The weights and the final normalisation at the extended reals, over any count and loss vectors and mass. -/
private theorem tailCore_apply (cnt s : S19.Idx → EReal) (num : S_.Idx → EReal) (c' s' : Fin 19 → EReal) (n' : EReal)
    (hc : ∀ k, cnt (ix1 k) = c' k) (hs : ∀ k, s (ix1 k) = s' k) (hn : num ix0 = n') :
    tailCore (F := Ideal) cnt s num ix0 = finOf (∑ k : Fin 19, cwOf c' k * s' k) n' := by
  obtain rfl : (fun k => cnt (ix1 k)) = c' := funext hc
  obtain rfl : (fun k => s (ix1 k)) = s' := funext hs
  subst hn
  unfold tailCore finOf cwOf eps nineteen one
  simp only [select_apply, cmpf_apply, hostDivf_apply, mulf_apply, addf_apply, constant_apply, bcast_scalar_apply,
    sumAll_apply, Ideal.ofBits_zero_f32, cmpf_ogt, select_ofBool]

/-- The host tail at the extended reals: the final normalisation of the weighted per-class loss, the weights from the
    per-class counts, each a sum over the batch of the class's lane. -/
theorem tailFn_apply (A3 A4 A5 : SO.Idx → EReal) :
    tailFn (F := Ideal) A3 A4 A5 ix0
      = finOf (∑ k : Fin 19, cwOf (fun j => ∑ b : Fin 16, A3 (ix3 b 0 (lane j))) k * ∑ b : Fin 16, A4 (ix3 b 0 (lane k)))
          (∑ b : Fin 16, A5 (ix3 b 0 0)) :=
  (congrFun (show tailFn (F := Ideal) A3 A4 A5 = tailCore (F := Ideal)
      (Host.reduceAdd (shapeCast S16x19 (extractStridedSlice S16x1x19 ![0, 0, 0] A3 slices_S16x1x128_S16x1x19_0_0_0) shapeCasts_S16x1x19_S16x19) (constant S_ .f32 0x00000000#32) reducesTo_S16x19_S19_d0 h_S_)
      (Host.reduceAdd (shapeCast S16x19 (extractStridedSlice S16x1x19 ![0, 0, 0] A4 slices_S16x1x128_S16x1x19_0_0_0) shapeCasts_S16x1x19_S16x19) (constant S_ .f32 0x00000000#32) reducesTo_S16x19_S19_d0 h_S_)
      (Host.reduceAdd (shapeCast S16 (extractStridedSlice S16x1x1 ![0, 0, 0] A5 slices_S16x1x128_S16x1x1_0_0_0) shapeCasts_S16x1x1_S16) (constant S_ .f32 0x00000000#32) reducesTo_S16_S_d0 h_S_) from rfl) ix0).trans
    (tailCore_apply _ _ _ _ _ _ (lanes_apply A3 _ _ _ _) (lanes_apply A4 _ _ _ _) (lane0_apply A5 _ _ _ _))

end Cert.KernelIdeal.KV

end
-- ==== Proof.KFinal.lean ====
/-
  The kernel's result as mathematics: the host tail of the three arrays the region leaves is the per-class form of the
  loss. Lane k of the count and loss arrays holds, per batch, the sum over the four row blocks of class k's block sums
  (the other classes' terms are zero in that lane); summed over the batch these are the block-by-block pixel sums.
-/
import proofs.«403436_j66709432042305_3_alg».proof.Proof.Spec
import proofs.«403436_j66709432042305_3_alg».proof.Proof.KAcc
import proofs.«403436_j66709432042305_3_alg».proof.Proof.KTail

noncomputable section

open scoped BigOperators
open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen Cert.WCE

variable (m : (ℓ : Loc nD τ sig) → Buf (Elt Ideal) ℓ)

/-- In lane k only class k's term is present. -/
theorem sum_lane (k : Fin 19) (g : Fin 19 → EReal) :
    (∑ j : Fin 19, if (lane k).val = j.val then g j else 0) = g k := by
  rw [Finset.sum_eq_single k]
  · simp [lane]
  · intro j _ hj
    rw [if_neg]
    intro h
    exact hj (Fin.ext (by simpa [lane] using h.symm))
  · intro h
    exact absurd (Finset.mem_univ k) h

/-- The host tail of the three arrays is the per-class form of the loss. -/
theorem kernel_value (c : Dev nD) :
    tailFn (F := Ideal) ((dats m 0 c).arrAt 3 cfg0.N) ((dats m 0 c).arrAt 4 cfg0.N) ((dats m 0 c).arrAt 5 cfg0.N)
      = fun _ => resK (argP m c) (argT m c) (argM m c) := by
  funext j
  rw [eq_ix0 j]
  rw [tailFn_apply]
  unfold resK sumK
  simp only [arr3_apply, arr4_apply, arr5_apply, sum_lane, mk]

end Cert.KernelIdeal.KV

end
-- ==== Proof.RefCounts.lean ====
/-
  The reference's masked label counts read at the extended reals. The accumulating scatter starts from 19 zeros and
  adds each flattened pixel's mask entry into the bin its label names; so bin k ends at the sum, over the pixels
  labelled k, of the mask: the flattened pixel sum of the mask restricted to label k.
-/
import proofs.«403436_j66709432042305_3_alg».proof.Proof.Spec
import proofs.«403436_j66709432042305_3_alg».proof.Proof.RefRead
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RefV

open Cert.ReferenceIdeal Cert.ReferenceIdeal.Gen Cert.WCE

/-! ## A binning scatter's result index -/

/-- The dimension numbers of a binning scatter: operand `[K]`, scatter indices `[N, 1]`, updates `[N]`; update `n`
    goes to the bin its one-component index vector names. -/
private abbrev binDims (K N : Nat) (wf : ScatterDims.WF ⟨1, ![K]⟩ ⟨2, ![N, 1]⟩ ⟨1, ![N]⟩ [] [0] [0] 1) :
    ScatterDims ⟨1, ![K]⟩ ⟨2, ![N, 1]⟩ ⟨1, ![N]⟩ where
  updateWindowDims := []
  insertedWindowDims := [0]
  scatterDimsToOperandDims := [0]
  indexVectorDim := 1
  wf := wf

/-- The window of update `n` starts at the index word `idx[n, 0]`, read signed. -/
private theorem binDims_start {K N w : Nat} (wf : ScatterDims.WF ⟨1, ![K]⟩ ⟨2, ![N, 1]⟩ ⟨1, ![N]⟩ [] [0] [0] 1)
    (n : Fin N) (idx : IVec ⟨2, ![N, 1]⟩ w) :
    (binDims K N wf).start (ix1 n) idx 0 = (idx (ix2 n 0)).toInt := by
  unfold ScatterDims.start
  rw [dif_pos (show (0 : Fin 1) ∈ (binDims K N wf).scatterDimsToOperandDims from List.mem_singleton.mpr rfl)]
  have hsi : (binDims K N wf).siIdx (ix1 n) ⟨List.idxOf (0 : Fin 1) (binDims K N wf).scatterDimsToOperandDims,
      List.idxOf_lt_length_iff.2 (List.mem_singleton.mpr rfl)⟩ = ix2 n 0 := by
    funext b; refine Fin.ext ?_
    match b with
    | ⟨0, _⟩ => rfl
    | ⟨1, _⟩ => rfl
  rw [hsi]

/-- The operand's one axis is inserted: the window coordinate is zero. -/
private theorem binDims_window {K N : Nat} (wf : ScatterDims.WF ⟨1, ![K]⟩ ⟨2, ![N, 1]⟩ ⟨1, ![N]⟩ [] [0] [0] 1)
    (n : Fin N) : (binDims K N wf).window (ix1 n) 0 = 0 := by
  unfold ScatterDims.window
  rw [dif_neg]
  simp [ScatterDims.sKept, Shape.kept, List.mem_filter, List.mem_finRange]

/-- Update `n` lands on bin `i` exactly when its index word, read signed, is `i`. -/
private theorem binDims_resultIdx?_iff {K N w : Nat} (wf : ScatterDims.WF ⟨1, ![K]⟩ ⟨2, ![N, 1]⟩ ⟨1, ![N]⟩ [] [0] [0] 1)
    (n : Fin N) (idx : IVec ⟨2, ![N, 1]⟩ w) (i : Fin K) :
    (binDims K N wf).resultIdx? (ix1 n) idx = some (ix1 i) ↔ (idx (ix2 n 0)).toInt = (i.val : Int) := by
  have hs := binDims_start wf n idx
  have hw := binDims_window wf n
  have hK : (⟨1, ![K]⟩ : Shape).size 0 = K := rfl
  unfold ScatterDims.resultIdx?
  constructor
  · intro he
    split at he
    · rename_i h
      have h0 := h 0
      have e1 := congrArg Fin.val (congrFun (Option.some.inj he) 0)
      simp only [hs, hw] at h0 e1
      change ((idx (ix2 n 0)).toInt + ((0 : Nat) : Int)).toNat = i.val at e1
      omega
    · exact absurd he (by simp)
  · intro ht
    have h : ∀ a : Fin 1, 0 ≤ (binDims K N wf).start (ix1 n) idx a + ((binDims K N wf).window (ix1 n) a : Int) ∧
        (binDims K N wf).start (ix1 n) idx a + ((binDims K N wf).window (ix1 n) a : Int) < ((⟨1, ![K]⟩ : Shape).size a : Int) := by
      intro a
      obtain rfl : a = 0 := Subsingleton.elim _ _
      rw [hs, hw, hK]
      have := i.isLt
      omega
    rw [dif_pos h]
    congr 1
    funext a
    obtain rfl : a = 0 := Subsingleton.elim _ _
    refine Fin.ext ?_
    show ((binDims K N wf).start (ix1 n) idx 0 + ((binDims K N wf).window (ix1 n) 0 : Int)).toNat = i.val
    rw [hs, hw]
    omega

/-- A rank-1 index is its one coordinate. -/
private def idxEquiv1 (n : Nat) : (⟨1, ![n]⟩ : Shape).Idx ≃ Fin n where
  toFun j := j 0
  invFun a := ix1 a
  left_inv j := (eq_ix1 j).symm
  right_inv a := rfl

/-- A label word below 19, read signed, is the class `k` exactly when it is the word of `k`. -/
private theorem label_iff (w : BitVec 32) (hw : w.toNat < 19) (k : Fin 19) :
    w.toInt = (k.val : Int) ↔ w = BitVec.ofNat 32 k.val := by
  have hk := k.isLt
  rw [BitVec.toInt_eq_toNat_of_lt (by omega)]
  constructor
  · intro h
    apply BitVec.eq_of_toNat_eq
    rw [BitVec.toNat_ofNat, Nat.mod_eq_of_lt (by omega)]
    exact_mod_cast h
  · intro h
    rw [h, BitVec.toNat_ofNat, Nat.mod_eq_of_lt (by omega)]

/-- A sum over a rank-1 index set is the sum over its one coordinate. -/
private theorem sum_idx1 {M : Type*} [AddCommMonoid M] {n : Nat} (f : (⟨1, ![n]⟩ : Shape).Idx → M) :
    ∑ j, f j = ∑ a : Fin n, f (ix1 a) := by
  refine Fintype.sum_equiv (idxEquiv1 n) _ _ (fun j => ?_)
  obtain ⟨a, rfl⟩ : ∃ a, j = ix1 a := ⟨j 0, eq_ix1 j⟩
  rfl

/-- THE BINNING SCATTER READ AT BIN `i`, at the extended reals: the operand's entry plus the sum of the updates whose
    index word, read signed, is `i` (an index word outside `[0, K)` names no bin: its update is dropped). -/
private theorem binScatter_apply {K N w : Nat} {φ : FTy} (wf : ScatterDims.WF ⟨1, ![K]⟩ ⟨2, ![N, 1]⟩ ⟨1, ![N]⟩ [] [0] [0] 1)
    (x : FVec Ideal ⟨1, ![K]⟩ φ) (idx : IVec ⟨2, ![N, 1]⟩ w) (upd : FVec Ideal ⟨1, ![N]⟩ φ) (i : Fin K) :
    Host.scatterAdd (F := Ideal) (binDims K N wf) x idx upd (ix1 i)
      = x (ix1 i) + ∑ n : Fin N, if (idx (ix2 n 0)).toInt = (i.val : Int) then upd (ix1 n) else 0 := by
  show Ideal.hostScatterAdd (binDims K N wf) x idx upd (ix1 i) = _
  unfold Ideal.hostScatterAdd
  rw [Finset.sum_filter, sum_idx1]
  refine congrArg (x (ix1 i) + ·) ?_
  exact Finset.sum_congr rfl (fun n _ => if_congr (binDims_resultIdx?_iff wf n idx i) rfl rfl)

/-- The flattened pixel `n` as the labels' and the mask's index: its batch, row and column. -/
private theorem idx_labels (n : Fin 4194304) :
    ReadP.idx_main_v0 (ReadP.idx_main_v3 (ix2 n 0)) = ix3 (nb n) (nr n) (nq n) := by
  funext a; refine Fin.ext ?_
  match a with
  | ⟨0, _⟩ => rfl
  | ⟨1, _⟩ => rfl
  | ⟨2, _⟩ => rfl

private theorem idx_mask (n : Fin 4194304) : ReadP.idx_main_v1 (ix1 n) = ix3 (nb n) (nr n) (nq n) := by
  funext a; refine Fin.ext ?_
  match a with
  | ⟨0, _⟩ => rfl
  | ⟨1, _⟩ => rfl
  | ⟨2, _⟩ => rfl

/-- The scatter's operand is zero in every bin. -/
private theorem zeros_apply (k : Fin 19) : ReadP.val_main_v2 (F := Ideal) (ix1 k) = 0 := by
  rw [ReadP.val_main_v2_apply, ReadP.val_main_cst_apply, Ideal.ofBits_def, Ideal.ofBits_zero_f32]

/-- Pixel `n`'s term of bin `k`: its mask entry when its label word is `k`'s, zero otherwise. -/
private theorem term_apply (x1 : ST.Idx → BitVec 32) (x2 : ST.Idx → EReal) (hT : ∀ i, (x1 i).toNat < 19) (k : Fin 19)
    (n : Fin 4194304) :
    (if (ReadP.val_main_v3 (F := Ideal) x1 (ix2 n 0)).toInt = (k.val : Int)
      then ReadP.val_main_v1 (F := Ideal) x2 (ix1 n) else 0) = mc x1 x2 k (nb n) (nr n) (nq n) := by
  unfold mc
  rw [ReadP.val_main_v1_apply, idx_mask, ReadP.val_main_v3_apply, ReadP.val_main_v0_apply, idx_labels]
  exact if_congr (label_iff _ (hT _) k) rfl rfl

/-- Bin `k` of the scattered counts is the mask summed over the pixels labelled `k`. -/
theorem counts_apply (x1 : ST.Idx → BitVec 32) (x2 : ST.Idx → EReal) (hT : ∀ i, (x1 i).toNat < 19) (k : Fin 19) :
    Cert.ReferenceIdeal.ReadP.val_main_v4 (F := Ideal) x1 x2 (ix1 k) = sumR (mc x1 x2 k) := by
  have hrec : scatter_S19_S4194304x1_S4194304_n_0_0_1
      = binDims 19 4194304 Facts₀.scatter_S19_S4194304x1_S4194304_n_0_0_1_wf := rfl
  unfold ReadP.val_main_v4 sumR
  rewrite [hrec]
  refine (binScatter_apply (φ := .f32) Facts₀.scatter_S19_S4194304x1_S4194304_n_0_0_1_wf
    (ReadP.val_main_v2 (F := Ideal)) (ReadP.val_main_v3 (F := Ideal) x1) (ReadP.val_main_v1 (F := Ideal) x2) k).trans ?_
  rewrite [zeros_apply, zero_add]
  exact Finset.sum_congr rfl (fun n _ => term_apply x1 x2 hT k n)

end Cert.ReferenceIdeal.RefV

end
-- ==== Proof.RefLogProb.lean ====
/-
  The reference's log-probabilities read at the extended reals. Row n of the [4194304, 19] logits is pixel
  (b, r, q) = (n / 262144, n / 512 % 512, n % 512) of the predictions with the class axis moved last. The row's
  largest logit is the fold of max from −∞ (taking the maximum with −∞ once more changes nothing); the entry for
  class c is the shifted logit less the log of the sum of the exponentials of the row's shifted logits.
-/
import proofs.«403436_j66709432042305_3_alg».proof.Proof.Spec
import proofs.«403436_j66709432042305_3_alg».proof.Proof.RefRead
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RefV

open Cert.ReferenceIdeal Cert.ReferenceIdeal.Gen Cert.WCE

/-! ## A maximum over the rows of a matrix -/

/-- The reduced row index `n` with column `c` put back on the dropped axis is (n, c). -/
private theorem lift_ix2 {m k : Nat} (h : (⟨2, ![m, k]⟩ : Shape).Reduces [1] (⟨1, ![m]⟩ : Shape)) (n : Fin m)
    (c : Fin ((⟨2, ![m, k]⟩ : Shape).size 1)) : h.lift (ix1 n) c = ix2 n (⟨c.val, c.isLt⟩ : Fin k) := by
  funext a; apply Fin.ext
  fin_cases a <;> rfl

/-- A reduction by the maximum over the second axis of a matrix is, at row `n`, the fold of max from the initial
    value over that row's entries. -/
private theorem rowMax_fold {m k : Nat} (y : FVec Ideal ⟨2, ![m, k]⟩ .f32) (init : FVec Ideal ⟨0, ![]⟩ .f32)
    (h' : (⟨2, ![m, k]⟩ : Shape).ReducesTo [1] (⟨1, ![m]⟩ : Shape))
    (h : (⟨2, ![m, k]⟩ : Shape).Reduces [1] (⟨1, ![m]⟩ : Shape)) (hu : 0 < (⟨0, ![]⟩ : Shape).numel) (n : Fin m) :
    Host.reduce FloatOps.maximumf y init h' hu (ix1 n)
      = (Finset.univ : Finset (Fin k)).fold max (init (Shape.Idx.first hu)) (fun c => y (ix2 n c)) := by
  rw [Host.reduce_eq_fold_single FloatOps.maximumf y _ h' h hu]
  have hf : (y ∘ h.lift (ix1 n)) = fun c : Fin k => y (ix2 n c) := funext fun c => congrArg y (lift_ix2 h n c)
  exact congrArg (fun f => Finset.fold max (init (Shape.Idx.first hu)) f (Finset.univ : Finset (Fin k))) hf

/-- Taking the maximum with the fold's own start once more changes nothing: the start is below the fold. -/
private theorem max_fold_self {ι : Type} (s : Finset ι) (b : EReal) (f : ι → EReal) :
    max b (s.fold max b f) = s.fold max b f :=
  max_eq_right ((Finset.le_fold_max b).2 (Or.inl le_rfl))

/-! ## The stages of the log-softmax at row n -/

/-- Entry (n, c) of the flattened logits is the prediction of class c at pixel n: the transpose moves the class
    axis last and the reshape flattens (b, r, q) row-major, so (n · 19 + c) splits back into (b, r, q, c). -/
private theorem logits_apply (x0 : SP.Idx → EReal) (n : Fin 4194304) (c : Fin 19) :
    ReadP.val_main_v19 (F := Ideal) x0 (ix2 n c) = x0 (ix4 (nb n) c (nr n) (nq n)) := by
  rw [ReadP.val_main_v19_apply, ReadP.val_main_v18_apply]
  refine congrArg x0 (funext fun a => Fin.ext ?_)
  have hn := n.isLt
  have hc := c.isLt
  match a with
  | ⟨0, _⟩ => show (n.val * 19 + c.val) / 4980736 = n.val / 262144; omega
  | ⟨1, _⟩ => show (n.val * 19 + c.val) % 19 = c.val; omega
  | ⟨2, _⟩ => show (n.val * 19 + c.val) / 9728 % 512 = n.val / 512 % 512; omega
  | ⟨3, _⟩ => show (n.val * 19 + c.val) / 19 % 512 = n.val % 512; omega

/-- The row maximum the log-softmax subtracts is the pixel's largest logit: the reduction is the fold of max from −∞
    over the 19 classes, and the further maximum with −∞ leaves it as it is. -/
private theorem rowmax_apply (x0 : SP.Idx → EReal) (n : Fin 4194304) :
    ReadP.val_main_call1_v2 (F := Ideal) x0 (ix1 n) = mx x0 (nb n) (nr n) (nq n) := by
  have h0 : ReadP.val_main_call1_v0 (F := Ideal) x0 (ix1 n)
      = (Finset.univ : Finset (Fin 19)).fold max negInf (fun c => x0 (ix4 (nb n) c (nr n) (nq n))) := by
    unfold ReadP.val_main_call1_v0
    refine (rowMax_fold (ReadP.val_main_v19 (F := Ideal) x0) (ReadP.val_main_call1_cst (F := Ideal))
      reducesTo_S4194304x19_S4194304_d1 (by decide) h_S_ n).trans ?_
    have hb : ReadP.val_main_call1_cst (F := Ideal) (Shape.Idx.first h_S_) = negInf := rfl
    rw [hb]
    exact Finset.fold_congr (fun c _ => logits_apply x0 n c)
  rw [ReadP.val_main_call1_v2_apply, ReadP.val_main_call1_v1_apply, ReadP.val_main_call1_cst_0_apply, h0]
  exact max_fold_self _ negInf _

/-- The shifted logit: entry (n, c) of the logits less the row maximum. -/
private theorem sh_apply (x0 : SP.Idx → EReal) (n : Fin 4194304) (c : Fin 19) :
    ReadP.val_main_call1_v5 (F := Ideal) x0 (ix2 n c) = sh x0 (nb n) c (nr n) (nq n) := by
  rw [ReadP.val_main_call1_v5_apply, ReadP.val_main_call1_v4_apply, ReadP.val_main_call1_v3_apply,
    show ReadP.idx_main_call1_v3 (ReadP.idx_main_call1_v4 (ix2 n c)) = ix1 n from
      funext fun a => Fin.ext (by match a with | ⟨0, _⟩ => rfl),
    rowmax_apply, logits_apply]
  rfl

/-- The log of the row's sum of exponentials of the shifted logits (the sum starts from the zero word). -/
private theorem lse_apply (x0 : SP.Idx → EReal) (n : Fin 4194304) :
    ReadP.val_main_call1_v9 (F := Ideal) x0 (ix2 n (0 : Fin 1)) = lse x0 (nb n) (nr n) (nq n) := by
  rw [ReadP.val_main_call1_v9_apply, ReadP.val_main_call1_v8_apply,
    show ReadP.idx_main_call1_v8 (ix2 n (0 : Fin 1)) = ix1 n from
      funext fun a => Fin.ext (by match a with | ⟨0, _⟩ => rfl),
    ReadP.val_main_call1_v7_apply, ReadP.val_main_call1_cst_1_apply, Ideal.hostUnary_log_def, Ideal.ofBits_def,
    Ideal.ofBits_zero_f32, zero_add]
  unfold lse
  refine congrArg Ideal.log (Finset.sum_congr rfl fun k _ => ?_)
  rw [show ReadP.idx_main_call1_v7 (ix1 n) k = ix2 n k from
      funext fun a => Fin.ext (by match a with | ⟨0, _⟩ => rfl | ⟨1, _⟩ => rfl),
    ReadP.val_main_call1_v6_apply, Ideal.hostUnary_exp_def, sh_apply]

/-- Entry (n, c) of the log-softmax is pixel n's shifted logit of class c less its log-sum-exp. -/
theorem logprob_apply (x0 : SP.Idx → EReal) (n : Fin 4194304) (c : Fin 19) :
    Cert.ReferenceIdeal.ReadP.val_main_v20 (F := Ideal) x0 (ix2 n c)
      = sh x0 (nb n) c (nr n) (nq n) - lse x0 (nb n) (nr n) (nq n) := by
  rw [ReadP.val_main_v20_apply, ReadP.val_main_call1_v10_apply,
    show ReadP.idx_main_call1_v10 (ix2 n c) = ix2 n (0 : Fin 1) from
      funext fun a => Fin.ext (by match a with | ⟨0, _⟩ => rfl | ⟨1, _⟩ => rfl),
    sh_apply, lse_apply]
  rfl

end Cert.ReferenceIdeal.RefV

end
-- ==== Proof.RefTake.lean ====
/-
  The reference's take along the class axis, negated, read at the extended reals for labels below 19. A label below
  19 is not negative as a signed word, so it is not wrapped; it lies in [0, 18], so the range test passes and the
  fill value is not read; the batched gather reads row n of the log-probabilities at the label's own class.
-/
import proofs.«403436_j66709432042305_3_alg».proof.Proof.Spec
import proofs.«403436_j66709432042305_3_alg».proof.Proof.RefRead
import Idealize.ShloMosaic.Lib.ValueIdx
import Idealize.ShloMosaic.PureOps.Reduce
import Idealize.ShloMosaic.Lib.StableHlo.Predicate
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RefV

open Cert.ReferenceIdeal Cert.ReferenceIdeal.Gen Cert.WCE

/-! ## Words below 19 under the signed comparisons -/

/-- A word below 19 is not negative as a signed word. -/
private theorem slt_zero_of_lt (w : BitVec 32) (hw : w.toNat < 19) : IntOp.cmpi .slt w 0#32 = 0#1 := by
  have h : ¬ IntOp.cmpi .slt w 0#32 = 1#1 := by
    rw [StableHlo.Predicate.slt_iff_toNat (by omega) (by decide)]
    simp
  exact eq_zero_of_ne_one h

/-- A word below 19 is at least zero as a signed word. -/
private theorem sge_zero_of_lt (w : BitVec 32) (hw : w.toNat < 19) : IntOp.cmpi .sge w 0#32 = 1#1 := by
  rw [StableHlo.Predicate.sge_iff_toNat (by omega) (by decide)]
  simp

/-- A word below 19 is at most 18 as a signed word. -/
private theorem sle_18_of_lt (w : BitVec 32) (hw : w.toNat < 19) : IntOp.cmpi .sle w 18#32 = 1#1 := by
  rw [StableHlo.Predicate.sle_iff_toNat (by omega) (by decide)]
  show w.toNat ≤ 18
  omega

/-- A word below 19, read signed and clamped into [0, 18], is its own value. -/
private theorem clamp_of_lt (w : BitVec 32) (hw : w.toNat < 19) : min w.toInt.toNat (19 - 1) = w.toNat := by
  rw [StableHlo.Predicate.toInt_eq_toNat_of_lt (by omega)]
  simp only [Int.toNat_natCast]
  omega

/-! ## An and-reduction of set bits -/

/-- A left fold of the one-bit "and" from the set bit over elements that are all the set bit is the set bit. -/
private theorem foldl_andi_one {ι : Type} (x : ι → BitVec 1) (hx : ∀ i, x i = 1#1) (l : List ι) :
    l.foldl (fun r i => IntOp.andi r (x i)) 1#1 = 1#1 := by
  induction l with
  | nil => rfl
  | cons a l ih => rw [List.foldl_cons, hx a]; exact ih

/-- An and-reduction from the set bit of an array whose every bit is set is the set bit at every index. -/
private theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x hx _

/-! ## A gather that takes one entry of each row

The dimension numbers of a take along the second axis of an [N, C] array at start indices [N, 1, 1]: the first axis is a
batching axis of both, the second is collapsed and is the one the start index names, the slice is one entry. Result
entry (n, 0) is the operand at row n and at the start index of row n, read signed and clamped into [0, C − 1]. -/

section Take
variable {α : Type}

private abbrev rowTakeDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

private theorem gather_rowTake_apply {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (n : Fin N) :
    Host.gather (rowTakeDims N C wf) x idx (ix2 n (0 : Fin 1))
      = x (ix2 n ⟨min (idx (ix3 n (0 : Fin 1) (0 : Fin 1))).toInt.toNat (C - 1), by omega⟩) := by
  unfold Host.gather
  congr 1
  funext a
  refine Fin.ext ?_
  show (rowTakeDims N C wf).start (ix2 n (0 : Fin 1)) idx a + (rowTakeDims N C wf).batchCoord (ix2 n (0 : Fin 1)) a
    + (rowTakeDims N C wf).offCoord (ix2 n (0 : Fin 1)) a = _
  have ha : a = 0 ∨ a = 1 := by
    rcases a with ⟨v, hv⟩
    have hv2 : v < 2 := hv
    rcases v with _ | _ | v
    · exact Or.inl rfl
    · exact Or.inr rfl
    · omega
  rcases ha with rfl | rfl
  · -- the batching axis: the row of the result index
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  · -- the collapsed axis: the clamped start index
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowTakeDims N C wf).startIndexMap from List.mem_singleton.mpr rfl)]
    have hsi : (rowTakeDims N C wf).siIdx (ix2 n (0 : Fin 1)) ⟨List.idxOf (1 : Fin 2) (rowTakeDims N C wf).startIndexMap,
        List.idxOf_lt_length_iff.2 (List.mem_singleton.mpr rfl)⟩ = ix3 n (0 : Fin 1) (0 : Fin 1) := by
      funext b; refine Fin.ext ?_
      match b with
      | ⟨0, _⟩ => rfl
      | ⟨1, _⟩ => rfl
      | ⟨2, _⟩ => rfl
    rw [hsi]
    rfl

end Take

/-! ## The stages of the take, read at an index -/

section Stages
variable (x0 : SP.Idx → EReal) (x1 : ST.Idx → BitVec 32) (hT : ∀ i, (x1 i).toNat < 19)
include hT

/-- Every broadcast label is below 19. -/
private theorem v21_lt (i : S4194304x1.Idx) : (ReadP.val_main_v21 (F := Ideal) x1 i).toNat < 19 := by
  rw [ReadP.val_main_v21_apply, ReadP.val_main_v0_apply]
  exact hT _

/-- No label is wrapped: it is not negative. -/
private theorem v4_eq (i : S4194304x1.Idx) :
    ReadP.val_main_call2_v4 (F := Ideal) x1 i = ReadP.val_main_v21 (F := Ideal) x1 i := by
  rw [ReadP.val_main_call2_v4_apply, ReadP.val_main_call2_v1_apply, ReadP.val_main_call2_v0_apply,
    ReadP.val_main_call2_c_apply, slt_zero_of_lt _ (v21_lt x1 hT i)]
  exact select_zero _ _

/-- The start indices are the labels. -/
private theorem v5_eq (i : S4194304x1x1.Idx) :
    ReadP.val_main_call2_v5 (F := Ideal) x1 i = ReadP.val_main_v21 (F := Ideal) x1 (ReadP.idx_main_call2_v5 i) := by
  rw [ReadP.val_main_call2_v5_apply, v4_eq x1 hT]

private theorem v5_lt (i : S4194304x1x1.Idx) : (ReadP.val_main_call2_v5 (F := Ideal) x1 i).toNat < 19 := by
  rw [v5_eq x1 hT]
  exact v21_lt x1 hT _

/-- Every start index passes the range test 0 ≤ · ≤ 18. -/
private theorem v11_one (i : S4194304x1x1.Idx) : ReadP.val_main_call2_v11 (F := Ideal) x1 i = 1#1 := by
  rw [ReadP.val_main_call2_v11_apply, ReadP.val_main_call2_v7_apply, ReadP.val_main_call2_v10_apply,
    ReadP.val_main_call2_v6_apply, ReadP.val_main_call2_c_2_apply, ReadP.val_main_call2_v9_apply,
    ReadP.val_main_call2_v8_apply, ReadP.val_main_call2_c_1_apply,
    sge_zero_of_lt _ (v5_lt x1 hT i), sle_18_of_lt _ (v5_lt x1 hT i)]
  rfl

/-- So does its and-reduction over the index vector's one component. -/
private theorem v12_one (j : S4194304x1.Idx) : ReadP.val_main_call2_v12 (F := Ideal) x1 j = 1#1 := by
  unfold ReadP.val_main_call2_v12
  exact reduce_andi_one _ _ _ _ (v11_one x1 hT) (fun _ => rfl) j

/-- The start index of row n is pixel n's label. -/
private theorem v5_at (n : Fin 4194304) :
    ReadP.val_main_call2_v5 (F := Ideal) x1 (ix3 n (0 : Fin 1) (0 : Fin 1)) = x1 (ix3 (nb n) (nr n) (nq n)) := by
  rw [v5_eq x1 hT, ReadP.val_main_v21_apply, ReadP.val_main_v0_apply]
  congr 1
  funext a
  match a with
  | ⟨0, _⟩ => exact Fin.ext (by show ((n.val * 1 + 0) * 1 + 0) / 1 / 262144 = n.val / 262144; omega)
  | ⟨1, _⟩ => exact Fin.ext (by show ((n.val * 1 + 0) * 1 + 0) / 1 / 512 % 512 = n.val / 512 % 512; omega)
  | ⟨2, _⟩ => exact Fin.ext (by show ((n.val * 1 + 0) * 1 + 0) / 1 % 512 = n.val % 512; omega)

/-- The gather reads row n of the log-probabilities at pixel n's own class. -/
private theorem v13_at (n : Fin 4194304) :
    ReadP.val_main_call2_v13 (F := Ideal) x0 x1 (ix2 n (0 : Fin 1))
      = ReadP.val_main_v20 (F := Ideal) x0 (ix2 n (cls (x1 (ix3 (nb n) (nr n) (nq n))))) := by
  unfold ReadP.val_main_call2_v13 gather_S4194304x19_S4194304x1x1_S4194304x1_n_1_0_0_1_2_11
  refine (gather_rowTake_apply (N := 4194304) (C := 19) (by decide)
    Facts₀.gather_S4194304x19_S4194304x1x1_S4194304x1_n_1_0_0_1_2_11_wf
    (ReadP.val_main_v20 (F := Ideal) x0) (ReadP.val_main_call2_v5 (F := Ideal) x1) n).trans ?_
  congr 2
  refine Fin.ext ?_
  show min (ReadP.val_main_call2_v5 (F := Ideal) x1 (ix3 n (0 : Fin 1) (0 : Fin 1))).toInt.toNat (19 - 1)
    = (x1 (ix3 (nb n) (nr n) (nq n))).toNat % 19
  rw [v5_at x1 hT n, clamp_of_lt _ (hT _), Nat.mod_eq_of_lt (hT _)]

end Stages

/-- Pixel n's negated taken log-probability is minus the log-probability of the pixel's own label. -/
theorem take_apply (x0 : SP.Idx → EReal) (x1 : ST.Idx → BitVec 32) (hT : ∀ i, (x1 i).toNat < 19) (n : Fin 4194304) :
    Cert.ReferenceIdeal.ReadP.val_main_v24 (F := Ideal) x0 x1 (ix1 n)
      = -(Cert.ReferenceIdeal.ReadP.val_main_v20 (F := Ideal) x0 (ix2 n (cls (x1 (ix3 (nb n) (nr n) (nq n)))))) := by
  have hidx : ReadP.idx_main_v23 (ix1 n) = ix2 n (0 : Fin 1) := by
    funext a
    match a with
    | ⟨0, _⟩ => exact Fin.ext (Nat.div_one _)
    | ⟨1, _⟩ => rfl
  rw [ReadP.val_main_v24_apply, ReadP.val_main_v23_apply, ReadP.val_main_v22_apply, hidx, v12_one x1 hT,
    v13_at x0 x1 hT n, select_one, Ideal.hostNegf_def, Ideal.negf_def]

end Cert.ReferenceIdeal.RefV

end
-- ==== Proof.RefWeights.lean ====
/-
  The reference's class weights read at the extended reals: from the 19 counts, the total; each class's inverse
  frequency total / (count + ε); those normalised by their sum and scaled by nineteen; all ones when the total is
  not positive. And the gather of a pixel's weight by its label: a label below 19 is not wrapped and not clamped, so
  the gather reads the weight of the label's own class.
-/
import proofs.«403436_j66709432042305_3_alg».proof.Proof.Spec
import proofs.«403436_j66709432042305_3_alg».proof.Proof.RefRead
import Idealize.ShloMosaic.Lib.ValueIdx
import Idealize.ShloMosaic.Lib.StableHlo.Predicate
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RefV

open Cert.ReferenceIdeal Cert.ReferenceIdeal.Gen Cert.WCE

/-! ## Indices, sums and words -/

/-- A rank-1 index set is its coordinate's range. -/
private def idxEquiv1 {n : Nat} : (⟨1, ![n]⟩ : Shape).Idx ≃ Fin n where
  toFun j := j 0
  invFun k := ix1 k
  left_inv j := (eq_ix1 j).symm
  right_inv _ := rfl

/-- A sum over a rank-1 index set is the sum over the coordinate. -/
private theorem sum_idx1 {M : Type*} [AddCommMonoid M] {n : Nat} (f : (⟨1, ![n]⟩ : Shape).Idx → M) :
    ∑ j, f j = ∑ k : Fin n, f (ix1 k) :=
  Fintype.sum_equiv idxEquiv1 _ _ (fun j => congrArg f (eq_ix1 j))

/-- A select on a decided proposition's bit is the `if`. -/
private theorem select_ofBool_decide {α : Type} (p : Prop) [Decidable p] (a b : α) :
    Scalar.select (BitVec.ofBool (decide p)) a b = if p then a else b := by
  unfold Scalar.select
  by_cases h : p
  · rw [if_pos h, decide_eq_true h]; rfl
  · rw [if_neg h, decide_eq_false h]; exact if_neg (by decide)

/-- The index built from a coordinate is the index at that coordinate. -/
private theorem ix1_eq_ofFin {n : Nat} (k : Fin n) : (ix1 k : (⟨1, ![n]⟩ : Shape).Idx) = Shape.Idx.ofFin k := by
  funext a; match a with | ⟨0, _⟩ => rfl

/-- A label word below 19 is not negative, so the wrap-around select keeps it. -/
private theorem wrap_keep (w : BitVec 32) (h : w.toNat < 19) :
    Scalar.select (IntOp.cmpi .slt w 0#32) (IntOp.addi w 19#32) w = w := by
  have hz : IntOp.cmpi .slt w 0#32 = 0#1 :=
    eq_zero_of_ne_one (fun h1 => by
      have := (StableHlo.Predicate.slt_iff_toNat (a := w) (b := 0#32) (by omega) (by decide)).mp h1
      simp at this)
  rw [hz, select_zero]

/-- Read signed and clamped into [0, 18], a label word below 19 is its own class. -/
private theorem clamp_keep (w : BitVec 32) (h : w.toNat < 19) : min w.toInt.toNat (19 - 1) = (cls w).val := by
  rw [StableHlo.Predicate.toInt_eq_toNat_of_lt (by omega), Int.toNat_natCast]
  show min w.toNat 18 = w.toNat % 19
  rw [Nat.mod_eq_of_lt h]; omega

/-! ## The weights' stages at a class -/

section Stages
variable (x1 : ST.Idx → BitVec 32) (x2 : ST.Idx → EReal)

/-- The total is the sum of the 19 counts. -/
private theorem total_apply (i : S_.Idx) :
    ReadP.val_main_v5 (F := Ideal) x1 x2 i = ∑ k : Fin 19, ReadP.val_main_v4 (F := Ideal) x1 x2 (ix1 k) := by
  rw [ReadP.val_main_v5_apply, ReadP.val_main_cst_0_apply, Ideal.ofBits_def, Ideal.ofBits_zero_f32, zero_add]
  exact sum_idx1 _

/-- Class `k`'s inverse frequency: the total over the count plus ε. -/
private theorem invfreq_apply (k : Fin 19) :
    ReadP.val_main_v9 (F := Ideal) x1 x2 (ix1 k)
      = Ideal.div (∑ j : Fin 19, ReadP.val_main_v4 (F := Ideal) x1 x2 (ix1 j))
          (ReadP.val_main_v4 (F := Ideal) x1 x2 (ix1 k) + eps) := by
  rw [ReadP.val_main_v9_apply, ReadP.val_main_v8_apply, total_apply, ReadP.val_main_v7_apply, ReadP.val_main_v6_apply,
    ReadP.val_main_cst_1_apply, Ideal.hostDivf_def, Ideal.addf_def, Ideal.ofBits_def]
  rfl

/-- The normaliser: the sum of the 19 inverse frequencies. -/
private theorem norm_apply (i : S_.Idx) :
    ReadP.val_main_v10 (F := Ideal) x1 x2 i
      = ∑ j : Fin 19, Ideal.div (∑ k : Fin 19, ReadP.val_main_v4 (F := Ideal) x1 x2 (ix1 k))
          (ReadP.val_main_v4 (F := Ideal) x1 x2 (ix1 j) + eps) := by
  rw [ReadP.val_main_v10_apply, ReadP.val_main_cst_2_apply, Ideal.ofBits_def, Ideal.ofBits_zero_f32, zero_add]
  refine (sum_idx1 _).trans ?_
  exact Finset.sum_congr rfl (fun j _ => invfreq_apply x1 x2 j)

/-- Class `k`'s normalised inverse frequency, scaled by nineteen. -/
private theorem scaled_apply (k : Fin 19) :
    ReadP.val_main_v14 (F := Ideal) x1 x2 (ix1 k)
      = Ideal.div (Ideal.div (∑ j : Fin 19, ReadP.val_main_v4 (F := Ideal) x1 x2 (ix1 j))
            (ReadP.val_main_v4 (F := Ideal) x1 x2 (ix1 k) + eps))
          (∑ j : Fin 19, Ideal.div (∑ k : Fin 19, ReadP.val_main_v4 (F := Ideal) x1 x2 (ix1 k))
            (ReadP.val_main_v4 (F := Ideal) x1 x2 (ix1 j) + eps)) * nineteen := by
  rw [ReadP.val_main_v14_apply, ReadP.val_main_v12_apply, invfreq_apply, ReadP.val_main_v11_apply, norm_apply,
    ReadP.val_main_v13_apply, ReadP.val_main_cst_3_apply, Ideal.mulf_def, Ideal.hostDivf_def, Ideal.ofBits_def]
  rfl

/-- The condition: the total is positive. -/
private theorem cond_apply (i : S_.Idx) :
    ReadP.val_main_v15 (F := Ideal) x1 x2 i
      = BitVec.ofBool (decide (0 < ∑ k : Fin 19, ReadP.val_main_v4 (F := Ideal) x1 x2 (ix1 k))) := by
  rw [ReadP.val_main_v15_apply, total_apply, ReadP.val_main_cst_4_apply, Ideal.cmpf_def, Ideal.ofBits_def,
    Ideal.ofBits_zero_f32]
  rfl

end Stages

/-- Class `k`'s weight is the weight function of the 19 scattered counts. -/
theorem weights_apply (x1 : ST.Idx → BitVec 32) (x2 : ST.Idx → EReal) (k : Fin 19) :
    Cert.ReferenceIdeal.ReadP.val_main_v17 (F := Ideal) x1 x2 (ix1 k)
      = cwOf (fun j => Cert.ReferenceIdeal.ReadP.val_main_v4 (F := Ideal) x1 x2 (ix1 j)) k := by
  unfold Cert.ReferenceIdeal.ReadP.val_main_v17
  rw [select_apply, broadcastInDim_apply _ bcast_S_S19 _ (ix1 k) ix0 (fun a => a.elim0), cond_apply, scaled_apply,
    ReadP.val_main_v16_apply, ReadP.val_main_cst_5_apply, Ideal.ofBits_def, select_ofBool_decide]
  rfl

/-- Pixel n's gathered weight is the weight of the pixel's own label. -/
theorem weight_gather_apply (x1 : ST.Idx → BitVec 32) (x2 : ST.Idx → EReal) (hT : ∀ i, (x1 i).toNat < 19) (n : Fin 4194304) :
    Cert.ReferenceIdeal.ReadP.val_main_v31 (F := Ideal) x1 x2 (ix1 n)
      = Cert.ReferenceIdeal.ReadP.val_main_v17 (F := Ideal) x1 x2 (ix1 (cls (x1 (ix3 (nb n) (nr n) (nq n))))) := by
  have hw := hT (ix3 (nb n) (nr n) (nq n))
  -- the start index of pixel n is the pixel's label word
  have e30 : ReadP.idx_main_v30 (StableHlo.Predicate.ixP n) = ix1 n := by
    funext a; match a with | ⟨0, _⟩ => rfl
  have e0 : ReadP.idx_main_v0 (ix1 n) = ix3 (nb n) (nr n) (nq n) := by
    funext a; match a with | ⟨0, _⟩ => rfl | ⟨1, _⟩ => rfl | ⟨2, _⟩ => rfl
  have hidx : ReadP.val_main_v30 (F := Ideal) x1 (StableHlo.Predicate.ixP n) = x1 (ix3 (nb n) (nr n) (nq n)) := by
    rw [ReadP.val_main_v30_apply, e30, ReadP.val_main_v29_apply, ReadP.val_main_v26_apply, ReadP.val_main_v28_apply,
      ReadP.val_main_v25_apply, ReadP.val_main_v27_apply, ReadP.val_main_c_apply, ReadP.val_main_c_6_apply,
      ReadP.val_main_v0_apply, e0]
    exact wrap_keep _ hw
  unfold Cert.ReferenceIdeal.ReadP.val_main_v31
  rw [ix1_eq_ofFin n]
  refine (StableHlo.Predicate.gather_take gather_S19_S4194304x1_S4194304_n_0_n_n_0_1_1 rfl rfl rfl rfl
    (ReadP.val_main_v17 (F := Ideal) x1 x2) (ReadP.val_main_v30 (F := Ideal) x1) n (by decide)).trans ?_
  refine congrArg _ ?_
  funext a
  match a with
  | ⟨0, _⟩ =>
    refine Fin.ext ?_
    show min (ReadP.val_main_v30 (F := Ideal) x1 (StableHlo.Predicate.ixP n)).toInt.toNat (19 - 1) = _
    rw [hidx]
    exact clamp_keep _ hw

end Cert.ReferenceIdeal.RefV

end
-- ==== Proof.RefValue.lean ====
/-
  The reference's result read at the extended reals: for labels below 19 the composed host term is the final
  normalisation of the per-pixel sum — minus the log-probability of the pixel's own label (the take along the class
  axis stays in range, so no fill value is read), times the label's weight (the gather from the 19 weights), times
  the mask — over the labelled mass; the weights come from the masked label counts (the accumulating scatter into
  19 bins, each bin the sum of the mask over the pixels carrying that label), and the log-probabilities from the
  shifted logits (logit less the row's largest) less the log of the sum of their exponentials.
-/
import proofs.«403436_j66709432042305_3_alg».proof.Proof.Spec
import proofs.«403436_j66709432042305_3_alg».proof.Proof.RefRead
import proofs.«403436_j66709432042305_3_alg».proof.Proof.RefCounts
import proofs.«403436_j66709432042305_3_alg».proof.Proof.RefLogProb
import proofs.«403436_j66709432042305_3_alg».proof.Proof.RefTake
import proofs.«403436_j66709432042305_3_alg».proof.Proof.RefWeights
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RefV

open Cert.ReferenceIdeal Cert.ReferenceIdeal.Gen Cert.WCE

/-- A sum over a one-axis index set is the sum over its one coordinate. -/
private theorem sum_idx1 {M : Type*} [AddCommMonoid M] {n : Nat} (f : (⟨1, ![n]⟩ : Shape).Idx → M) :
    ∑ j, f j = ∑ a : Fin n, f (ix1 a) :=
  Fintype.sum_equiv ⟨fun j => j 0, fun a => ix1 a, fun j => (eq_ix1 j).symm, fun _ => rfl⟩ _ _
    (fun j => congrArg f (eq_ix1 j))

/-- Entry n of a flattened [16, 512, 512] array sits at pixel (n / 262144, n / 512 % 512, n % 512). -/
private theorem idx_flat (n : Fin 4194304) :
    ReadP.idx_main_v1 (ix1 n) = ix3 (nb n) (nr n) (nq n) := by
  funext a
  match a with
  | ⟨0, _⟩ => rfl
  | ⟨1, _⟩ => rfl
  | ⟨2, _⟩ => rfl

/-- Entry n of the flattened mask is the mask at pixel n. -/
private theorem mask_flat (x2 : ST.Idx → EReal) (n : Fin 4194304) :
    ReadP.val_main_v1 (F := Ideal) x2 (ix1 n) = x2 (ix3 (nb n) (nr n) (nq n)) := by
  rw [ReadP.val_main_v1_apply, idx_flat]

/-- The flattened mask's total is the labelled mass summed along the flattened pixel axis. -/
private theorem sum_mask (x2 : ST.Idx → EReal) :
    ∑ j : S4194304.Idx, ReadP.val_main_v1 (F := Ideal) x2 j = sumR (mk x2) := by
  refine (sum_idx1 (n := 4194304) _).trans ?_
  show _ = ∑ n : Fin 4194304, x2 (ix3 (nb n) (nr n) (nq n))
  exact Finset.sum_congr rfl fun n _ => mask_flat x2 n

/-- Pixel n's summand: minus the log-probability of the pixel's own label, times that label's weight (the weight
    function of the 19 masked label counts), times the mask. -/
private theorem pixel_term (x0 : SP.Idx → EReal) (x1 : ST.Idx → BitVec 32) (x2 : ST.Idx → EReal)
    (hT : ∀ i, (x1 i).toNat < 19) (n : Fin 4194304) :
    ReadP.val_main_v33 (F := Ideal) x0 x1 x2 (ix1 n)
      = (-(sh x0 (nb n) (cls (x1 (ix3 (nb n) (nr n) (nq n)))) (nr n) (nq n) - lse x0 (nb n) (nr n) (nq n)))
        * cwOf (fun k => sumR (mc x1 x2 k)) (cls (x1 (ix3 (nb n) (nr n) (nq n))))
        * x2 (ix3 (nb n) (nr n) (nq n)) := by
  rw [ReadP.val_main_v33_apply, ReadP.val_main_v32_apply, Ideal.mulf_def, Ideal.mulf_def,
    take_apply x0 x1 hT n, logprob_apply, weight_gather_apply x1 x2 hT n, weights_apply, mask_flat,
    show (fun j => ReadP.val_main_v4 (F := Ideal) x1 x2 (ix1 j)) = fun k => sumR (mc x1 x2 k) from
      funext (counts_apply x1 x2 hT)]

/-- The summands' total is the per-pixel weighted loss summed along the flattened pixel axis. -/
private theorem sum_terms (x0 : SP.Idx → EReal) (x1 : ST.Idx → BitVec 32) (x2 : ST.Idx → EReal)
    (hT : ∀ i, (x1 i).toNat < 19) :
    ∑ j : S4194304.Idx, ReadP.val_main_v33 (F := Ideal) x0 x1 x2 j
      = sumR fun b r q => (-(sh x0 b (cls (x1 (ix3 b r q))) r q - lse x0 b r q))
          * cwOf (fun k => sumR (mc x1 x2 k)) (cls (x1 (ix3 b r q))) * x2 (ix3 b r q) := by
  refine (sum_idx1 (n := 4194304) _).trans ?_
  exact Finset.sum_congr rfl fun n _ => pixel_term x0 x1 x2 hT n

/-- The closing select on the two totals L and num (each a sum started from the zero word): L / num when num is
    positive, else L. -/
private theorem final_select (L num : EReal) :
    Scalar.select (FloatOps.cmpf (F := Ideal) (φ := .f32) .ogt
        ((FloatOps.ofBits (F := Ideal) .f32 0x00000000#32 : EReal) + num) (FloatOps.ofBits (F := Ideal) .f32 0x00000000#32))
      (FloatOps.hostDivf (F := Ideal) (φ := .f32) ((FloatOps.ofBits (F := Ideal) .f32 0x00000000#32 : EReal) + L)
        ((FloatOps.ofBits (F := Ideal) .f32 0x00000000#32 : EReal) + num))
      ((FloatOps.ofBits (F := Ideal) .f32 0x00000000#32 : EReal) + L) = finOf L num := by
  simp only [Ideal.ofBits_def, Ideal.ofBits_zero_f32, zero_add, Ideal.cmpf_def, Ideal.cmp, Ideal.hostDivf_def]
  unfold finOf
  by_cases h : 0 < num
  · rw [if_pos h, decide_eq_true h]
    exact select_one _ _
  · rw [if_neg h, decide_eq_false h]
    exact select_zero _ _

/-- The reference's result, for labels below 19, is the per-pixel form of the loss. -/
theorem ref_result (x0 : SP.Idx → EReal) (x1 : ST.Idx → BitVec 32) (x2 : ST.Idx → EReal)
    (hT : ∀ i, (x1 i).toNat < 19) :
    Cert.ReferenceIdeal.ReadP.val_main_v39 (F := Ideal) x0 x1 x2 = fun _ => resR x0 x1 x2 := by
  funext i
  rw [ReadP.val_main_v39_apply, ReadP.val_main_v35_apply, ReadP.val_main_v37_apply, ReadP.val_main_v34_apply,
    ReadP.val_main_v36_apply, ReadP.val_main_v38_apply, ReadP.val_main_cst_7_apply, ReadP.val_main_cst_8_apply,
    ReadP.val_main_cst_9_apply, ReadP.val_main_cst_10_apply, sum_mask, sum_terms x0 x1 x2 hT]
  exact final_select _ _

end Cert.ReferenceIdeal.RefV

end
-- ==== Proof.PreDecode.lean ====
/-
  The precondition read: the printed predicate (a conjunction of five whole-array tests, each an `and`-reduction of
  an elementwise comparison) is all ones exactly when every prediction and every mask entry is below +∞ in absolute
  value, every label word is at least 0 and below 19 as a signed number, and every mask entry is 0 or 1. From it:
  every prediction is a real number, every label is below 19 as a natural number, every mask entry is 0 or 1.
-/
import proofs.«403436_j66709432042305_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal.Laws

noncomputable section

namespace Cert.Proof.PreD

open Idealize.ShloMosaic Idealize.ShloMosaic.ValueIdx Cert.Pre_finite_inputs

/-- The scalar shape has exactly one index. -/
private theorem subsingleton_scalar_idx : Subsingleton S_.Idx := ⟨fun a b => funext fun d => d.elim0⟩

/-- The f32 word of +∞ denotes the top of the extended reals. -/
private theorem ofBits_inf : Ideal.ofBits .f32 0x7F800000#32 = ⊤ := by simp [Ideal.ofBits, Ideal.ieee]

/-- The f32 word of 1.0 denotes the extended real one: sign 0, exponent field 127, fraction 0, that is 2²³ · 2⁻²³. -/
private theorem ofBits_one : Ideal.ofBits .f32 0x3F800000#32 = 1 := by
  simp [Ideal.ofBits, Ideal.ieee]
  rw [← EReal.coe_mul]
  norm_num

/-- An extended real whose absolute value `max x (-x)` is below +∞ is a real number: at ⊥ and at ⊤ that maximum is ⊤. -/
private theorem real_of_abs_lt_inf (x : EReal)
    (h : Ideal.cmp .olt (max x (-x)) (Ideal.ofBits .f32 0x7F800000#32) = 1#1) : ∃ r : ℝ, x = (r : EReal) := by
  rw [ofBits_inf] at h
  unfold Ideal.cmp at h
  simp only [StableHlo.Predicate.ofBool_eq_one_iff, decide_eq_true_eq] at h
  induction x using EReal.rec with
  | bot => simp at h
  | top => simp at h
  | coe r => exact ⟨r, rfl⟩

/-- A 32-bit word that is at least 0 and below 19 as a signed number is below 19 as a natural number: its sign bit is
    clear, so its signed and unsigned readings agree. -/
private theorem toNat_lt_of_signed (w : BitVec 32) (h0 : IntOp.cmpi .sge w 0#32 = 1#1)
    (h1 : IntOp.cmpi .slt w 19#32 = 1#1) : w.toNat < 19 := by
  rw [IntOp.cmpi_sge] at h0
  rw [IntOp.cmpi_slt] at h1
  have e0 : (0#32 : BitVec 32).toInt = 0 := by decide
  have e19 : (19#32 : BitVec 32).toInt = 19 := by decide
  rw [e0] at h0
  rw [e19] at h1
  have hw := w.isLt
  rw [BitVec.toInt_eq_toNat_cond] at h0 h1
  split_ifs at h0 h1 <;> omega

/-- An extended real that equals the f32 zero or the f32 one is 0 or 1. -/
private theorem zero_or_one (x : EReal)
    (h : IntOp.ori (Ideal.cmp .oeq x (Ideal.ofBits .f32 0x00000000#32))
        (Ideal.cmp .oeq x (Ideal.ofBits .f32 0x3F800000#32)) = 1#1) : x = 0 ∨ x = 1 := by
  rw [IntOp.ori_eq_one, Ideal.ofBits_zero_f32, ofBits_one] at h
  unfold Ideal.cmp at h
  simpa only [StableHlo.Predicate.ofBool_eq_one_iff, decide_eq_true_eq] using h

/-- What the precondition says of the three argument arrays. -/
theorem decode (a0 : FVec Ideal S16x19x512x512 .f32) (a1 : IVec S16x512x512 32) (a2 : FVec Ideal S16x512x512 .f32)
    (h : Cert.Pre_finite_inputs.fn (F := Ideal) a0 a1 a2 = fun _ => 1#1) :
    (∀ i, ∃ x : ℝ, a0 i = (x : EReal)) ∧ (∀ i, (a1 i).toNat < 19) ∧ (∀ i, a2 i = 0 ∨ a2 i = 1) := by
  -- the predicate at its one index: a conjunction of five reductions by `and`, each equal to 1
  have e := congrFun h ix0
  dsimp only [Cert.Pre_finite_inputs.fn, Cert.Pre_finite_inputs.fn_part1] at e
  simp only [andi, IntOp.andi_eq_one] at e
  obtain ⟨⟨⟨⟨h1, _⟩, h3⟩, h4⟩, h5⟩ := e
  -- a reduction by `and` over all axes that is 1 had a 1 at every element; each element fact is read back
  haveI := subsingleton_scalar_idx
  refine ⟨fun i => ?_, fun i => ?_, fun i => ?_⟩
  · exact real_of_abs_lt_inf (a0 i) (Host.reduce_andi_all _ _ _ _ _ h1 i)
  · exact toNat_lt_of_signed (a1 i) (Host.reduce_andi_all _ _ _ _ _ h3 i) (Host.reduce_andi_all _ _ _ _ _ h4 i)
  · exact zero_or_one (a2 i) (Host.reduce_andi_all _ _ _ _ _ h5 i)

end Cert.Proof.PreD

end
-- ==== Proof.Bridge.lean ====
/-
  The two ways of computing the weighted partial cross-entropy agree on the extended reals, for finite predictions,
  labels in range and a mask of zeros and ones. The two pixel sums are one sum (row `128 h + r` of block `h`; pixel
  `(b · 512 + r) · 512 + q` of the flattened axis). Under the hypotheses every quantity is a real number: a pixel's
  largest logit, the shifted logits, the log of the sum of their exponentials (the sum is positive), the masked counts
  (non-negative), hence the class weights (each division is by a non-zero real, or the weights are all one when no
  mass is labelled). Over the reals the per-class form `∑_c w_c · ∑_pixels [label = c] · m · nll_c` is the per-pixel
  form `∑_pixels nll_label · w_label · m` by exchanging the sums and selecting the pixel's own class (the label is
  below 19), and `−(s − l) = l − s`.
-/
import proofs.«403436_j66709432042305_3_alg».proof.Proof.Spec
import Idealize.ShloMosaic.PureOps.Ideal.Laws

noncomputable section

open scoped BigOperators

namespace Cert.WCE

open Idealize.ShloMosaic Idealize.ShloMosaic.ValueIdx

/-- Row block and row in the block, against the row of the image. -/
def rowEquiv : Fin 4 × Fin 128 ≃ Fin 512 where
  toFun p := rowK p.1 p.2
  invFun R := (⟨R.val / 128, by have := R.isLt; omega⟩, ⟨R.val % 128, Nat.mod_lt _ (by decide)⟩)
  left_inv := by
    rintro ⟨h, r⟩
    have := h.isLt; have := r.isLt
    refine Prod.ext (Fin.ext ?_) (Fin.ext ?_)
    · show (128 * h.val + r.val) / 128 = h.val; omega
    · show (128 * h.val + r.val) % 128 = r.val; omega
  right_inv := by
    intro R
    refine Fin.ext ?_
    show 128 * (R.val / 128) + R.val % 128 = R.val; omega

/-- The flattened pixel against its batch, row and column. -/
def pixEquiv : Fin 4194304 ≃ Fin 16 × Fin 512 × Fin 512 where
  toFun n := (nb n, nr n, nq n)
  invFun p := ⟨(p.1.val * 512 + p.2.1.val) * 512 + p.2.2.val, by
    have := p.1.isLt; have := p.2.1.isLt; have := p.2.2.isLt; omega⟩
  left_inv := by
    intro n
    refine Fin.ext ?_
    show (n.val / 262144 * 512 + n.val / 512 % 512) * 512 + n.val % 512 = n.val; omega
  right_inv := by
    rintro ⟨b, r, q⟩
    have := b.isLt; have := r.isLt; have := q.isLt
    refine Prod.ext (Fin.ext ?_) (Prod.ext (Fin.ext ?_) (Fin.ext ?_))
    · show ((b.val * 512 + r.val) * 512 + q.val) / 262144 = b.val; omega
    · show ((b.val * 512 + r.val) * 512 + q.val) / 512 % 512 = r.val; omega
    · show ((b.val * 512 + r.val) * 512 + q.val) % 512 = q.val; omega

/-- The block-by-block pixel sum is the flattened pixel sum (any additive commutative monoid would do). -/
theorem sumK_eq_sumR (f : Fin 16 → Fin 512 → Fin 512 → EReal) : sumK f = sumR f := by
  unfold sumK sumR
  rw [Fintype.sum_equiv pixEquiv (fun n => f (nb n) (nr n) (nq n)) (fun p => f p.1 p.2.1 p.2.2) (fun _ => rfl)]
  rw [Fintype.sum_prod_type]
  refine Finset.sum_congr rfl fun b _ => ?_
  rw [Fintype.sum_prod_type]
  rw [← Fintype.sum_equiv rowEquiv (fun p => ∑ q, f b (rowK p.1 p.2) q) (fun R => ∑ q, f b R q) (fun _ => rfl)]
  rw [Fintype.sum_prod_type]

/-! ## Real numbers inside the extended reals -/

/-- A finite sum of reals, read in the extended reals, is the sum of the readings. -/
private theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A finite sum of non-negative reals is a non-negative real. -/
private theorem sum_real_nonneg {ι : Type} [Fintype ι] (f : ι → EReal)
    (hf : ∀ n, ∃ x : ℝ, f n = (x : EReal) ∧ 0 ≤ x) : ∃ x : ℝ, ∑ n, f n = (x : EReal) ∧ 0 ≤ x := by
  choose g hg using hf
  refine ⟨∑ n, g n, ?_, Finset.sum_nonneg fun n _ => (hg n).2⟩
  rw [coe_sum]
  exact Finset.sum_congr rfl fun n _ => (hg n).1

/-! ## The constants -/

/-- The reduction's start is the bottom of the extended reals. -/
private theorem negInf_eq : negInf = ⊥ := by
  simp [negInf, Ideal.ofBits, Ideal.ieee]

/-- The weights' ε is a positive real, 8796093 · 2⁻⁴³. -/
private theorem eps_real : ∃ r : ℝ, eps = (r : EReal) ∧ 0 < r := by
  have h : eps = ((8796093 * (2 : ℝ) ^ (-43 : ℤ) : ℝ) : EReal) := by
    simp [eps, Ideal.ofBits, Ideal.ieee, -EReal.coe_mul]
  exact ⟨_, h, by positivity⟩

/-- Nineteen is the real 19. -/
private theorem nineteen_real : ∃ r : ℝ, nineteen = (r : EReal) := by
  refine ⟨19, ?_⟩
  simp [nineteen, Ideal.ofBits, Ideal.ieee, -EReal.coe_mul]; norm_num

/-- One is the real 1. -/
private theorem one_real : ∃ r : ℝ, one = (r : EReal) := by
  refine ⟨1, ?_⟩
  simp [one, Ideal.ofBits, Ideal.ieee, -EReal.coe_mul]; norm_num

/-! ## Every quantity of a pixel is real -/

/-- The fold of max from the bottom over a non-empty set of reals is a real (one of them). -/
private theorem fold_max_real (f : Fin 19 → EReal) (hf : ∀ c, ∃ x : ℝ, f c = (x : EReal)) :
    ∀ s : Finset (Fin 19), s.Nonempty → ∃ x : ℝ, s.fold max ⊥ f = (x : EReal) := by
  intro s
  refine Finset.induction_on s (fun h => absurd h Finset.not_nonempty_empty) ?_
  intro a s ha ih _
  rw [Finset.fold_insert ha]
  rcases s.eq_empty_or_nonempty with rfl | hs
  · rw [Finset.fold_empty, max_eq_left bot_le]; exact hf a
  · rcases max_choice (f a) (s.fold max ⊥ f) with h | h <;> rw [h]
    · exact hf a
    · exact ih hs

section
variable (P : SP.Idx → EReal) (hP : ∀ i, ∃ x : ℝ, P i = (x : EReal))
include hP

/-- A pixel's largest logit is real. -/
private theorem mx_real (b : Fin 16) (r q : Fin 512) : ∃ x : ℝ, mx P b r q = (x : EReal) := by
  unfold mx; rw [negInf_eq]
  exact fold_max_real _ (fun c => hP _) _ Finset.univ_nonempty

/-- A shifted logit is real. -/
private theorem sh_real (b : Fin 16) (c : Fin 19) (r q : Fin 512) : ∃ x : ℝ, sh P b c r q = (x : EReal) := by
  obtain ⟨p, hp⟩ := hP (ix4 b c r q)
  obtain ⟨m, hm⟩ := mx_real P hP b r q
  exact ⟨p - m, by rw [sh, hp, hm, EReal.coe_sub]⟩

/-- The log of the sum of the exponentials is real: the sum of 19 exponentials of reals is a positive real. -/
private theorem lse_real (b : Fin 16) (r q : Fin 512) : ∃ x : ℝ, lse P b r q = (x : EReal) := by
  choose s hs using fun c => sh_real P hP b c r q
  have hpos : 0 < ∑ c : Fin 19, Real.exp (s c) :=
    Finset.sum_pos (fun c _ => Real.exp_pos _) Finset.univ_nonempty
  refine ⟨Real.log (∑ c : Fin 19, Real.exp (s c)), ?_⟩
  have hsum : (∑ c : Fin 19, Ideal.exp (sh P b c r q)) = ((∑ c : Fin 19, Real.exp (s c) : ℝ) : EReal) := by
    rw [coe_sum]; exact Finset.sum_congr rfl fun c _ => by rw [hs c, Ideal.exp_coe]
  rw [lse, hsum, Ideal.log_coe, if_neg (not_le.mpr hpos)]

end

/-- A mask entry, zero or one, is a non-negative real. -/
private theorem mask_real (M : ST.Idx → EReal) (hM : ∀ i, M i = 0 ∨ M i = 1) (i : ST.Idx) :
    ∃ x : ℝ, M i = (x : EReal) ∧ 0 ≤ x := by
  rcases hM i with h | h
  · exact ⟨0, by rw [h, EReal.coe_zero], le_refl _⟩
  · exact ⟨1, by rw [h, EReal.coe_one], zero_le_one⟩

/-- The class weights of non-negative real counts are real: with positive total every denominator (a count plus ε)
    is positive and the normaliser, a sum of positive quotients, is positive; otherwise the weight is one. -/
private theorem cwOf_real (cnt : Fin 19 → EReal) (hc : ∀ k, ∃ x : ℝ, cnt k = (x : EReal) ∧ 0 ≤ x) (c : Fin 19) :
    ∃ x : ℝ, cwOf cnt c = (x : EReal) := by
  choose g hg using hc
  obtain ⟨e, he, hepos⟩ := eps_real
  obtain ⟨n19, hn19⟩ := nineteen_real
  obtain ⟨o, ho⟩ := one_real
  have htot : ∑ k, cnt k = ((∑ k, g k : ℝ) : EReal) := by
    rw [coe_sum]; exact Finset.sum_congr rfl fun k _ => (hg k).1
  have hden : ∀ j, cnt j + eps = ((g j + e : ℝ) : EReal) := fun j => by rw [(hg j).1, he, EReal.coe_add]
  have hdpos : ∀ j, 0 < g j + e := fun j => add_pos_of_nonneg_of_pos (hg j).2 hepos
  have hq : ∀ j, Ideal.div (∑ k, cnt k) (cnt j + eps) = (((∑ k, g k) * (1 / (g j + e)) : ℝ) : EReal) := fun j => by
    rw [hden j, Ideal.div_coe (ne_of_gt (hdpos j)), htot, EReal.coe_mul]
  unfold cwOf
  split_ifs with hpos
  · have hposr : 0 < ∑ k, g k := by rw [htot] at hpos; exact EReal.coe_pos.mp hpos
    have hS : ∑ j, Ideal.div (∑ k, cnt k) (cnt j + eps) = ((∑ j, (∑ k, g k) * (1 / (g j + e)) : ℝ) : EReal) := by
      rw [coe_sum]; exact Finset.sum_congr rfl fun j _ => hq j
    have hSpos : 0 < ∑ j, (∑ k, g k) * (1 / (g j + e)) :=
      Finset.sum_pos (fun j _ => mul_pos hposr (one_div_pos.mpr (hdpos j))) Finset.univ_nonempty
    rw [hS, Ideal.div_coe (ne_of_gt hSpos), hq c, hn19, ← EReal.coe_mul, ← EReal.coe_mul]
    exact ⟨_, rfl⟩
  · exact ⟨o, ho⟩

/-! ## Selecting the pixel's own class, and exchanging the sums -/

/-- A label below 19 is the word of class c exactly when c is the label's class. -/
private theorem label_eq_iff (w : BitVec 32) (hw : w.toNat < 19) (c : Fin 19) :
    w = BitVec.ofNat 32 c.val ↔ c = cls w := by
  constructor
  · intro h
    apply Fin.ext
    show c.val = w.toNat % 19
    have hc : w.toNat = c.val := by
      rw [h, BitVec.toNat_ofNat]; have := c.isLt; omega
    omega
  · intro h
    apply BitVec.eq_of_toNat_eq
    rw [BitVec.toNat_ofNat, h]
    show w.toNat = w.toNat % 19 % 2 ^ 32
    omega

/-- Over the reals: the per-class form is the per-pixel form. -/
private theorem exch_real {ι : Type} [Fintype ι] (w : Fin 19 → ℝ) (m l : ι → ℝ) (t : ι → Fin 19)
    (s : Fin 19 → ι → ℝ) :
    ∑ c : Fin 19, w c * ∑ n : ι, (if c = t n then m n else 0) * (l n - s c n)
      = ∑ n : ι, (-(s (t n) n - l n)) * w (t n) * m n := by
  simp only [Finset.mul_sum]
  rw [Finset.sum_comm]
  refine Finset.sum_congr rfl fun n _ => ?_
  rw [Finset.sum_eq_single (t n) (fun c _ hc => by rw [if_neg hc, zero_mul, mul_zero])
    (fun h => absurd (Finset.mem_univ _) h)]
  rw [if_pos rfl]; ring

/-- The same over the extended reals, when every quantity is real. -/
private theorem exch_ereal {ι : Type} [Fintype ι] (w : Fin 19 → EReal) (m l : ι → EReal) (t : ι → Fin 19)
    (s sel : Fin 19 → ι → EReal)
    (hw : ∀ c, ∃ x : ℝ, w c = (x : EReal)) (hm : ∀ n, ∃ x : ℝ, m n = (x : EReal))
    (hl : ∀ n, ∃ x : ℝ, l n = (x : EReal)) (hs : ∀ c n, ∃ x : ℝ, s c n = (x : EReal))
    (hsel : ∀ c n, sel c n = if c = t n then m n else 0) :
    ∑ c : Fin 19, w c * ∑ n : ι, sel c n * (l n - s c n)
      = ∑ n : ι, (-(s (t n) n - l n)) * w (t n) * m n := by
  choose wr hwr using hw
  choose mr hmr using hm
  choose lr hlr using hl
  choose sr hsr using hs
  have hL : ∀ c, w c * ∑ n : ι, sel c n * (l n - s c n)
      = ((wr c * ∑ n : ι, (if c = t n then mr n else 0) * (lr n - sr c n) : ℝ) : EReal) := by
    intro c
    rw [EReal.coe_mul, coe_sum, hwr c]
    congr 1
    refine Finset.sum_congr rfl fun n _ => ?_
    rw [hsel, hmr, hlr, hsr, EReal.coe_mul, EReal.coe_sub]
    congr 1
    split_ifs
    · rfl
    · exact EReal.coe_zero.symm
  have hR : ∀ n, (-(s (t n) n - l n)) * w (t n) * m n
      = (((-(sr (t n) n - lr n)) * wr (t n) * mr n : ℝ) : EReal) := by
    intro n
    rw [hsr, hlr, hwr, hmr, EReal.coe_mul, EReal.coe_mul, EReal.coe_neg, EReal.coe_sub]
  rw [Finset.sum_congr rfl (fun c _ => hL c), Finset.sum_congr rfl (fun n _ => hR n), ← coe_sum, ← coe_sum,
    exch_real]

/-- The kernel's form of the result is the reference's, for finite predictions, labels below 19 and a 0/1 mask. -/
theorem resK_eq_resR (P : SP.Idx → EReal) (T : ST.Idx → BitVec 32) (M : ST.Idx → EReal)
    (hP : ∀ i, ∃ x : ℝ, P i = (x : EReal)) (hT : ∀ i, (T i).toNat < 19) (hM : ∀ i, M i = 0 ∨ M i = 1) :
    resK P T M = resR P T M := by
  -- the class weights are real
  have hw : ∀ c, ∃ x : ℝ, cwOf (fun k => sumR (mc T M k)) c = (x : EReal) := by
    intro c
    refine cwOf_real _ (fun k => ?_) c
    unfold sumR
    refine sum_real_nonneg _ fun n => ?_
    unfold mc
    split_ifs
    · exact mask_real M hM _
    · exact ⟨0, EReal.coe_zero.symm, le_refl _⟩
  unfold resK resR
  simp only [sumK_eq_sumR]
  refine congrArg (fun L => finOf L (sumR (mk M))) ?_
  generalize cwOf (fun k => sumR (mc T M k)) = w at hw ⊢
  unfold sumR
  exact exch_ereal w (fun n => M (ix3 (nb n) (nr n) (nq n))) (fun n => lse P (nb n) (nr n) (nq n))
    (fun n => cls (T (ix3 (nb n) (nr n) (nq n)))) (fun c n => sh P (nb n) c (nr n) (nq n))
    (fun c n => mc T M c (nb n) (nr n) (nq n)) hw (fun n => (mask_real M hM _).imp fun _ h => h.1)
    (fun n => lse_real P hP _ _ _) (fun c n => sh_real P hP _ _ _ _)
    (fun c n => if_congr (label_eq_iff _ (hT _) c) rfl rfl)

end Cert.WCE

end
-- ==== Proof.lean ====
/-
  The weighted partial cross-entropy kernel against its jnp reference, over the extended reals, for finite
  predictions, labels in [0, 19) and a label mask of zeros and ones.

  The kernel makes one fused pass: per batch and block of 128 rows it takes the log-softmax over the 19 classes and
  accumulates, per class c, the masked label count and the masked negative log-likelihood sum in lane c of two
  128-lane rows, and the labelled mass in a third; the host sums those rows over the batch, forms the class weights
  (inverse frequency, normalised to sum to 19; all ones when nothing is labelled) and returns the weighted loss over
  the labelled mass. The reference scatters the mask into 19 bins for the counts, forms the same weights, and sums per
  pixel minus the log-probability of the pixel's own label times that label's weight times the mask.

  The two agree because the weighted loss is linear in the one-hot class indicator:
  `∑_c w_c · ∑_pixels [label = c] · m · nll_c = ∑_pixels nll_label · w_label · m`, an exchange of two finite sums of
  real numbers. Under the precondition everything is real — the largest logit, the shifted logits, the log-sum-exp
  (of a positive sum), the non-negative counts, hence the weights (every quotient has a positive denominator when
  some mass is labelled) — so the exchange and `−(s − l) = l − s` are laws of the reals. Labels below 19 make a pixel
  select exactly one class and keep the reference's take along the class axis inside its range.

  The kernel's side: the generated frame run gives the three result arrays after the grid; each output block stays in
  its staging buffer over a batch's four row blocks and is written back after the fourth, so an array entry is the
  sum over the four row blocks of the block sums (Proof/KPiece3, KPiece4, KAcc); the host operations after the region
  are one function of the three arrays, read at the extended reals (Proof/KTail, KFinal). The reference's side: its
  run over the operation list, read one operation at a time (Proof/RefRun, RefRead, RefValue). The precondition is
  read in Proof/PreDecode, the mathematics is Proof/Spec and Proof/Bridge.
-/
import proofs.«403436_j66709432042305_3_alg».proof.Defs
import proofs.«403436_j66709432042305_3_alg».proof.Proof.Gen.Kernel
import proofs.«403436_j66709432042305_3_alg».proof.Proof.Gen.Kernel.Frame
import proofs.«403436_j66709432042305_3_alg».proof.Proof.Gen.KernelIdeal
import proofs.«403436_j66709432042305_3_alg».proof.Proof.Gen.KernelIdeal.Frame
import proofs.«403436_j66709432042305_3_alg».proof.Proof.Gen.ReferenceIdeal
import proofs.«403436_j66709432042305_3_alg».proof.Proof.Gen.Pre_finite_inputs
import proofs.«403436_j66709432042305_3_alg».proof.Proof.KFinal
import proofs.«403436_j66709432042305_3_alg».proof.Proof.RefValue
import proofs.«403436_j66709432042305_3_alg».proof.Proof.PreDecode
import proofs.«403436_j66709432042305_3_alg».proof.Proof.Bridge
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the same extended real: the kernel's per-class form of the loss is the reference's
    per-pixel form, the arguments agreeing and satisfying the precondition. -/
theorem algebraic : Cert.algebraic_KernelIdeal_ReferenceIdeal := by
  intro m ρ m' ρ' hpre hagree
  refine ⟨fun c => fun _ => Cert.WCE.resK (Cert.KernelIdeal.KV.argP m c) (Cert.KernelIdeal.KV.argT m c) (Cert.KernelIdeal.KV.argM m c), ?_, ?_⟩
  · exact (θ_run Cert.KernelIdeal.defs _ _).mono
      (fun r h c => ⟨(h c).1.trans (Cert.KernelIdeal.KV.kernel_value m c), (h c).2⟩)
      (Cert.KernelIdeal.KV.run_tail (F := Ideal) m ρ)
  · refine (θ_run Cert.ReferenceIdeal.defs _ _).mono (fun r h c => ⟨(h c).1.trans ?_, (h c).2⟩)
      (Cert.ReferenceIdeal.ValueP.run (F := Ideal) m' ρ')
    obtain ⟨hP, hT, hM⟩ := Cert.Proof.PreD.decode _ _ _ (hpre c)
    rw [Cert.ReferenceIdeal.ReadP.val_main_v39_eq, (hagree c).1, (hagree c).2.1, (hagree c).2.2]
    rw [Cert.ReferenceIdeal.RefV.ref_result _ _ _ hT]
    funext _
    exact (Cert.WCE.resK_eq_resR _ _ _ hP hT hM).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
